-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S256x5632 : Shape := ⟨2, ![256, 5632]⟩
abbrev S16x704 : Shape := ⟨2, ![16, 704]⟩
abbrev S16x5632 : Shape := ⟨2, ![16, 5632]⟩
abbrev S704x2048 : Shape := ⟨2, ![704, 2048]⟩
abbrev S44x256 : Shape := ⟨2, ![44, 256]⟩
abbrev S44x2048 : Shape := ⟨2, ![44, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x5632 : S_.BroadcastsInDim S16x5632 (![] : Fin 0 → Fin S16x5632.rank)
  reducesTo_S16x5632_S_d0_1 : S16x5632.ReducesTo [0, 1] S_
  bcast_S_S44x2048 : S_.BroadcastsInDim S44x2048 (![] : Fin 0 → Fin S44x2048.rank)
  reducesTo_S44x2048_S_d0_1 : S44x2048.ReducesTo [0, 1] S_

variable [Facts]

def fn_part1 {F : FTy → Type} [FloatOps F] (main_v13 : IVec S_ 1) (main_v16 : IVec S44x2048 1) : IVec S_ 1 :=
  let main_c_5 : IVec S_ 1 := constantI S_ 1 1#1
  let main_v17 : IVec S_ 1 := (fun x v => Host.reduce IntOp.andi x v reducesTo_S44x2048_S_d0_1 h_S_) main_v16 main_c_5
  let main_v18 : IVec S_ 1 := andi main_v13 main_v17
  main_v18

def fn {F : FTy → Type} [FloatOps F] (main_arg0 : FVec F S8192x2048 .f32) (main_arg1 : IVec S256x5632 32) (main_arg2 : IVec S16x704 32) (main_arg3 : FVec F S16x5632 .f32) (main_arg4 : IVec S256x5632 32) (main_arg5 : IVec S16x704 32) (main_arg6 : FVec F S16x5632 .f32) (main_arg7 : IVec S704x2048 32) (main_arg8 : IVec S44x256 32) (main_arg9 : FVec F S44x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S16x5632 .f32 := Host.absf main_arg3
  let main_cst_0 : FVec F S_ .f32 := constant S_ .f32 0x7F800000#32
  let main_v5 : FVec F S16x5632 .f32 := broadcastInDim S16x5632 ![] bcast_S_S16x5632 main_cst_0
  let main_v6 : IVec S16x5632 1 := cmpf .olt main_v4 main_v5
  let main_c_1 : IVec S_ 1 := constantI S_ 1 1#1
  let main_v7 : IVec S_ 1 := (fun x v => Host.reduce IntOp.andi x v reducesTo_S16x5632_S_d0_1 h_S_) main_v6 main_c_1
  let main_v8 : IVec S_ 1 := andi main_v3 main_v7
  let main_v9 : FVec F S16x5632 .f32 := Host.absf main_arg6
  let main_cst_2 : FVec F S_ .f32 := constant S_ .f32 0x7F800000#32
  let main_v10 : FVec F S16x5632 .f32 := broadcastInDim S16x5632 ![] bcast_S_S16x5632 main_cst_2
  let main_v11 : IVec S16x5632 1 := cmpf .olt main_v9 main_v10
  let main_c_3 : IVec S_ 1 := constantI S_ 1 1#1
  let main_v12 : IVec S_ 1 := (fun x v => Host.reduce IntOp.andi x v reducesTo_S16x5632_S_d0_1 h_S_) main_v11 main_c_3
  let main_v13 : IVec S_ 1 := andi main_v8 main_v12
  let main_v14 : FVec F S44x2048 .f32 := Host.absf main_arg9
  let main_cst_4 : FVec F S_ .f32 := constant S_ .f32 0x7F800000#32
  let main_v15 : FVec F S44x2048 .f32 := broadcastInDim S44x2048 ![] bcast_S_S44x2048 main_cst_4
  let main_v16 : IVec S44x2048 1 := cmpf .olt main_v14 main_v15
  fn_part1 (F := F) main_v13 main_v16
-- ==== Kernel.lean ====
abbrev S8192x2048 : Shape := ⟨2, ![8192, 2048]⟩
abbrev S256x5632 : Shape := ⟨2, ![256, 5632]⟩
abbrev S16x704 : Shape := ⟨2, ![16, 704]⟩
abbrev S16x5632 : Shape := ⟨2, ![16, 5632]⟩
abbrev S704x2048 : Shape := ⟨2, ![704, 2048]⟩
abbrev S44x256 : Shape := ⟨2, ![44, 256]⟩
abbrev S44x2048 : Shape := ⟨2, ![44, 2048]⟩
abbrev S_ : Shape := ⟨0, ![]⟩
abbrev S256x6144 : Shape := ⟨2, ![256, 6144]⟩
abbrev S16x768 : Shape := ⟨2, ![16, 768]⟩
abbrev S16x6144 : Shape := ⟨2, ![16, 6144]⟩
abbrev S768x2048 : Shape := ⟨2, ![768, 2048]⟩
abbrev S48x256 : Shape := ⟨2, ![48, 256]⟩
abbrev S48x2048 : Shape := ⟨2, ![48, 2048]⟩
abbrev S2048x6144 : Shape := ⟨2, ![2048, 6144]⟩
abbrev S128x1024 : Shape := ⟨2, ![128, 1024]⟩
abbrev S8x128 : Shape := ⟨2, ![8, 128]⟩
abbrev S8x1024 : Shape := ⟨2, ![8, 1024]⟩
abbrev S1024x1024 : Shape := ⟨2, ![1024, 1024]⟩
abbrev S128x1x1024 : Shape := ⟨3, ![128, 1, 1024]⟩
abbrev S128x8x1024 : Shape := ⟨3, ![128, 8, 1024]⟩
abbrev S8x128x1 : Shape := ⟨3, ![8, 128, 1]⟩
abbrev S8x128x8 : Shape := ⟨3, ![8, 128, 8]⟩
abbrev S8x1x1024 : Shape := ⟨3, ![8, 1, 1024]⟩
abbrev S8x128x1024 : Shape := ⟨3, ![8, 128, 1024]⟩
abbrev S6144x2048 : Shape := ⟨2, ![6144, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩

abbrev nBuf : Space → Nat
  | .hbm => 42
  | .vmem => 34
  | .smem => 0
  | _ => 0

abbrev bufTy : (tb : Table) → Fin (tcTables nBuf tb) → BufTy
  | .hbm, ⟨0, _⟩ => ⟨S8192x2048, .f32⟩
  | .hbm, ⟨1, _⟩ => ⟨S256x5632, .i32⟩
  | .hbm, ⟨2, _⟩ => ⟨S16x704, .i32⟩
  | .hbm, ⟨3, _⟩ => ⟨S16x5632, .f32⟩
  | .hbm, ⟨4, _⟩ => ⟨S256x5632, .i32⟩
  | .hbm, ⟨5, _⟩ => ⟨S16x704, .i32⟩
  | .hbm, ⟨6, _⟩ => ⟨S16x5632, .f32⟩
  | .hbm, ⟨7, _⟩ => ⟨S704x2048, .i32⟩
  | .hbm, ⟨8, _⟩ => ⟨S44x256, .i32⟩
  | .hbm, ⟨9, _⟩ => ⟨S44x2048, .f32⟩
  | .hbm, ⟨10, _⟩ => ⟨S_, .i32⟩
  | .hbm, ⟨11, _⟩ => ⟨S_, .i32⟩
  | .hbm, ⟨12, _⟩ => ⟨S256x6144, .i32⟩
  | .hbm, ⟨13, _⟩ => ⟨S_, .i32⟩
  | .hbm, ⟨14, _⟩ => ⟨S_, .i32⟩
  | .hbm, ⟨15, _⟩ => ⟨S16x768, .i32⟩
  | .hbm, ⟨16, _⟩ => ⟨S_, .i32⟩
  | .hbm, ⟨17, _⟩ => ⟨S_, .f32⟩
  | .hbm, ⟨18, _⟩ => ⟨S16x6144, .f32⟩
  | .hbm, ⟨19, _⟩ => ⟨S_, .i32⟩
  | .hbm, ⟨20, _⟩ => ⟨S_, .i32⟩
  | .hbm, ⟨21, _⟩ => ⟨S256x6144, .i32⟩
  | .hbm, ⟨22, _⟩ => ⟨S_, .i32⟩
  | .hbm, ⟨23, _⟩ => ⟨S_, .i32⟩
  | .hbm, ⟨24, _⟩ => ⟨S16x768, .i32⟩
  | .hbm, ⟨25, _⟩ => ⟨S_, .i32⟩
  | .hbm, ⟨26, _⟩ => ⟨S_, .f32⟩
  | .hbm, ⟨27, _⟩ => ⟨S16x6144, .f32⟩
  | .hbm, ⟨28, _⟩ => ⟨S_, .i32⟩
  | .hbm, ⟨29, _⟩ => ⟨S_, .i32⟩
  | .hbm, ⟨30, _⟩ => ⟨S768x2048, .i32⟩
  | .hbm, ⟨31, _⟩ => ⟨S_, .i32⟩
  | .hbm, ⟨32, _⟩ => ⟨S_, .i32⟩
  | .hbm, ⟨33, _⟩ => ⟨S48x256, .i32⟩
  | .hbm, ⟨34, _⟩ => ⟨S_, .i32⟩
  | .hbm, ⟨35, _⟩ => ⟨S_, .f32⟩
  | .hbm, ⟨36, _⟩ => ⟨S48x2048, .f32⟩
  | .hbm, ⟨37, _⟩ => ⟨S2048x6144, .bf16⟩
  | .hbm, ⟨38, _⟩ => ⟨S2048x6144, .bf16⟩
  | .hbm, ⟨39, _⟩ => ⟨S6144x2048, .bf16⟩
  | .hbm, ⟨40, _⟩ => ⟨S8192x2048, .bf16⟩
  | .hbm, ⟨41, _⟩ => ⟨S8192x2048, .f32⟩
  | .local _ .vmem, ⟨0, _⟩ => ⟨S128x1024, .i32⟩
  | .local _ .vmem, ⟨1, _⟩ => ⟨S128x1024, .i32⟩
  | .local _ .vmem, ⟨2, _⟩ => ⟨S8x128, .i32⟩
  | .local _ .vmem, ⟨3, _⟩ => ⟨S8x128, .i32⟩
  | .local _ .vmem, ⟨4, _⟩ => ⟨S8x1024, .f32⟩
  | .local _ .vmem, ⟨5, _⟩ => ⟨S8x1024, .f32⟩
  | .local _ .vmem, ⟨6, _⟩ => ⟨S1024x1024, .bf16⟩
  | .local _ .vmem, ⟨7, _⟩ => ⟨S1024x1024, .bf16⟩
  | .local _ .vmem, ⟨8, _⟩ => ⟨S128x1024, .i32⟩
  | .local _ .vmem, ⟨9, _⟩ => ⟨S128x1024, .i32⟩
  | .local _ .vmem, ⟨10, _⟩ => ⟨S8x128, .i32⟩
  | .local _ .vmem, ⟨11, _⟩ => ⟨S8x128, .i32⟩
  | .local _ .vmem, ⟨12, _⟩ => ⟨S8x1024, .f32⟩
  | .local _ .vmem, ⟨13, _⟩ => ⟨S8x1024, .f32⟩
  | .local _ .vmem, ⟨14, _⟩ => ⟨S1024x1024, .bf16⟩
  | .local _ .vmem, ⟨15, _⟩ => ⟨S1024x1024, .bf16⟩
  | .local _ .vmem, ⟨16, _⟩ => ⟨S128x1024, .i32⟩
  | .local _ .vmem, ⟨17, _⟩ => ⟨S128x1024, .i32⟩
  | .local _ .vmem, ⟨18, _⟩ => ⟨S8x128, .i32⟩
  | .local _ .vmem, ⟨19, _⟩ => ⟨S8x128, .i32⟩
  | .local _ .vmem, ⟨20, _⟩ => ⟨S8x1024, .f32⟩
  | .local _ .vmem, ⟨21, _⟩ => ⟨S8x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x2048, .bf16⟩
  | .local _ .vmem, ⟨25, _⟩ => ⟨S1024x2048, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S256x2048, .bf16⟩
  | .local _ .vmem, ⟨31, _⟩ => ⟨S256x2048, .bf16⟩
  | .local _ .vmem, ⟨32, _⟩ => ⟨S1024x2048, .f32⟩
  | .local _ .vmem, ⟨33, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_c_1 : Ref sig .tc := ⟨.hbm, 16, rfl⟩
abbrev main_call2_v0 : Ref sig .tc := ⟨.hbm, 17, rfl⟩
abbrev main_v2 : Ref sig .tc := ⟨.hbm, 18, rfl⟩
abbrev main_c_2 : Ref sig .tc := ⟨.hbm, 19, rfl⟩
abbrev main_call3_v0 : Ref sig .tc := ⟨.hbm, 20, rfl⟩
abbrev main_v3 : Ref sig .tc := ⟨.hbm, 21, rfl⟩
abbrev main_c_3 : Ref sig .tc := ⟨.hbm, 22, rfl⟩
abbrev main_call4_v0 : Ref sig .tc := ⟨.hbm, 23, rfl⟩
abbrev main_v4 : Ref sig .tc := ⟨.hbm, 24, rfl⟩
abbrev main_c_4 : Ref sig .tc := ⟨.hbm, 25, rfl⟩
abbrev main_call5_v0 : Ref sig .tc := ⟨.hbm, 26, rfl⟩
abbrev main_v5 : Ref sig .tc := ⟨.hbm, 27, rfl⟩
abbrev main_c_5 : Ref sig .tc := ⟨.hbm, 28, rfl⟩
abbrev main_call6_v0 : Ref sig .tc := ⟨.hbm, 29, rfl⟩
abbrev main_v6 : Ref sig .tc := ⟨.hbm, 30, rfl⟩
abbrev main_c_6 : Ref sig .tc := ⟨.hbm, 31, rfl⟩
abbrev main_call7_v0 : Ref sig .tc := ⟨.hbm, 32, rfl⟩
abbrev main_v7 : Ref sig .tc := ⟨.hbm, 33, rfl⟩
abbrev main_c_7 : Ref sig .tc := ⟨.hbm, 34, rfl⟩
abbrev main_call8_v0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![6, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S128x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 22], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S256x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  pads_S256x5632_S256x6144_000_05120 : S256x5632.Pads (![0, 0] : Fin 2 → Nat) ![0, 512] ![0, 0] S256x6144
  h_S_ : 0 < S_.numel
  pads_S16x704_S16x768_000_0640 : S16x704.Pads (![0, 0] : Fin 2 → Nat) ![0, 64] ![0, 0] S16x768
  pads_S16x5632_S16x6144_000_05120 : S16x5632.Pads (![0, 0] : Fin 2 → Nat) ![0, 512] ![0, 0] S16x6144
  pads_S704x2048_S768x2048_0640_000 : S704x2048.Pads (![0, 0] : Fin 2 → Nat) ![64, 0] ![0, 0] S768x2048
  pads_S44x256_S48x256_040_000 : S44x256.Pads (![0, 0] : Fin 2 → Nat) ![4, 0] ![0, 0] S48x256
  pads_S44x2048_S48x2048_040_000 : S44x2048.Pads (![0, 0] : Fin 2 → Nat) ![4, 0] ![0, 0] S48x2048
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S128x1024_S128x1x1024 : S128x1024.ShapeCasts S128x1x1024
  concatenates_S128x1x1024_S128x1x1024_S128x1x1024_S128x1x1024_S128x1x1024_S128x1x1024_S128x1x1024_S128x1x1024_S128x8x1024_d1 : Shape.Concatenates [S128x1x1024, S128x1x1024, S128x1x1024, S128x1x1024, S128x1x1024, S128x1x1024, S128x1x1024, S128x1x1024] S128x8x1024 1
  shapeCasts_S128x8x1024_S1024x1024 : S128x8x1024.ShapeCasts S1024x1024
  shapeCasts_S8x128_S8x128x1 : S8x128.ShapeCasts S8x128x1
  concatenates_S8x128x1_S8x128x1_S8x128x1_S8x128x1_S8x128x1_S8x128x1_S8x128x1_S8x128x1_S8x128x8_d2 : Shape.Concatenates [S8x128x1, S8x128x1, S8x128x1, S8x128x1, S8x128x1, S8x128x1, S8x128x1, S8x128x1] S8x128x8 2
  shapeCasts_S8x128x8_S8x1024 : S8x128x8.ShapeCasts S8x1024
  shapeCasts_S8x1024_S8x1x1024 : S8x1024.ShapeCasts S8x1x1024
  shapeCasts_S8x1x1024_S8x1x1024 : S8x1x1024.ShapeCasts S8x1x1024
  broadcasts_S8x1x1024_S8x128x1024 : S8x1x1024.Broadcasts S8x128x1024
  shapeCasts_S8x128x1024_S1024x1024 : S8x128x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x6144.size a
  hwx0_0 : ∀ i : grid0.Coords, EltTy.bits .i32 = 32 ∨ (Rect.block (s := S256x6144) S128x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x768.size a
  hwx0_1 : ∀ i : grid0.Coords, EltTy.bits .i32 = 32 ∨ (Rect.block (s := S16x768) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S16x6144.size a
  hwx0_2 : ∀ i : grid0.Coords, EltTy.bits .f32 = 32 ∨ (Rect.block (s := S16x6144) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x6144.size a
  hwx0_3 : ∀ i : grid0.Coords, EltTy.bits .bf16 = 32 ∨ (Rect.block (s := S2048x6144) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S256x6144.size a
  hwx1_0 : ∀ i : grid1.Coords, EltTy.bits .i32 = 32 ∨ (Rect.block (s := S256x6144) S128x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S16x768.size a
  hwx1_1 : ∀ i : grid1.Coords, EltTy.bits .i32 = 32 ∨ (Rect.block (s := S16x768) S8x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S16x6144.size a
  hwx1_2 : ∀ i : grid1.Coords, EltTy.bits .f32 = 32 ∨ (Rect.block (s := S16x6144) S8x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x6144.size a
  hwx1_3 : ∀ i : grid1.Coords, EltTy.bits .bf16 = 32 ∨ (Rect.block (s := S2048x6144) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x1024.size a ≤ S768x2048.size a
  hwx2_0 : ∀ i : grid2.Coords, EltTy.bits .i32 = 32 ∨ (Rect.block (s := S768x2048) S128x1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128.size a ≤ S48x256.size a
  hwx2_1 : ∀ i : grid2.Coords, EltTy.bits .i32 = 32 ∨ (Rect.block (s := S48x256) S8x128.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x1024.size a ≤ S48x2048.size a
  hwx2_2 : ∀ i : grid2.Coords, EltTy.bits .f32 = 32 ∨ (Rect.block (s := S48x2048) S8x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S6144x2048.size a
  hwx2_3 : ∀ i : grid2.Coords, EltTy.bits .bf16 = 32 ∨ (Rect.block (s := S6144x2048) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x2048.size a
  hwx3_0 : ∀ i : grid3.Coords, EltTy.bits .bf16 = 32 ∨ (Rect.block (s := S8192x2048) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S2048x6144.size a
  hwx3_1 : ∀ i : grid3.Coords, EltTy.bits .bf16 = 32 ∨ (Rect.block (s := S2048x6144) S2048x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S2048x6144.size a
  hwx3_2 : ∀ i : grid3.Coords, EltTy.bits .bf16 = 32 ∨ (Rect.block (s := S2048x6144) S2048x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S6144x2048.size a
  hwx3_3 : ∀ i : grid3.Coords, EltTy.bits .bf16 = 32 ∨ (Rect.block (s := S6144x2048) S256x2048.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x2048.size a ≤ S8192x2048.size a
  hwx3_4 : ∀ i : grid3.Coords, EltTy.bits .f32 = 32 ∨ (Rect.block (s := S8192x2048) S1024x2048.size (cc3_transform_4 i) (hinb3_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S8x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S8x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S2048x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11) S256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S1024x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x2048 : Shape := ⟨2, ![8192, 2048]⟩
abbrev S256x5632 : Shape := ⟨2, ![256, 5632]⟩
abbrev S16x704 : Shape := ⟨2, ![16, 704]⟩
abbrev S16x5632 : Shape := ⟨2, ![16, 5632]⟩
abbrev S704x2048 : Shape := ⟨2, ![704, 2048]⟩
abbrev S44x256 : Shape := ⟨2, ![44, 256]⟩
abbrev S44x2048 : Shape := ⟨2, ![44, 2048]⟩
abbrev S8 : Shape := ⟨1, ![8]⟩
abbrev S_ : Shape := ⟨0, ![]⟩
abbrev S256x1x5632 : Shape := ⟨3, ![256, 1, 5632]⟩
abbrev S1x8x1 : Shape := ⟨3, ![1, 8, 1]⟩
abbrev S256x8x5632 : Shape := ⟨3, ![256, 8, 5632]⟩
abbrev S2048x5632 : Shape := ⟨2, ![2048, 5632]⟩
abbrev S16x704x1 : Shape := ⟨3, ![16, 704, 1]⟩
abbrev S1x1x8 : Shape := ⟨3, ![1, 1, 8]⟩
abbrev S16x704x8 : Shape := ⟨3, ![16, 704, 8]⟩
abbrev S2048 : Shape := ⟨1, ![2048]⟩
abbrev S2048x1 : Shape := ⟨2, ![2048, 1]⟩
abbrev S704x1x2048 : Shape := ⟨3, ![704, 1, 2048]⟩
abbrev S704x8x2048 : Shape := ⟨3, ![704, 8, 2048]⟩
abbrev S5632x2048 : Shape := ⟨2, ![5632, 2048]⟩
abbrev S44x256x1 : Shape := ⟨3, ![44, 256, 1]⟩
abbrev S44x256x8 : Shape := ⟨3, ![44, 256, 8]⟩
abbrev S5632 : Shape := ⟨1, ![5632]⟩
abbrev S5632x1 : Shape := ⟨2, ![5632, 1]⟩
abbrev S8192x5632 : Shape := ⟨2, ![8192, 5632]⟩

abbrev nBuf : Space → Nat
  | .hbm => 218
  | .vmem => 0
  | .smem => 0
  | _ => 0

abbrev hbmTy0_0 (i : Nat) : BufTy := match i % 128 with
  | 0 => ⟨S8192x2048, .f32⟩
  | 1 => ⟨S256x5632, .i32⟩
  | 2 => ⟨S16x704, .i32⟩
  | 3 => ⟨S16x5632, .f32⟩
  | 4 => ⟨S256x5632, .i32⟩
  | 5 => ⟨S16x704, .i32⟩
  | 6 => ⟨S16x5632, .f32⟩
  | 7 => ⟨S704x2048, .i32⟩
  | 8 => ⟨S44x256, .i32⟩
  | 9 => ⟨S44x2048, .f32⟩
  | 10 => ⟨S8, .i32⟩
  | 11 => ⟨S_, .i32⟩
  | 12 => ⟨S8, .i32⟩
  | 13 => ⟨S8, .i32⟩
  | 14 => ⟨S256x1x5632, .i32⟩
  | 15 => ⟨S1x8x1, .i32⟩
  | 16 => ⟨S256x8x5632, .i32⟩
  | 17 => ⟨S256x8x5632, .i32⟩
  | 18 => ⟨S256x8x5632, .i32⟩
  | 19 => ⟨S_, .i32⟩
  | 20 => ⟨S256x8x5632, .i32⟩
  | 21 => ⟨S256x8x5632, .i32⟩
  | 22 => ⟨S2048x5632, .i32⟩
  | 23 => ⟨S16x704x1, .i32⟩
  | 24 => ⟨S1x1x8, .i32⟩
  | 25 => ⟨S16x704x8, .i32⟩
  | 26 => ⟨S16x704x8, .i32⟩
  | 27 => ⟨S16x704x8, .i32⟩
  | 28 => ⟨S_, .i32⟩
  | 29 => ⟨S16x704x8, .i32⟩
  | 30 => ⟨S16x704x8, .i32⟩
  | 31 => ⟨S16x5632, .i32⟩
  | 32 => ⟨S2048, .i32⟩
  | 33 => ⟨S_, .i32⟩
  | 34 => ⟨S_, .i32⟩
  | 35 => ⟨S2048, .i32⟩
  | 36 => ⟨S2048, .i32⟩
  | 37 => ⟨S2048, .i32⟩
  | 38 => ⟨S_, .i32⟩
  | 39 => ⟨S2048, .i32⟩
  | 40 => ⟨S2048, .i1⟩
  | 41 => ⟨S2048, .i32⟩
  | 42 => ⟨S2048, .i32⟩
  | 43 => ⟨S_, .i32⟩
  | 44 => ⟨S2048, .i32⟩
  | 45 => ⟨S2048, .i1⟩
  | 46 => ⟨S2048, .i1⟩
  | 47 => ⟨S_, .i32⟩
  | 48 => ⟨S2048, .i32⟩
  | 49 => ⟨S2048, .i32⟩
  | 50 => ⟨S2048, .i32⟩
  | 51 => ⟨S_, .i32⟩
  | 52 => ⟨S2048, .i32⟩
  | 53 => ⟨S2048, .i1⟩
  | 54 => ⟨S_, .i32⟩
  | 55 => ⟨S2048, .i32⟩
  | 56 => ⟨S2048, .i32⟩
  | 57 => ⟨S2048, .i32⟩
  | 58 => ⟨S2048x1, .i32⟩
  | 59 => ⟨S2048x5632, .i32⟩
  | 60 => ⟨S_, .i32⟩
  | 61 => ⟨S2048x5632, .i32⟩
  | 62 => ⟨S2048x5632, .i32⟩
  | 63 => ⟨S2048x5632, .i32⟩
  | 64 => ⟨S2048x5632, .f32⟩
  | 65 => ⟨S_, .i32⟩
  | 66 => ⟨S2048, .i32⟩
  | 67 => ⟨S2048, .i1⟩
  | 68 => ⟨S_, .i32⟩
  | 69 => ⟨S2048, .i32⟩
  | 70 => ⟨S2048, .i32⟩
  | 71 => ⟨S2048, .i32⟩
  | 72 => ⟨S2048x1, .i32⟩
  | 73 => ⟨S2048x5632, .f32⟩
  | 74 => ⟨S2048x5632, .f32⟩
  | 75 => ⟨S8, .i32⟩
  | 76 => ⟨S_, .i32⟩
  | 77 => ⟨S8, .i32⟩
  | 78 => ⟨S8, .i32⟩
  | 79 => ⟨S256x1x5632, .i32⟩
  | 80 => ⟨S1x8x1, .i32⟩
  | 81 => ⟨S256x8x5632, .i32⟩
  | 82 => ⟨S256x8x5632, .i32⟩
  | 83 => ⟨S256x8x5632, .i32⟩
  | 84 => ⟨S_, .i32⟩
  | 85 => ⟨S256x8x5632, .i32⟩
  | 86 => ⟨S256x8x5632, .i32⟩
  | 87 => ⟨S2048x5632, .i32⟩
  | 88 => ⟨S16x704x1, .i32⟩
  | 89 => ⟨S1x1x8, .i32⟩
  | 90 => ⟨S16x704x8, .i32⟩
  | 91 => ⟨S16x704x8, .i32⟩
  | 92 => ⟨S16x704x8, .i32⟩
  | 93 => ⟨S_, .i32⟩
  | 94 => ⟨S16x704x8, .i32⟩
  | 95 => ⟨S16x704x8, .i32⟩
  | 96 => ⟨S16x5632, .i32⟩
  | 97 => ⟨S2048, .i32⟩
  | 98 => ⟨S_, .i32⟩
  | 99 => ⟨S_, .i32⟩
  | 100 => ⟨S2048, .i32⟩
  | 101 => ⟨S2048, .i32⟩
  | 102 => ⟨S2048, .i32⟩
  | 103 => ⟨S_, .i32⟩
  | 104 => ⟨S2048, .i32⟩
  | 105 => ⟨S2048, .i1⟩
  | 106 => ⟨S2048, .i32⟩
  | 107 => ⟨S2048, .i32⟩
  | 108 => ⟨S_, .i32⟩
  | 109 => ⟨S2048, .i32⟩
  | 110 => ⟨S2048, .i1⟩
  | 111 => ⟨S2048, .i1⟩
  | 112 => ⟨S_, .i32⟩
  | 113 => ⟨S2048, .i32⟩
  | 114 => ⟨S2048, .i32⟩
  | 115 => ⟨S2048, .i32⟩
  | 116 => ⟨S_, .i32⟩
  | 117 => ⟨S2048, .i32⟩
  | 118 => ⟨S2048, .i1⟩
  | 119 => ⟨S_, .i32⟩
  | 120 => ⟨S2048, .i32⟩
  | 121 => ⟨S2048, .i32⟩
  | 122 => ⟨S2048, .i32⟩
  | 123 => ⟨S2048x1, .i32⟩
  | 124 => ⟨S2048x5632, .i32⟩
  | 125 => ⟨S_, .i32⟩
  | 126 => ⟨S2048x5632, .i32⟩
  | 127 => ⟨S2048x5632, .i32⟩
  | _ => ⟨S8192x2048, .f32⟩

abbrev hbmTy0_1 (i : Nat) : BufTy := match i % 128 with
  | 0 => ⟨S2048x5632, .i32⟩
  | 1 => ⟨S2048x5632, .f32⟩
  | 2 => ⟨S_, .i32⟩
  | 3 => ⟨S2048, .i32⟩
  | 4 => ⟨S2048, .i1⟩
  | 5 => ⟨S_, .i32⟩
  | 6 => ⟨S2048, .i32⟩
  | 7 => ⟨S2048, .i32⟩
  | 8 => ⟨S2048, .i32⟩
  | 9 => ⟨S2048x1, .i32⟩
  | 10 => ⟨S2048x5632, .f32⟩
  | 11 => ⟨S2048x5632, .f32⟩
  | 12 => ⟨S8, .i32⟩
  | 13 => ⟨S_, .i32⟩
  | 14 => ⟨S8, .i32⟩
  | 15 => ⟨S8, .i32⟩
  | 16 => ⟨S704x1x2048, .i32⟩
  | 17 => ⟨S1x8x1, .i32⟩
  | 18 => ⟨S704x8x2048, .i32⟩
  | 19 => ⟨S704x8x2048, .i32⟩
  | 20 => ⟨S704x8x2048, .i32⟩
  | 21 => ⟨S_, .i32⟩
  | 22 => ⟨S704x8x2048, .i32⟩
  | 23 => ⟨S704x8x2048, .i32⟩
  | 24 => ⟨S5632x2048, .i32⟩
  | 25 => ⟨S44x256x1, .i32⟩
  | 26 => ⟨S1x1x8, .i32⟩
  | 27 => ⟨S44x256x8, .i32⟩
  | 28 => ⟨S44x256x8, .i32⟩
  | 29 => ⟨S44x256x8, .i32⟩
  | 30 => ⟨S_, .i32⟩
  | 31 => ⟨S44x256x8, .i32⟩
  | 32 => ⟨S44x256x8, .i32⟩
  | 33 => ⟨S44x2048, .i32⟩
  | 34 => ⟨S5632, .i32⟩
  | 35 => ⟨S_, .i32⟩
  | 36 => ⟨S_, .i32⟩
  | 37 => ⟨S5632, .i32⟩
  | 38 => ⟨S5632, .i32⟩
  | 39 => ⟨S5632, .i32⟩
  | 40 => ⟨S_, .i32⟩
  | 41 => ⟨S5632, .i32⟩
  | 42 => ⟨S5632, .i1⟩
  | 43 => ⟨S5632, .i32⟩
  | 44 => ⟨S5632, .i32⟩
  | 45 => ⟨S_, .i32⟩
  | 46 => ⟨S5632, .i32⟩
  | 47 => ⟨S5632, .i1⟩
  | 48 => ⟨S5632, .i1⟩
  | 49 => ⟨S_, .i32⟩
  | 50 => ⟨S5632, .i32⟩
  | 51 => ⟨S5632, .i32⟩
  | 52 => ⟨S5632, .i32⟩
  | 53 => ⟨S_, .i32⟩
  | 54 => ⟨S5632, .i32⟩
  | 55 => ⟨S5632, .i1⟩
  | 56 => ⟨S_, .i32⟩
  | 57 => ⟨S5632, .i32⟩
  | 58 => ⟨S5632, .i32⟩
  | 59 => ⟨S5632, .i32⟩
  | 60 => ⟨S5632x1, .i32⟩
  | 61 => ⟨S5632x2048, .i32⟩
  | 62 => ⟨S_, .i32⟩
  | 63 => ⟨S5632x2048, .i32⟩
  | 64 => ⟨S5632x2048, .i32⟩
  | 65 => ⟨S5632x2048, .i32⟩
  | 66 => ⟨S5632x2048, .f32⟩
  | 67 => ⟨S_, .i32⟩
  | 68 => ⟨S5632, .i32⟩
  | 69 => ⟨S5632, .i1⟩
  | 70 => ⟨S_, .i32⟩
  | 71 => ⟨S5632, .i32⟩
  | 72 => ⟨S5632, .i32⟩
  | 73 => ⟨S5632, .i32⟩
  | 74 => ⟨S5632x1, .i32⟩
  | 75 => ⟨S5632x2048, .f32⟩
  | 76 => ⟨S5632x2048, .f32⟩
  | 77 => ⟨S8192x5632, .f32⟩
  | 78 => ⟨S8192x5632, .f32⟩
  | 79 => ⟨S8192x5632, .f32⟩
  | 80 => ⟨S_, .f32⟩
  | 81 => ⟨S8192x5632, .f32⟩
  | 82 => ⟨S8192x5632, .f32⟩
  | 83 => ⟨S_, .f32⟩
  | 84 => ⟨S8192x5632, .f32⟩
  | 85 => ⟨S8192x5632, .f32⟩
  | 86 => ⟨S8192x5632, .f32⟩
  | 87 => ⟨S8192x5632, .f32⟩
  | 88 => ⟨S8192x5632, .f32⟩
  | 89 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v20 : Ref sig .tc := ⟨.hbm, 50, rfl⟩
abbrev main_c_3 : Ref sig .tc := ⟨.hbm, 51, rfl⟩
abbrev main_v21 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_5 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_c_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_8 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_9 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_10 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_11 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_c : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_c_0 : Ref sig .tc := ⟨.hbm, 112, rfl⟩
abbrev main_call1_v12 : Ref sig .tc := ⟨.hbm, 113, rfl⟩
abbrev main_call1_v13 : Ref sig .tc := ⟨.hbm, 114, rfl⟩
abbrev main_v60 : Ref sig .tc := ⟨.hbm, 115, rfl⟩
abbrev main_c_12 : Ref sig .tc := ⟨.hbm, 116, rfl⟩
abbrev main_v61 : Ref sig .tc := ⟨.hbm, 117, rfl⟩
abbrev main_v62 : Ref sig .tc := ⟨.hbm, 118, rfl⟩
abbrev main_c_13 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_c_14 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_c_15 : Ref sig .tc := ⟨.hbm, 130, rfl⟩
abbrev main_v72 : Ref sig .tc := ⟨.hbm, 131, rfl⟩
abbrev main_v73 : Ref sig .tc := ⟨.hbm, 132, rfl⟩
abbrev main_c_16 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_c_17 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_c_18 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_c_19 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_c_20 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_call2_v5 : Ref sig .tc := ⟨.hbm, 169, rfl⟩
abbrev main_call2_v6 : Ref sig .tc := ⟨.hbm, 170, rfl⟩
abbrev main_call2_v7 : Ref sig .tc := ⟨.hbm, 171, rfl⟩
abbrev main_call2_v8 : Ref sig .tc := ⟨.hbm, 172, rfl⟩
abbrev main_call2_c : Ref sig .tc := ⟨.hbm, 173, rfl⟩
abbrev main_call2_v9 : Ref sig .tc := ⟨.hbm, 174, rfl⟩
abbrev main_call2_v10 : Ref sig .tc := ⟨.hbm, 175, rfl⟩
abbrev main_call2_v11 : Ref sig .tc := ⟨.hbm, 176, rfl⟩
abbrev main_call2_c_0 : Ref sig .tc := ⟨.hbm, 177, rfl⟩
abbrev main_call2_v12 : Ref sig .tc := ⟨.hbm, 178, rfl⟩
abbrev main_call2_v13 : Ref sig .tc := ⟨.hbm, 179, rfl⟩
abbrev main_v100 : Ref sig .tc := ⟨.hbm, 180, rfl⟩
abbrev main_c_21 : Ref sig .tc := ⟨.hbm, 181, rfl⟩
abbrev main_v101 : Ref sig .tc := ⟨.hbm, 182, rfl⟩
abbrev main_v102 : Ref sig .tc := ⟨.hbm, 183, rfl⟩
abbrev main_c_22 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_c_23 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_c_24 : Ref sig .tc := ⟨.hbm, 195, rfl⟩
abbrev main_v112 : Ref sig .tc := ⟨.hbm, 196, rfl⟩
abbrev main_v113 : Ref sig .tc := ⟨.hbm, 197, rfl⟩
abbrev main_c_25 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_call3_v0 : Ref sig .tc := ⟨.hbm, 206, rfl⟩
abbrev main_call3_v1 : Ref sig .tc := ⟨.hbm, 207, rfl⟩
abbrev main_call3_cst : Ref sig .tc := ⟨.hbm, 208, rfl⟩
abbrev main_call3_v2 : Ref sig .tc := ⟨.hbm, 209, rfl⟩
abbrev main_call3_v3 : Ref sig .tc := ⟨.hbm, 210, rfl⟩
abbrev main_call3_cst_0 : Ref sig .tc := ⟨.hbm, 211, rfl⟩
abbrev main_call3_v4 : Ref sig .tc := ⟨.hbm, 212, rfl⟩
abbrev main_call3_v5 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S256x5632_S256x1x5632_0_2 : S256x5632.BroadcastsInDim S256x1x5632 (![0, 2] : Fin 2 → Fin S256x1x5632.rank)
  bcast_S8_S1x8x1_1 : S8.BroadcastsInDim S1x8x1 (![1] : Fin 1 → Fin S1x8x1.rank)
  bcast_S256x1x5632_S256x8x5632_0_1_2 : S256x1x5632.BroadcastsInDim S256x8x5632 (![0, 1, 2] : Fin 3 → Fin S256x8x5632.rank)
  bcast_S1x8x1_S256x8x5632_0_1_2 : S1x8x1.BroadcastsInDim S256x8x5632 (![0, 1, 2] : Fin 3 → Fin S256x8x5632.rank)
  bcast_S_S256x8x5632 : S_.BroadcastsInDim S256x8x5632 (![] : Fin 0 → Fin S256x8x5632.rank)
  shapeCasts_S256x8x5632_S2048x5632 : S256x8x5632.ShapeCasts S2048x5632
  bcast_S16x704_S16x704x1_0_1 : S16x704.BroadcastsInDim S16x704x1 (![0, 1] : Fin 2 → Fin S16x704x1.rank)
  bcast_S8_S1x1x8_2 : S8.BroadcastsInDim S1x1x8 (![2] : Fin 1 → Fin S1x1x8.rank)
  bcast_S16x704x1_S16x704x8_0_1_2 : S16x704x1.BroadcastsInDim S16x704x8 (![0, 1, 2] : Fin 3 → Fin S16x704x8.rank)
  bcast_S1x1x8_S16x704x8_0_1_2 : S1x1x8.BroadcastsInDim S16x704x8 (![0, 1, 2] : Fin 3 → Fin S16x704x8.rank)
  bcast_S_S16x704x8 : S_.BroadcastsInDim S16x704x8 (![] : Fin 0 → Fin S16x704x8.rank)
  shapeCasts_S16x704x8_S16x5632 : S16x704x8.ShapeCasts S16x5632
  bcast_S_S2048 : S_.BroadcastsInDim S2048 (![] : Fin 0 → Fin S2048.rank)
  bcast_S2048_S2048x1_0 : S2048.BroadcastsInDim S2048x1 (![0] : Fin 1 → Fin S2048x1.rank)
  bcast_S_S2048x5632 : S_.BroadcastsInDim S2048x5632 (![] : Fin 0 → Fin S2048x5632.rank)
  bcast_S704x2048_S704x1x2048_0_2 : S704x2048.BroadcastsInDim S704x1x2048 (![0, 2] : Fin 2 → Fin S704x1x2048.rank)
  bcast_S704x1x2048_S704x8x2048_0_1_2 : S704x1x2048.BroadcastsInDim S704x8x2048 (![0, 1, 2] : Fin 3 → Fin S704x8x2048.rank)
  bcast_S1x8x1_S704x8x2048_0_1_2 : S1x8x1.BroadcastsInDim S704x8x2048 (![0, 1, 2] : Fin 3 → Fin S704x8x2048.rank)
  bcast_S_S704x8x2048 : S_.BroadcastsInDim S704x8x2048 (![] : Fin 0 → Fin S704x8x2048.rank)
  shapeCasts_S704x8x2048_S5632x2048 : S704x8x2048.ShapeCasts S5632x2048
  bcast_S44x256_S44x256x1_0_1 : S44x256.BroadcastsInDim S44x256x1 (![0, 1] : Fin 2 → Fin S44x256x1.rank)
  bcast_S44x256x1_S44x256x8_0_1_2 : S44x256x1.BroadcastsInDim S44x256x8 (![0, 1, 2] : Fin 3 → Fin S44x256x8.rank)
  bcast_S1x1x8_S44x256x8_0_1_2 : S1x1x8.BroadcastsInDim S44x256x8 (![0, 1, 2] : Fin 3 → Fin S44x256x8.rank)
  bcast_S_S44x256x8 : S_.BroadcastsInDim S44x256x8 (![] : Fin 0 → Fin S44x256x8.rank)
  shapeCasts_S44x256x8_S44x2048 : S44x256x8.ShapeCasts S44x2048
  bcast_S_S5632 : S_.BroadcastsInDim S5632 (![] : Fin 0 → Fin S5632.rank)
  bcast_S5632_S5632x1_0 : S5632.BroadcastsInDim S5632x1 (![0] : Fin 1 → Fin S5632x1.rank)
  bcast_S_S5632x2048 : S_.BroadcastsInDim S5632x2048 (![] : Fin 0 → Fin S5632x2048.rank)
  bcast_S_S8192x5632 : S_.BroadcastsInDim S8192x5632 (![] : Fin 0 → Fin S8192x5632.rank)
  gather_S16x5632_S2048x1_S2048x5632_1_0_n_n_0_1_15632_wf : GatherDims.WF S16x5632 S2048x1 S2048x5632 [1] [0] [] [0] [] 1 ![1, 5632]
  gather_S44x2048_S5632x1_S5632x2048_1_0_n_n_0_1_12048_wf : GatherDims.WF S44x2048 S5632x1 S5632x2048 [1] [0] [] [0] [] 1 ![1, 2048]
  dot_S8192x2048_S2048x5632_S8192x5632_1_0_0_1_n_n_wf : DotDims.WF S8192x2048 S2048x5632 S8192x5632 [1] [0] [0] [1] [] []
  dot_S8192x5632_S5632x2048_S8192x2048_1_0_0_1_n_n_wf : DotDims.WF S8192x5632 S5632x2048 S8192x2048 [1] [0] [0] [1] [] []

variable [Facts₀]

def gather_S16x5632_S2048x1_S2048x5632_1_0_n_n_0_1_15632 : GatherDims S16x5632 S2048x1 S2048x5632 where
  offsetDims := [1]
  collapsedSliceDims := [0]
  operandBatchingDims := []
  startIndicesBatchingDims := []
  startIndexMap := [0]
  indexVectorDim := 1
  sliceSizes := ![1, 5632]
  wf := gather_S16x5632_S2048x1_S2048x5632_1_0_n_n_0_1_15632_wf
def gather_S44x2048_S5632x1_S5632x2048_1_0_n_n_0_1_12048 : GatherDims S44x2048 S5632x1 S5632x2048 where
  offsetDims := [1]
  collapsedSliceDims := [0]
  operandBatchingDims := []
  startIndicesBatchingDims := []
  startIndexMap := [0]
  indexVectorDim := 1
  sliceSizes := ![1, 2048]
  wf := gather_S44x2048_S5632x1_S5632x2048_1_0_n_n_0_1_12048_wf
def dot_S8192x2048_S2048x5632_S8192x5632_1_0_0_1_n_n : DotDims S8192x2048 S2048x5632 S8192x5632 where
  lhsContracting := [1]
  rhsContracting := [0]
  lhsNonContracting := [0]
  rhsNonContracting := [1]
  lhsBatch := []
  rhsBatch := []
  wf := dot_S8192x2048_S2048x5632_S8192x5632_1_0_0_1_n_n_wf
def dot_S8192x5632_S5632x2048_S8192x2048_1_0_0_1_n_n : DotDims S8192x5632 S5632x2048 S8192x2048 where
  lhsContracting := [1]
  rhsContracting := [0]
  lhsNonContracting := [0]
  rhsNonContracting := [1]
  lhsBatch := []
  rhsBatch := []
  wf := dot_S8192x5632_S5632x2048_S8192x2048_1_0_0_1_n_n_wf

class Facts : Prop extends Facts₀ where

variable [Facts]
-- ==== Proof.Spec.lean ====
/-
  The mathematics both programs compute, stated once over the argument arrays.

  A GPTQ weight matrix is stored as 4-bit fields: eight consecutive ROWS of the integer matrix share one 32-bit word of
  `qw` (row r is field r % 8 of word (r / 8, c)), eight consecutive COLUMNS of the zero points share one word of `qz`
  (column c is field c % 8 of word (r / 128, c / 8)), and every 128 rows share one row of scales. One weight is
  (q − (z + 1)) · scale, the difference taken on 32-bit words and read as a signed integer.

  The gated MLP is out = (silu (x · Wg) ⊙ (x · Wu)) · Wd with silu g = g · logistic g; every sum is over the REAL
  inner width 5632, whatever the width the weight matrices are stored at.
-/
import Idealize.ShloMosaic.PureOps.Ideal
import Idealize.ShloMosaic.Lib.ValueIdx

noncomputable section

namespace Cert.Spec

open Idealize.ShloMosaic Idealize.ShloMosaic.ValueIdx

/-- Field `s` (four bits) of a packed word: the word shifted right by 4·s, masked to its low four bits. -/
def nib (w : BitVec 32) (s : ℕ) : BitVec 32 :=
  IntOp.andi (IntOp.shrsi .vector w (BitVec.ofNat 32 (4 * s))) 15#32

/-- One dequantized weight: the field `q` less the zero point `z` plus one, as a signed integer, times the scale. -/
def wElt (q z : BitVec 32) (sc : EReal) : EReal :=
  (FloatOps.sitofp (F := Ideal) .f32 (IntOp.subi q (IntOp.addi z 1#32)) : EReal) * sc

/-- The dequantized matrix of R = 8·R8 = 128·G rows and C = 8·C8 columns. -/
def deq {R8 C C8 G R : ℕ} (hR : R = 8 * R8) (hG : R = 128 * G) (hC : C = 8 * C8)
    (qw : IVec ⟨2, ![R8, C]⟩ 32) (qz : IVec ⟨2, ![G, C8]⟩ 32) (sc : FVec Ideal ⟨2, ![G, C]⟩ .f32) :
    FVec Ideal ⟨2, ![R, C]⟩ .f32 := fun i =>
  have h0 : (i 0).val < R := idx2_lt0 i
  have h1 : (i 1).val < C := idx2_lt1 i
  wElt (nib (qw (ix2 ⟨(i 0).val / 8, by omega⟩ ⟨(i 1).val, h1⟩)) ((i 0).val % 8))
    (nib (qz (ix2 ⟨(i 0).val / 128, by omega⟩ ⟨(i 1).val / 8, by omega⟩)) ((i 1).val % 8))
    (sc (ix2 ⟨(i 0).val / 128, by omega⟩ ⟨(i 1).val, h1⟩))

theorem deq_apply {R8 C C8 G R : ℕ} (hR : R = 8 * R8) (hG : R = 128 * G) (hC : C = 8 * C8)
    (qw : IVec ⟨2, ![R8, C]⟩ 32) (qz : IVec ⟨2, ![G, C8]⟩ 32) (sc : FVec Ideal ⟨2, ![G, C]⟩ .f32) (r : Fin R) (c : Fin C) :
    deq hR hG hC qw qz sc (ix2 r c)
      = wElt (nib (qw (ix2 ⟨r.val / 8, by omega⟩ c)) (r.val % 8))
          (nib (qz (ix2 ⟨r.val / 128, by omega⟩ ⟨c.val / 8, by omega⟩)) (c.val % 8))
          (sc (ix2 ⟨r.val / 128, by omega⟩ c)) := rfl

/-- The hidden activation at token t and inner column k (k < 5632 ≤ I, I the stored width):
    silu (x·Wg) · (x·Wu). -/
def hid {I : ℕ} (hI : 5632 ≤ I) (x : FVec Ideal ⟨2, ![8192, 2048]⟩ .f32) (wg wu : FVec Ideal ⟨2, ![2048, I]⟩ .f32)
    (t : Fin 8192) (k : Fin 5632) : EReal :=
  let g : EReal := ∑ r : Fin 2048, x (ix2 t r) * wg (ix2 r ⟨k.val, by omega⟩)
  let u : EReal := ∑ r : Fin 2048, x (ix2 t r) * wu (ix2 r ⟨k.val, by omega⟩)
  g * Ideal.logistic g * u

/-- The gated MLP over weight matrices stored at inner width I ≥ 5632, of which only the first 5632 columns (of Wg, Wu)
    and rows (of Wd) are read. -/
def mlp {I : ℕ} (hI : 5632 ≤ I) (x : FVec Ideal ⟨2, ![8192, 2048]⟩ .f32) (wg wu : FVec Ideal ⟨2, ![2048, I]⟩ .f32)
    (wd : FVec Ideal ⟨2, ![I, 2048]⟩ .f32) : FVec Ideal ⟨2, ![8192, 2048]⟩ .f32 := fun i =>
  ∑ k : Fin 5632, hid hI x wg wu ⟨(i 0).val, idx2_lt0 i⟩ k * wd (ix2 ⟨k.val, by omega⟩ ⟨(i 1).val, idx2_lt1 i⟩)

theorem mlp_apply {I : ℕ} (hI : 5632 ≤ I) (x : FVec Ideal ⟨2, ![8192, 2048]⟩ .f32) (wg wu : FVec Ideal ⟨2, ![2048, I]⟩ .f32)
    (wd : FVec Ideal ⟨2, ![I, 2048]⟩ .f32) (t : Fin 8192) (n : Fin 2048) :
    mlp hI x wg wu wd (ix2 t n) = ∑ k : Fin 5632, hid hI x wg wu t k * wd (ix2 ⟨k.val, by omega⟩ n) := rfl

/-- Only the first 5632 columns of Wg and Wu and rows of Wd matter: two storages that agree there give one result. -/
theorem mlp_congr {I J : ℕ} (hI : 5632 ≤ I) (hJ : 5632 ≤ J) (x : FVec Ideal ⟨2, ![8192, 2048]⟩ .f32)
    (wg wu : FVec Ideal ⟨2, ![2048, I]⟩ .f32) (wd : FVec Ideal ⟨2, ![I, 2048]⟩ .f32)
    (wg' wu' : FVec Ideal ⟨2, ![2048, J]⟩ .f32) (wd' : FVec Ideal ⟨2, ![J, 2048]⟩ .f32)
    (hg : ∀ (r : Fin 2048) (k : Fin 5632), wg (ix2 r ⟨k.val, by omega⟩) = wg' (ix2 r ⟨k.val, by omega⟩))
    (hu : ∀ (r : Fin 2048) (k : Fin 5632), wu (ix2 r ⟨k.val, by omega⟩) = wu' (ix2 r ⟨k.val, by omega⟩))
    (hd : ∀ (k : Fin 5632) (n : Fin 2048), wd (ix2 ⟨k.val, by omega⟩ n) = wd' (ix2 ⟨k.val, by omega⟩ n)) :
    mlp hI x wg wu wd = mlp hJ x wg' wu' wd' := by
  funext i
  unfold mlp hid
  refine Finset.sum_congr rfl fun k _ => ?_
  simp only [hg, hu, hd]

/-- The hidden activation of one token block (1024 tokens) at one inner block of 256 columns. -/
def hidB (x : FVec Ideal ⟨2, ![1024, 2048]⟩ .f32) (wg wu : FVec Ideal ⟨2, ![2048, 256]⟩ .f32) (t : Fin 1024) (k : Fin 256) : EReal :=
  let g : EReal := ∑ r : Fin 2048, x (ix2 t r) * wg (ix2 r k)
  let u : EReal := ∑ r : Fin 2048, x (ix2 t r) * wu (ix2 r k)
  g * Ideal.logistic g * u

/-- One inner block's contribution to a token block of the result: the 256 inner columns' hidden activations times
    the matching 256 rows of the down matrix. -/
def blockTerm (x : FVec Ideal ⟨2, ![1024, 2048]⟩ .f32) (wg wu : FVec Ideal ⟨2, ![2048, 256]⟩ .f32)
    (wd : FVec Ideal ⟨2, ![256, 2048]⟩ .f32) : FVec Ideal ⟨2, ![1024, 2048]⟩ .f32 := fun i =>
  ∑ k : Fin 256, hidB x wg wu ⟨(i 0).val, idx2_lt0 i⟩ k * wd (ix2 k ⟨(i 1).val, idx2_lt1 i⟩)

theorem blockTerm_apply (x : FVec Ideal ⟨2, ![1024, 2048]⟩ .f32) (wg wu : FVec Ideal ⟨2, ![2048, 256]⟩ .f32)
    (wd : FVec Ideal ⟨2, ![256, 2048]⟩ .f32) (t : Fin 1024) (n : Fin 2048) :
    blockTerm x wg wu wd (ix2 t n) = ∑ k : Fin 256, hidB x wg wu t k * wd (ix2 k n) := rfl

/-- What both programs compute: the gated MLP over the three dequantized matrices. -/
def out (x : FVec Ideal ⟨2, ![8192, 2048]⟩ .f32)
    (gq : IVec ⟨2, ![256, 5632]⟩ 32) (gz : IVec ⟨2, ![16, 704]⟩ 32) (gs : FVec Ideal ⟨2, ![16, 5632]⟩ .f32)
    (uq : IVec ⟨2, ![256, 5632]⟩ 32) (uz : IVec ⟨2, ![16, 704]⟩ 32) (us : FVec Ideal ⟨2, ![16, 5632]⟩ .f32)
    (dq : IVec ⟨2, ![704, 2048]⟩ 32) (dz : IVec ⟨2, ![44, 256]⟩ 32) (ds : FVec Ideal ⟨2, ![44, 2048]⟩ .f32) :
    FVec Ideal ⟨2, ![8192, 2048]⟩ .f32 :=
  mlp (le_refl 5632) x
    (deq (R8 := 256) (C := 5632) (C8 := 704) (G := 16) (R := 2048) rfl rfl rfl gq gz gs)
    (deq (R8 := 256) (C := 5632) (C8 := 704) (G := 16) (R := 2048) rfl rfl rfl uq uz us)
    (deq (R8 := 704) (C := 2048) (C8 := 256) (G := 44) (R := 5632) rfl rfl rfl dq dz ds)

end Cert.Spec

end
-- ==== Proof.HostVals.lean ====
import proofs.«414438_j53953379173325_3_alg».proof.Proof.Gen.KernelIdeal.Frame
import proofs.«414438_j53953379173325_3_alg».proof.Proof.Spec
import Idealize.ShloMosaic.Lib.KernelVsHost
import Idealize.ShloMosaic.Lib.ValueIdx

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## A host pad on the high side, read inside the operand -/

/-- A matrix padded with a constant on the high side only, read at an index inside the operand, is the operand there:
    the low padding is zero and there is no interior padding, so the index is its own preimage. -/
theorem pad_hi_apply {α : Type} {n0 n1 N0 N1 : ℕ} (hi : Fin 2 → ℕ) (x : (⟨2, ![n0, n1]⟩ : Shape).Idx → α)
    {u : Shape} (v : u.Idx → α) (h : (⟨2, ![n0, n1]⟩ : Shape).Pads (![0, 0] : Fin 2 → Nat) hi ![0, 0] ⟨2, ![N0, N1]⟩)
    (hu : 0 < u.numel) (r : Fin n0) (k : Fin n1) (hr : r.val < N0) (hk : k.val < N1) :
    pad ⟨2, ![N0, N1]⟩ ![0, 0] hi ![0, 0] x v h hu (ix2 ⟨r.val, hr⟩ ⟨k.val, hk⟩) = x (ix2 r k) :=
  pad_apply_of_inside _ _ _ x v h hu _ (ix2 r k) (by
    intro a
    match a with
    | ⟨0, _⟩ => show r.val = 0 + r.val * (0 + 1); omega
    | ⟨1, _⟩ => show k.val = 0 + k.val * (0 + 1); omega)

/-! ## The buffers after the nine pads

Each pad writes one fresh buffer from one argument and a zero constant; reading the fold of the eighteen stretches at a
buffer passes every operation that writes another buffer and stops at the one that wrote it. -/

/-- The first argument is written by no pad: after them it is what the launch held. -/
theorem V18_arg0 (c : Dev nD) : V18 m ρ c main_arg0 = m ((c : Thread nD τ).loc main_arg0) := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_arg0) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results

theorem V18_v0 (c : Dev nD) :
    (V18 m ρ c main_v0 : S256x6144.Idx → BitVec 32)
      = pad S256x6144 ![0, 0] ![0, 512] ![0, 0] (m ((c : Thread nD τ).loc main_arg1)) (constantI S_ 32 0#32) pads_S256x5632_S256x6144_000_05120 h_S_ := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_v0) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results
  rfl

theorem V18_v1 (c : Dev nD) :
    (V18 m ρ c main_v1 : S16x768.Idx → BitVec 32)
      = pad S16x768 ![0, 0] ![0, 64] ![0, 0] (m ((c : Thread nD τ).loc main_arg2)) (constantI S_ 32 0#32) pads_S16x704_S16x768_000_0640 h_S_ := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_v1) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results
  rfl

theorem V18_v2 (c : Dev nD) :
    (V18 m ρ c main_v2 : S16x6144.Idx → EReal)
      = pad S16x6144 ![0, 0] ![0, 512] ![0, 0] (m ((c : Thread nD τ).loc main_arg3)) (sitofp (F := Ideal) .f32 (constantI S_ 32 0#32)) pads_S16x5632_S16x6144_000_05120 h_S_ := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_v2) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results
  rfl

theorem V18_v3 (c : Dev nD) :
    (V18 m ρ c main_v3 : S256x6144.Idx → BitVec 32)
      = pad S256x6144 ![0, 0] ![0, 512] ![0, 0] (m ((c : Thread nD τ).loc main_arg4)) (constantI S_ 32 0#32) pads_S256x5632_S256x6144_000_05120 h_S_ := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_v3) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results
  rfl

theorem V18_v4 (c : Dev nD) :
    (V18 m ρ c main_v4 : S16x768.Idx → BitVec 32)
      = pad S16x768 ![0, 0] ![0, 64] ![0, 0] (m ((c : Thread nD τ).loc main_arg5)) (constantI S_ 32 0#32) pads_S16x704_S16x768_000_0640 h_S_ := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_v4) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results
  rfl

theorem V18_v5 (c : Dev nD) :
    (V18 m ρ c main_v5 : S16x6144.Idx → EReal)
      = pad S16x6144 ![0, 0] ![0, 512] ![0, 0] (m ((c : Thread nD τ).loc main_arg6)) (sitofp (F := Ideal) .f32 (constantI S_ 32 0#32)) pads_S16x5632_S16x6144_000_05120 h_S_ := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_v5) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results
  rfl

theorem V18_v6 (c : Dev nD) :
    (V18 m ρ c main_v6 : S768x2048.Idx → BitVec 32)
      = pad S768x2048 ![0, 0] ![64, 0] ![0, 0] (m ((c : Thread nD τ).loc main_arg7)) (constantI S_ 32 0#32) pads_S704x2048_S768x2048_0640_000 h_S_ := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_v6) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results
  rfl

theorem V18_v7 (c : Dev nD) :
    (V18 m ρ c main_v7 : S48x256.Idx → BitVec 32)
      = pad S48x256 ![0, 0] ![4, 0] ![0, 0] (m ((c : Thread nD τ).loc main_arg8)) (constantI S_ 32 0#32) pads_S44x256_S48x256_040_000 h_S_ := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_v7) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results
  rfl

theorem V18_v8 (c : Dev nD) :
    (V18 m ρ c main_v8 : S48x2048.Idx → EReal)
      = pad S48x2048 ![0, 0] ![4, 0] ![0, 0] (m ((c : Thread nD τ).loc main_arg9)) (sitofp (F := Ideal) .f32 (constantI S_ 32 0#32)) pads_S44x2048_S48x2048_040_000 h_S_ := by
  show StableHlo.after hostOps0_17 (StableHlo.after hostOps0_16 (StableHlo.after hostOps0_15 (StableHlo.after hostOps0_14
      (StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (W0 m ρ c)))))))))))))))))) (Proc.devRef .tc main_v8) = _
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
  after_results
  rfl

/-! ## What region 3 reads -/

/-- The activations: the narrowing of the first argument, which over the extended reals is the argument itself; no
    region and no pad writes an argument. -/
theorem V22_x (c : Dev nD) : V22 m ρ c (Pipeline.arrRef spec3 0) = fun i => m ((c : Thread nD τ).loc main_arg0) i := by
  show StableHlo.after hostOps3 (W21 m ρ c) (Proc.devRef .tc main_v12) = _
  simp only [hostOps3]
  after_results
  rw [W21_of_ne m ρ c main_arg0 (by decide), W20_of_ne m ρ c main_arg0 (by decide), W19_of_ne m ρ c main_arg0 (by decide)]
  rw [show W18 m ρ c (Proc.devRef .tc main_arg0) = m ((c : Thread nD τ).loc main_arg0) from V18_arg0 m ρ c]
  rfl

/-- The gate matrix: region 0's output, which the narrowing and regions 1 and 2 leave alone. -/
theorem V22_wg (c : Dev nD) : V22 m ρ c (Pipeline.arrRef spec3 1) = (dat0 (V18 m ρ) c).arrAt 3 cfg0.N := by
  show StableHlo.after hostOps3 (W21 m ρ c) (Proc.devRef .tc main_v9) = _
  simp only [hostOps3]
  after_results
  rw [W21_of_ne m ρ c main_v9 (by decide), W20_of_ne m ρ c main_v9 (by decide)]
  exact W19_arr m ρ c 3

/-- The up matrix: region 1's output, which the narrowing and region 2 leave alone. -/
theorem V22_wu (c : Dev nD) : V22 m ρ c (Pipeline.arrRef spec3 2) = (dat1 (V19 m ρ) c).arrAt 3 cfg1.N := by
  show StableHlo.after hostOps3 (W21 m ρ c) (Proc.devRef .tc main_v10) = _
  simp only [hostOps3]
  after_results
  rw [W21_of_ne m ρ c main_v10 (by decide)]
  exact W20_arr m ρ c 3

/-- The down matrix: region 2's output, which the narrowing leaves alone. -/
theorem V22_wd (c : Dev nD) : V22 m ρ c (Pipeline.arrRef spec3 3) = (dat2 (V20 m ρ) c).arrAt 3 cfg2.N := by
  show StableHlo.after hostOps3 (W21 m ρ c) (Proc.devRef .tc main_v11) = _
  simp only [hostOps3]
  after_results
  exact W21_arr m ρ c 3

/-! ## What the three dequantisation regions read: the padded arguments, inside the arguments' extents -/

theorem V18_qw (c : Dev nD) (r : Fin 256) (k : Fin 5632) :
    V18 m ρ c (Pipeline.arrRef spec0 0) (ix2 r ⟨k.val, by omega⟩) = m ((c : Thread nD τ).loc main_arg1) (ix2 r k) :=
  (congrFun (V18_v0 m ρ c) _).trans (pad_hi_apply _ _ _ _ _ r k r.isLt _)
theorem V18_qz (c : Dev nD) (g : Fin 16) (k : Fin 704) :
    V18 m ρ c (Pipeline.arrRef spec0 1) (ix2 g ⟨k.val, by omega⟩) = m ((c : Thread nD τ).loc main_arg2) (ix2 g k) :=
  (congrFun (V18_v1 m ρ c) _).trans (pad_hi_apply _ _ _ _ _ g k g.isLt _)
theorem V18_sc (c : Dev nD) (g : Fin 16) (k : Fin 5632) :
    V18 m ρ c (Pipeline.arrRef spec0 2) (ix2 g ⟨k.val, by omega⟩) = m ((c : Thread nD τ).loc main_arg3) (ix2 g k) :=
  (congrFun (V18_v2 m ρ c) _).trans (pad_hi_apply _ _ _ _ _ g k g.isLt _)

/-- Region 0 writes none of region 1's inputs. -/
theorem V19_qw (c : Dev nD) (r : Fin 256) (k : Fin 5632) :
    V19 m ρ c (Pipeline.arrRef spec1 0) (ix2 r ⟨k.val, by omega⟩) = m ((c : Thread nD τ).loc main_arg4) (ix2 r k) :=
  (congrFun ((show (V19 m ρ c (Pipeline.arrRef spec1 0) : S256x6144.Idx → BitVec 32) = V18 m ρ c main_v3 from
    W19_of_ne m ρ c main_v3 (by decide)).trans (V18_v3 m ρ c)) _).trans (pad_hi_apply _ _ _ _ _ r k r.isLt _)
theorem V19_qz (c : Dev nD) (g : Fin 16) (k : Fin 704) :
    V19 m ρ c (Pipeline.arrRef spec1 1) (ix2 g ⟨k.val, by omega⟩) = m ((c : Thread nD τ).loc main_arg5) (ix2 g k) :=
  (congrFun ((show (V19 m ρ c (Pipeline.arrRef spec1 1) : S16x768.Idx → BitVec 32) = V18 m ρ c main_v4 from
    W19_of_ne m ρ c main_v4 (by decide)).trans (V18_v4 m ρ c)) _).trans (pad_hi_apply _ _ _ _ _ g k g.isLt _)
theorem V19_sc (c : Dev nD) (g : Fin 16) (k : Fin 5632) :
    V19 m ρ c (Pipeline.arrRef spec1 2) (ix2 g ⟨k.val, by omega⟩) = m ((c : Thread nD τ).loc main_arg6) (ix2 g k) :=
  (congrFun ((show (V19 m ρ c (Pipeline.arrRef spec1 2) : S16x6144.Idx → EReal) = V18 m ρ c main_v5 from
    W19_of_ne m ρ c main_v5 (by decide)).trans (V18_v5 m ρ c)) _).trans (pad_hi_apply _ _ _ _ _ g k g.isLt _)

/-- Regions 0 and 1 write none of region 2's inputs. -/
theorem V20_qw (c : Dev nD) (r : Fin 704) (n : Fin 2048) :
    V20 m ρ c (Pipeline.arrRef spec2 0) (ix2 ⟨r.val, by omega⟩ n) = m ((c : Thread nD τ).loc main_arg7) (ix2 r n) :=
  (congrFun ((show (V20 m ρ c (Pipeline.arrRef spec2 0) : S768x2048.Idx → BitVec 32) = V18 m ρ c main_v6 from
    (W20_of_ne m ρ c main_v6 (by decide)).trans (W19_of_ne m ρ c main_v6 (by decide))).trans (V18_v6 m ρ c)) _).trans
    (pad_hi_apply _ _ _ _ _ r n _ n.isLt)
theorem V20_qz (c : Dev nD) (g : Fin 44) (n : Fin 256) :
    V20 m ρ c (Pipeline.arrRef spec2 1) (ix2 ⟨g.val, by omega⟩ n) = m ((c : Thread nD τ).loc main_arg8) (ix2 g n) :=
  (congrFun ((show (V20 m ρ c (Pipeline.arrRef spec2 1) : S48x256.Idx → BitVec 32) = V18 m ρ c main_v7 from
    (W20_of_ne m ρ c main_v7 (by decide)).trans (W19_of_ne m ρ c main_v7 (by decide))).trans (V18_v7 m ρ c)) _).trans
    (pad_hi_apply _ _ _ _ _ g n _ n.isLt)
theorem V20_sc (c : Dev nD) (g : Fin 44) (n : Fin 2048) :
    V20 m ρ c (Pipeline.arrRef spec2 2) (ix2 ⟨g.val, by omega⟩ n) = m ((c : Thread nD τ).loc main_arg9) (ix2 g n) :=
  (congrFun ((show (V20 m ρ c (Pipeline.arrRef spec2 2) : S48x2048.Idx → EReal) = V18 m ρ c main_v8 from
    (W20_of_ne m ρ c main_v8 (by decide)).trans (W19_of_ne m ρ c main_v8 (by decide))).trans (V18_v8 m ρ c)) _).trans
    (pad_hi_apply _ _ _ _ _ g n _ n.isLt)

/-! ## What region 3 leaves -/

/-- The result buffer is region 3's fifth array: at the region's exit it holds the fold of its write-backs. -/
theorem W23_out (c : Dev nD) : W23 m ρ c (Proc.devRef .tc main_v13) = (dat3 (V22 m ρ) c).arrAt 4 cfg3.N :=
  W23_arr m ρ c 4

end Cert.KernelIdeal.KV

end
-- ==== Proof.DeqBody.lean ====
import proofs.«414438_j53953379173325_3_alg».proof.Proof.Gen.KernelIdeal.Frame
import proofs.«414438_j53953379173325_3_alg».proof.Proof.Spec
import Idealize.ShloMosaic.Lib.Pipeline.Value
import Idealize.ShloMosaic.Lib.ValueIdx

/-
  The dequantisation body at an index.

  The body unpacks the 128 × 1024 words of packed weights into eight 128 × 1024 arrays of 4-bit fields (field s is the
  word shifted right by 4·s and masked to four bits), lays the eight side by side on a new middle axis and reads the
  128 × 8 × 1024 array as 1024 × 1024 row-major: row p of the result is field p % 8 of word row p / 8. The zero points
  are unpacked the same way along the columns (8 × 128 words, eight fields laid on a new last axis, read as 8 × 1024:
  column q is field q % 8 of word column q / 8) and, like the 8 × 1024 scales, repeated down the 128 rows of their
  group: row p reads group p / 128. One element is then (q − (z + 1)) read as a signed integer, times the scale.
-/

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace DeqBody

/-- The offsets (0, 0), however the zeros are spelt. -/
theorem hz00 : (![0, 0] : Fin 2 → Nat) = fun _ => 0 := funext fun a => match a with | ⟨0, _⟩ => rfl | ⟨1, _⟩ => rfl

/-- One of eight by its number. -/
def sel8 {α : Type} (a0 a1 a2 a3 a4 a5 a6 a7 : α) : Fin 8 → α
  | ⟨0, _⟩ => a0 | ⟨1, _⟩ => a1 | ⟨2, _⟩ => a2 | ⟨3, _⟩ => a3
  | ⟨4, _⟩ => a4 | ⟨5, _⟩ => a5 | ⟨6, _⟩ => a6 | ⟨7, _⟩ => a7

/-! ## The three layouts read at an index -/

/-- Eight 128 × 1024 arrays laid on a new middle axis and read as 1024 × 1024 row-major: row p is array p % 8 at row
    p / 8, since p = (p / 8) · 8 + p % 8. -/
theorem stackRows_apply {α : Type} (f : Fin 8 → S128x1024.Idx → α)
    (h : Shape.Concatenates ((List.ofFn fun n : Fin 8 => (⟨S128x1x1024, shapeCast S128x1x1024 (f n) shapeCasts_S128x1024_S128x1x1024⟩ : (s : Shape) × (s.Idx → α))).map (·.1)) S128x8x1024 1)
    (p q : Fin 1024) :
    shapeCast S1024x1024
        (concatenate S128x8x1024 1 (List.ofFn fun n : Fin 8 => (⟨S128x1x1024, shapeCast S128x1x1024 (f n) shapeCasts_S128x1024_S128x1x1024⟩ : (s : Shape) × (s.Idx → α))) h)
        shapeCasts_S128x8x1024_S1024x1024 (ix2 p q)
      = f ⟨p.val % 8, Nat.mod_lt _ (by decide)⟩ (ix2 ⟨p.val / 8, by have := p.isLt; omega⟩ q) := by
  have hp := p.isLt
  have hq := q.isLt
  -- (p, q) of 1024 × 1024 and (p / 8, p % 8, q) of 128 × 8 × 1024 have one row-major position
  refine (shapeCast_apply _ _ (ix2 p q) (ix3 (⟨p.val / 8, by omega⟩ : Fin 128) (⟨p.val % 8, by omega⟩ : Fin 8) q) (by
    rw [Shape.rowMajor_val_three, Shape.rowMajor_val_two]
    show (p.val / 8 * 8 + p.val % 8) * 1024 + q.val = p.val * 1024 + q.val
    omega)).trans ?_
  -- the middle coordinate names the array; its own middle axis has extent one
  refine (concatenate_ofFn_unit_apply (t := S128x8x1024) (s₁ := S128x1x1024) (1 : Fin 3)
    (fun n : Fin 8 => shapeCast S128x1x1024 (f n) shapeCasts_S128x1024_S128x1x1024) h rfl rfl
    (ix3 (⟨p.val / 8, by omega⟩ : Fin 128) (⟨p.val % 8, by omega⟩ : Fin 8) q) (⟨p.val % 8, by omega⟩ : Fin 8) rfl
    (ix3 (⟨p.val / 8, by omega⟩ : Fin 128) (⟨0, by decide⟩ : Fin 1) q) (fun b hb => ?_)).trans ?_
  · match b with
    | ⟨0, _⟩ => rfl
    | ⟨1, _⟩ => exact absurd rfl hb
    | ⟨2, _⟩ => rfl
  -- (a, 0, q) of 128 × 1 × 1024 and (a, q) of 128 × 1024 have one row-major position
  exact shapeCast_apply _ _ _ _ (by
    rw [Shape.rowMajor_val_two, Shape.rowMajor_val_three]
    show p.val / 8 * 1024 + q.val = (p.val / 8 * 1 + 0) * 1024 + q.val
    omega)

/-- An 8 × 1024 array repeated down 128 rows per group and read as 1024 × 1024 row-major: row p is row p / 128, since
    p = (p / 128) · 128 + p % 128. -/
theorem rowBlocks_apply {α : Type} (x : S8x1024.Idx → α) (p q : Fin 1024) :
    shapeCast S1024x1024
        (broadcastTo S8x128x1024
          (shapeCast S8x1x1024 (shapeCast S8x1x1024 x shapeCasts_S8x1024_S8x1x1024) shapeCasts_S8x1x1024_S8x1x1024)
          broadcasts_S8x1x1024_S8x128x1024)
        shapeCasts_S8x128x1024_S1024x1024 (ix2 p q)
      = x (ix2 ⟨p.val / 128, by have := p.isLt; omega⟩ q) := by
  have hp := p.isLt
  have hq := q.isLt
  -- (p, q) of 1024 × 1024 and (p / 128, p % 128, q) of 8 × 128 × 1024 have one row-major position
  refine (shapeCast_apply _ _ (ix2 p q) (ix3 (⟨p.val / 128, by omega⟩ : Fin 8) (⟨p.val % 128, by omega⟩ : Fin 128) q) (by
    rw [Shape.rowMajor_val_three, Shape.rowMajor_val_two]
    show (p.val / 128 * 128 + p.val % 128) * 1024 + q.val = p.val * 1024 + q.val
    omega)).trans ?_
  -- the repeated axis reads its one entry
  refine (broadcastTo_apply _ _ _ (ix3 (⟨p.val / 128, by omega⟩ : Fin 8) (⟨0, by decide⟩ : Fin 1) q) (fun a => ?_)).trans ?_
  · match a with
    | ⟨0, _⟩ => rfl
    | ⟨1, _⟩ => rfl
    | ⟨2, _⟩ => rfl
  rw [shapeCast_self]
  -- (g, 0, q) of 8 × 1 × 1024 and (g, q) of 8 × 1024 have one row-major position
  exact shapeCast_apply _ _ _ _ (by
    rw [Shape.rowMajor_val_two, Shape.rowMajor_val_three]
    show p.val / 128 * 1024 + q.val = (p.val / 128 * 1 + 0) * 1024 + q.val
    omega)

/-- Eight 8 × 128 arrays laid on a new last axis and read as 8 × 1024 row-major: column q is array q % 8 at column
    q / 8, since q = (q / 8) · 8 + q % 8. -/
theorem stackCols_apply {α : Type} (g : Fin 8 → S8x128.Idx → α)
    (h : Shape.Concatenates ((List.ofFn fun n : Fin 8 => (⟨S8x128x1, shapeCast S8x128x1 (g n) shapeCasts_S8x128_S8x128x1⟩ : (s : Shape) × (s.Idx → α))).map (·.1)) S8x128x8 2)
    (r : Fin 8) (q : Fin 1024) :
    shapeCast S8x1024
        (concatenate S8x128x8 2 (List.ofFn fun n : Fin 8 => (⟨S8x128x1, shapeCast S8x128x1 (g n) shapeCasts_S8x128_S8x128x1⟩ : (s : Shape) × (s.Idx → α))) h)
        shapeCasts_S8x128x8_S8x1024 (ix2 r q)
      = g ⟨q.val % 8, Nat.mod_lt _ (by decide)⟩ (ix2 r ⟨q.val / 8, by have := q.isLt; omega⟩) := by
  have hr := r.isLt
  have hq := q.isLt
  -- (r, q) of 8 × 1024 and (r, q / 8, q % 8) of 8 × 128 × 8 have one row-major position
  refine (shapeCast_apply _ _ (ix2 r q) (ix3 r (⟨q.val / 8, by omega⟩ : Fin 128) (⟨q.val % 8, by omega⟩ : Fin 8)) (by
    rw [Shape.rowMajor_val_three, Shape.rowMajor_val_two]
    show (r.val * 128 + q.val / 8) * 8 + q.val % 8 = r.val * 1024 + q.val
    omega)).trans ?_
  -- the last coordinate names the array; its own last axis has extent one
  refine (concatenate_ofFn_unit_apply (t := S8x128x8) (s₁ := S8x128x1) (2 : Fin 3)
    (fun n : Fin 8 => shapeCast S8x128x1 (g n) shapeCasts_S8x128_S8x128x1) h rfl rfl
    (ix3 r (⟨q.val / 8, by omega⟩ : Fin 128) (⟨q.val % 8, by omega⟩ : Fin 8)) (⟨q.val % 8, by omega⟩ : Fin 8) rfl
    (ix3 r (⟨q.val / 8, by omega⟩ : Fin 128) (⟨0, by decide⟩ : Fin 1)) (fun b hb => ?_)).trans ?_
  · match b with
    | ⟨0, _⟩ => rfl
    | ⟨1, _⟩ => rfl
    | ⟨2, _⟩ => exact absurd rfl hb
  -- (r, b, 0) of 8 × 128 × 1 and (r, b) of 8 × 128 have one row-major position
  exact shapeCast_apply _ _ _ _ (by
    rw [Shape.rowMajor_val_two, Shape.rowMajor_val_three]
    show r.val * 128 + q.val / 8 = (r.val * 128 + q.val / 8) * 1 + 0
    omega)

/-! ## The body's values at an index -/

/-- The unpacked weights: row p is the field p % 8 among the eight arrays of fields, at word row p / 8 (the eighth
    array is masked here). -/
theorem pay13_apply (v9 v13 v17 v21 v25 v29 v33 v35 : IVec S128x1024 32) (c : BitVec 32) (p q : Fin 1024) :
    k0_pay13 v9 v13 v17 v21 v25 v29 v33 v35 c (ix2 p q)
      = sel8 v9 v13 v17 v21 v25 v29 v33 (andi v35 (broadcast S128x1024 c)) ⟨p.val % 8, Nat.mod_lt _ (by decide)⟩
          (ix2 ⟨p.val / 8, by have := p.isLt; omega⟩ q) :=
  stackRows_apply (sel8 v9 v13 v17 v21 v25 v29 v33 (andi v35 (broadcast S128x1024 c))) concatenates_S128x1x1024_S128x1x1024_S128x1x1024_S128x1x1024_S128x1x1024_S128x1x1024_S128x1x1024_S128x1x1024_S128x8x1024_d1 p q

/-- The stored element: the weight field less (the zero point's field q % 8 of word column q / 8 in group p / 128,
    plus one), as a signed integer, times the group's scale; rounding to the narrower format is the identity on the
    extended reals. -/
theorem pay1_apply (v5 : FVec Ideal S8x1024 .f32) (v47 : IVec S1024x1024 32) (v51 v55 v59 v63 v67 v71 v75 v79 : IVec S8x128 32)
    (p q : Fin 1024) :
    k0_pay1 (F := Ideal) v5 v47 v51 v55 v59 v63 v67 v71 v75 v79 (ix2 p q)
      = Spec.wElt (v47 (ix2 p q))
          (sel8 v51 v55 v59 v63 v67 v71 v75 v79 ⟨q.val % 8, Nat.mod_lt _ (by decide)⟩
            (ix2 ⟨p.val / 128, by have := p.isLt; omega⟩ ⟨q.val / 8, by have := q.isLt; omega⟩))
          (v5 (ix2 ⟨p.val / 128, by have := p.isLt; omega⟩ q)) := by
  have hp := p.isLt
  unfold k0_pay1
  show Spec.wElt (v47 (ix2 p q)) (shapeCast S1024x1024 _ _ (ix2 p q)) (shapeCast S1024x1024 _ _ (ix2 p q)) = _
  rw [rowBlocks_apply, rowBlocks_apply]
  exact congrArg (fun z => Spec.wElt (v47 (ix2 p q)) z (v5 (ix2 ⟨p.val / 128, by omega⟩ q)))
    (stackCols_apply (sel8 v51 v55 v59 v63 v67 v71 v75 v79) concatenates_S8x128x1_S8x128x1_S8x128x1_S8x128x1_S8x128x1_S8x128x1_S8x128x1_S8x128x1_S8x128x8_d2 ⟨p.val / 128, by omega⟩ q)

/-- The eight arrays of weight fields: array s at a word is the word's field s (the shifts are the literals 4·s). -/
theorem qfield_apply (x0 : IVec S128x1024 32) (s : Fin 8) (i : S128x1024.Idx) :
    sel8 (k0_pay5 (F := Ideal) x0) (k0_pay6 (F := Ideal) x0) (k0_pay7 (F := Ideal) x0) (k0_pay8 (F := Ideal) x0)
        (k0_pay9 (F := Ideal) x0) (k0_pay10 (F := Ideal) x0) (k0_pay11 (F := Ideal) x0)
        (andi (k0_pay12 (F := Ideal) x0) (broadcast S128x1024 15#32)) s i
      = Spec.nib (x0 i) s.val := by
  have e : k0_pay2 (F := Ideal) x0 = x0 := shapeCast_self _ _
  unfold k0_pay5 k0_pay6 k0_pay7 k0_pay8 k0_pay9 k0_pay10 k0_pay11 k0_pay12
  rw [e]
  match s with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The eight arrays of zero-point fields: array s at a word is the word's field s. -/
theorem zfield_apply (v3 : IVec S8x128 32) (s : Fin 8) (i : S8x128.Idx) :
    sel8 (k0_pay14 v3) (k0_pay15 v3) (k0_pay16 v3) (k0_pay17 v3) (k0_pay18 v3) (k0_pay19 v3) (k0_pay20 v3) (k0_pay21 v3) s i
      = Spec.nib (v3 i) s.val := by
  match s with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end DeqBody

open DeqBody

/-! ## The three regions' bodies -/

theorem out0_3_eq (x0 : Vec Ideal S128x1024 .i32) (x1 : Vec Ideal S8x128 .i32) (x2 : Vec Ideal S8x1024 .f32) :
    out0_3 (F := Ideal) x0 x1 x2 = Spec.deq (R8 := 128) (C := 1024) (C8 := 128) (G := 8) (R := 1024) rfl rfl rfl x0 x1 x2 := by
  funext j
  obtain ⟨p, q, rfl⟩ : ∃ (p : Fin 1024) (q : Fin 1024), j = ix2 p q := ⟨j 0, j 1, eq_ix2 j⟩
  rw [Spec.deq_apply]
  unfold out0_3
  -- the one store covers the block and the three loads read whole blocks
  rw [View.canon_unit_zero hz00]
  simp only [View.ld_unit_zero (S := S128x1024) hz00, View.ld_unit_zero (S := S8x128) hz00, View.ld_unit_zero (S := S8x1024) hz00]
  have e3 : k0_pay3 (F := Ideal) x1 = x1 := shapeCast_self _ _
  have e4 : k0_pay4 (F := Ideal) x2 = x2 := shapeCast_self _ _
  rw [pay1_apply, pay13_apply, qfield_apply, zfield_apply, e3, e4]

/-- The second region's body is the first's, word for word. -/
theorem out1_3_eq (x0 : Vec Ideal S128x1024 .i32) (x1 : Vec Ideal S8x128 .i32) (x2 : Vec Ideal S8x1024 .f32) :
    out1_3 (F := Ideal) x0 x1 x2 = Spec.deq (R8 := 128) (C := 1024) (C8 := 128) (G := 8) (R := 1024) rfl rfl rfl x0 x1 x2 :=
  (show out1_3 (F := Ideal) x0 x1 x2 = out0_3 (F := Ideal) x0 x1 x2 from rfl).trans (out0_3_eq x0 x1 x2)

/-- The third region's body is the first's, word for word. -/
theorem out2_3_eq (x0 : Vec Ideal S128x1024 .i32) (x1 : Vec Ideal S8x128 .i32) (x2 : Vec Ideal S8x1024 .f32) :
    out2_3 (F := Ideal) x0 x1 x2 = Spec.deq (R8 := 128) (C := 1024) (C8 := 128) (G := 8) (R := 1024) rfl rfl rfl x0 x1 x2 :=
  (show out2_3 (F := Ideal) x0 x1 x2 = out0_3 (F := Ideal) x0 x1 x2 from rfl).trans (out0_3_eq x0 x1 x2)

end Cert.KernelIdeal.KV

end
-- ==== Proof.DeqArr0.lean ====
import proofs.«414438_j53953379173325_3_alg».proof.Proof.Gen.KernelIdeal.Frame
import proofs.«414438_j53953379173325_3_alg».proof.Proof.Spec
import proofs.«414438_j53953379173325_3_alg».proof.Proof.DeqBody
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps, decided over the grid: every input window moves with the output window, block by block, and the
    output's block indices stay in their ranges. -/
theorem deqIdxFacts0 : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 1 ∧ win0_3.index t (1 : Fin 2) ≤ 5 :=
  (by decide +kernel : ∀ t : Fin grid0.N, _)

/-- Every block of the output array is some grid point's. -/
theorem deqIdxOnto0 : ∀ (q0 : Fin 2) (q1 : Fin 6), ∃ t : Fin cfg0.N, win0_3.index t = ![q0.val, q1.val] :=
  (by decide +kernel : ∀ (q0 : Fin 2) (q1 : Fin 6), ∃ t : Fin grid0.N, win0_3.index t = ![q0.val, q1.val])

/-- One element of a dequantized block is the same element of the dequantized array: when the three input blocks are
    the arrays' blocks at block index (i0, i1), element (p, q) of the block's matrix is element
    (1024·i0 + p, 1024·i1 + q) of the array's. Row 1024·i0 + p has word row (1024·i0 + p) / 8 = 128·i0 + p / 8, field
    (1024·i0 + p) % 8 = p % 8 and group row (1024·i0 + p) / 128 = 8·i0 + p / 128; column 1024·i1 + q has zero-point
    word column (1024·i1 + q) / 8 = 128·i1 + q / 8 and field (1024·i1 + q) % 8 = q % 8. -/
theorem deq_block0 (A0 : IVec ⟨2, ![256, 6144]⟩ 32) (A1 : IVec ⟨2, ![16, 768]⟩ 32) (A2 : FVec Ideal ⟨2, ![16, 6144]⟩ .f32)
    (x0 : IVec ⟨2, ![128, 1024]⟩ 32) (x1 : IVec ⟨2, ![8, 128]⟩ 32) (x2 : FVec Ideal ⟨2, ![8, 1024]⟩ .f32)
    (i0 i1 : ℕ) (h0 : i0 ≤ 1) (h1 : i1 ≤ 5)
    (hx0 : ∀ (p : Fin 128) (q : Fin 1024), x0 (ix2 p q) = A0 (ix2 ⟨i0 * 128 + p.val, by omega⟩ ⟨i1 * 1024 + q.val, by omega⟩))
    (hx1 : ∀ (p : Fin 8) (q : Fin 128), x1 (ix2 p q) = A1 (ix2 ⟨i0 * 8 + p.val, by omega⟩ ⟨i1 * 128 + q.val, by omega⟩))
    (hx2 : ∀ (p : Fin 8) (q : Fin 1024), x2 (ix2 p q) = A2 (ix2 ⟨i0 * 8 + p.val, by omega⟩ ⟨i1 * 1024 + q.val, by omega⟩))
    (p : Fin 1024) (q : Fin 1024) :
    Spec.deq (R8 := 128) (C := 1024) (C8 := 128) (G := 8) (R := 1024) rfl rfl rfl x0 x1 x2 (ix2 p q)
      = Spec.deq (R8 := 256) (C := 6144) (C8 := 768) (G := 16) (R := 2048) rfl rfl rfl A0 A1 A2
          (ix2 ⟨i0 * 1024 + p.val, by omega⟩ ⟨i1 * 1024 + q.val, by omega⟩) := by
  rw [Spec.deq_apply, Spec.deq_apply, hx0, hx1, hx2]
  have e0 : (i0 * 1024 + p.val) / 8 = i0 * 128 + p.val / 8 := by omega
  have e1 : (i0 * 1024 + p.val) % 8 = p.val % 8 := by omega
  have e2 : (i0 * 1024 + p.val) / 128 = i0 * 8 + p.val / 128 := by omega
  have e3 : (i1 * 1024 + q.val) / 8 = i1 * 128 + q.val / 8 := by omega
  have e4 : (i1 * 1024 + q.val) % 8 = q.val % 8 := by omega
  simp only [e0, e1, e2, e3, e4]

/-- What grid point t writes back is block t of the dequantized array. -/
theorem deqFlushed0_eq (c : Dev nD) (t : Fin cfg0.N) :
    (dat0 (F := Ideal) V c).flushed 3 t = ((cfg0.win 3).blk t).view.read (Elt Ideal)
      (Spec.deq (R8 := 256) (C := 6144) (C8 := 768) (G := 16) (R := 2048) rfl rfl rfl
        (V c (Pipeline.arrRef spec0 0)) (V c (Pipeline.arrRef spec0 1)) (V c (Pipeline.arrRef spec0 2))) := by
  show (cfg0.win 3).cut (grid0.coords t) ((dat0 V c).after 3 t) = _
  rw [after0_3, out0_3_eq]
  obtain ⟨e0, e1, e2, e3, e4, e5, b0, b1⟩ := deqIdxFacts0 t
  funext j
  obtain ⟨p, q, rfl⟩ : ∃ (p : Fin 1024) (q : Fin 1024), j = ix2 p q := ⟨j 0, j 1, eq_ix2 j⟩
  refine (deq_block0 (V c (Pipeline.arrRef spec0 0)) (V c (Pipeline.arrRef spec0 1)) (V c (Pipeline.arrRef spec0 2))
    (iblk0 V c 0 t) (iblk0 V c 1 t) (iblk0 V c 2 t) (win0_3.index t (0 : Fin 2)) (win0_3.index t (1 : Fin 2)) b0 b1 ?_ ?_ ?_ p q).trans ?_
  · intro p q
    show V c (Pipeline.arrRef spec0 0) (((cfg0.win 0).blk t).view.emb (ix2 p q)) = _
    refine congrArg _ ?_
    funext a; apply Fin.ext
    match a with
    | ⟨0, _⟩ => show win0_0.index t (0 : Fin 2) * 128 + 1 * p.val = win0_3.index t (0 : Fin 2) * 128 + p.val; omega
    | ⟨1, _⟩ => show win0_0.index t (1 : Fin 2) * 1024 + 1 * q.val = win0_3.index t (1 : Fin 2) * 1024 + q.val; omega
  · intro p q
    show V c (Pipeline.arrRef spec0 1) (((cfg0.win 1).blk t).view.emb (ix2 p q)) = _
    refine congrArg _ ?_
    funext a; apply Fin.ext
    match a with
    | ⟨0, _⟩ => show win0_1.index t (0 : Fin 2) * 8 + 1 * p.val = win0_3.index t (0 : Fin 2) * 8 + p.val; omega
    | ⟨1, _⟩ => show win0_1.index t (1 : Fin 2) * 128 + 1 * q.val = win0_3.index t (1 : Fin 2) * 128 + q.val; omega
  · intro p q
    show V c (Pipeline.arrRef spec0 2) (((cfg0.win 2).blk t).view.emb (ix2 p q)) = _
    refine congrArg _ ?_
    funext a; apply Fin.ext
    match a with
    | ⟨0, _⟩ => show win0_2.index t (0 : Fin 2) * 8 + 1 * p.val = win0_3.index t (0 : Fin 2) * 8 + p.val; omega
    | ⟨1, _⟩ => show win0_2.index t (1 : Fin 2) * 1024 + 1 * q.val = win0_3.index t (1 : Fin 2) * 1024 + q.val; omega
  · show _ = Spec.deq (R8 := 256) (C := 6144) (C8 := 768) (G := 16) (R := 2048) rfl rfl rfl _ _ _ (((cfg0.win 3).blk t).view.emb (ix2 p q))
    refine congrArg _ ?_
    funext a; apply Fin.ext
    match a with
    | ⟨0, _⟩ => show win0_3.index t (0 : Fin 2) * 1024 + p.val = win0_3.index t (0 : Fin 2) * 1024 + 1 * p.val; omega
    | ⟨1, _⟩ => show win0_3.index t (1 : Fin 2) * 1024 + q.val = win0_3.index t (1 : Fin 2) * 1024 + 1 * q.val; omega

/-- An index of the array is in point t's block iff each coordinate is in the block's range on its axis. -/
theorem deqMemBlk0 (t : Fin cfg0.N) (i : S2048x6144.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v9).slice (win0_3.rect t)).set ↔ _
  rw [View.set_slice_whole, Rect.mem_set_unit]
  exact Iff.rfl

/-- The blocks tile the array: index (r, k) is in the block of the point whose block index is (r / 1024, k / 1024). -/
theorem deqCover0 (i : S2048x6144.Idx) :
    ∃ t : Fin cfg0.N, (cfg0.win 3).flush t = true ∧ i ∈ ((cfg0.win 3).blk t).view.set := by
  have hi0 : (i 0).val < 2048 := (i 0).isLt
  have hi1 : (i 1).val < 6144 := (i 1).isLt
  obtain ⟨t, ht⟩ := deqIdxOnto0 ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [deqMemBlk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

theorem deqArr0 (c : Dev nD) :
    (dat0 (F := Ideal) V c).arrAt 3 cfg0.N
      = Spec.deq (R8 := 256) (C := 6144) (C8 := 768) (G := 16) (R := 2048) rfl rfl rfl
          (V c (Pipeline.arrRef spec0 0)) (V c (Pipeline.arrRef spec0 1)) (V c (Pipeline.arrRef spec0 2)) :=
  (dat0 (F := Ideal) V c).arrAt_eq_of_cover 3 _ (fun t _ => deqFlushed0_eq V c t) deqCover0

end Cert.KernelIdeal.KV

end
-- ==== Proof.DeqArr1.lean ====
import proofs.«414438_j53953379173325_3_alg».proof.Proof.Gen.KernelIdeal.Frame
import proofs.«414438_j53953379173325_3_alg».proof.Proof.Spec
import proofs.«414438_j53953379173325_3_alg».proof.Proof.DeqBody
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps, decided over the grid: every input window moves with the output window, block by block, and the
    output's block indices stay in their ranges. -/
theorem deqIdxFacts1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) ≤ 1 ∧ win1_3.index t (1 : Fin 2) ≤ 5 :=
  (by decide +kernel : ∀ t : Fin grid1.N, _)

/-- Every block of the output array is some grid point's. -/
theorem deqIdxOnto1 : ∀ (q0 : Fin 2) (q1 : Fin 6), ∃ t : Fin cfg1.N, win1_3.index t = ![q0.val, q1.val] :=
  (by decide +kernel : ∀ (q0 : Fin 2) (q1 : Fin 6), ∃ t : Fin grid1.N, win1_3.index t = ![q0.val, q1.val])

/-- One element of a dequantized block is the same element of the dequantized array: when the three input blocks are
    the arrays' blocks at block index (i0, i1), element (p, q) of the block's matrix is element
    (1024·i0 + p, 1024·i1 + q) of the array's. Row 1024·i0 + p has word row (1024·i0 + p) / 8 = 128·i0 + p / 8, field
    (1024·i0 + p) % 8 = p % 8 and group row (1024·i0 + p) / 128 = 8·i0 + p / 128; column 1024·i1 + q has zero-point
    word column (1024·i1 + q) / 8 = 128·i1 + q / 8 and field (1024·i1 + q) % 8 = q % 8. -/
theorem deq_block1 (A0 : IVec ⟨2, ![256, 6144]⟩ 32) (A1 : IVec ⟨2, ![16, 768]⟩ 32) (A2 : FVec Ideal ⟨2, ![16, 6144]⟩ .f32)
    (x0 : IVec ⟨2, ![128, 1024]⟩ 32) (x1 : IVec ⟨2, ![8, 128]⟩ 32) (x2 : FVec Ideal ⟨2, ![8, 1024]⟩ .f32)
    (i0 i1 : ℕ) (h0 : i0 ≤ 1) (h1 : i1 ≤ 5)
    (hx0 : ∀ (p : Fin 128) (q : Fin 1024), x0 (ix2 p q) = A0 (ix2 ⟨i0 * 128 + p.val, by omega⟩ ⟨i1 * 1024 + q.val, by omega⟩))
    (hx1 : ∀ (p : Fin 8) (q : Fin 128), x1 (ix2 p q) = A1 (ix2 ⟨i0 * 8 + p.val, by omega⟩ ⟨i1 * 128 + q.val, by omega⟩))
    (hx2 : ∀ (p : Fin 8) (q : Fin 1024), x2 (ix2 p q) = A2 (ix2 ⟨i0 * 8 + p.val, by omega⟩ ⟨i1 * 1024 + q.val, by omega⟩))
    (p : Fin 1024) (q : Fin 1024) :
    Spec.deq (R8 := 128) (C := 1024) (C8 := 128) (G := 8) (R := 1024) rfl rfl rfl x0 x1 x2 (ix2 p q)
      = Spec.deq (R8 := 256) (C := 6144) (C8 := 768) (G := 16) (R := 2048) rfl rfl rfl A0 A1 A2
          (ix2 ⟨i0 * 1024 + p.val, by omega⟩ ⟨i1 * 1024 + q.val, by omega⟩) := by
  rw [Spec.deq_apply, Spec.deq_apply, hx0, hx1, hx2]
  have e0 : (i0 * 1024 + p.val) / 8 = i0 * 128 + p.val / 8 := by omega
  have e1 : (i0 * 1024 + p.val) % 8 = p.val % 8 := by omega
  have e2 : (i0 * 1024 + p.val) / 128 = i0 * 8 + p.val / 128 := by omega
  have e3 : (i1 * 1024 + q.val) / 8 = i1 * 128 + q.val / 8 := by omega
  have e4 : (i1 * 1024 + q.val) % 8 = q.val % 8 := by omega
  simp only [e0, e1, e2, e3, e4]

/-- What grid point t writes back is block t of the dequantized array. -/
theorem deqFlushed1_eq (c : Dev nD) (t : Fin cfg1.N) :
    (dat1 (F := Ideal) V c).flushed 3 t = ((cfg1.win 3).blk t).view.read (Elt Ideal)
      (Spec.deq (R8 := 256) (C := 6144) (C8 := 768) (G := 16) (R := 2048) rfl rfl rfl
        (V c (Pipeline.arrRef spec1 0)) (V c (Pipeline.arrRef spec1 1)) (V c (Pipeline.arrRef spec1 2))) := by
  show (cfg1.win 3).cut (grid1.coords t) ((dat1 V c).after 3 t) = _
  rw [after1_3, out1_3_eq]
  obtain ⟨e0, e1, e2, e3, e4, e5, b0, b1⟩ := deqIdxFacts1 t
  funext j
  obtain ⟨p, q, rfl⟩ : ∃ (p : Fin 1024) (q : Fin 1024), j = ix2 p q := ⟨j 0, j 1, eq_ix2 j⟩
  refine (deq_block1 (V c (Pipeline.arrRef spec1 0)) (V c (Pipeline.arrRef spec1 1)) (V c (Pipeline.arrRef spec1 2))
    (iblk1 V c 0 t) (iblk1 V c 1 t) (iblk1 V c 2 t) (win1_3.index t (0 : Fin 2)) (win1_3.index t (1 : Fin 2)) b0 b1 ?_ ?_ ?_ p q).trans ?_
  · intro p q
    show V c (Pipeline.arrRef spec1 0) (((cfg1.win 0).blk t).view.emb (ix2 p q)) = _
    refine congrArg _ ?_
    funext a; apply Fin.ext
    match a with
    | ⟨0, _⟩ => show win1_0.index t (0 : Fin 2) * 128 + 1 * p.val = win1_3.index t (0 : Fin 2) * 128 + p.val; omega
    | ⟨1, _⟩ => show win1_0.index t (1 : Fin 2) * 1024 + 1 * q.val = win1_3.index t (1 : Fin 2) * 1024 + q.val; omega
  · intro p q
    show V c (Pipeline.arrRef spec1 1) (((cfg1.win 1).blk t).view.emb (ix2 p q)) = _
    refine congrArg _ ?_
    funext a; apply Fin.ext
    match a with
    | ⟨0, _⟩ => show win1_1.index t (0 : Fin 2) * 8 + 1 * p.val = win1_3.index t (0 : Fin 2) * 8 + p.val; omega
    | ⟨1, _⟩ => show win1_1.index t (1 : Fin 2) * 128 + 1 * q.val = win1_3.index t (1 : Fin 2) * 128 + q.val; omega
  · intro p q
    show V c (Pipeline.arrRef spec1 2) (((cfg1.win 2).blk t).view.emb (ix2 p q)) = _
    refine congrArg _ ?_
    funext a; apply Fin.ext
    match a with
    | ⟨0, _⟩ => show win1_2.index t (0 : Fin 2) * 8 + 1 * p.val = win1_3.index t (0 : Fin 2) * 8 + p.val; omega
    | ⟨1, _⟩ => show win1_2.index t (1 : Fin 2) * 1024 + 1 * q.val = win1_3.index t (1 : Fin 2) * 1024 + q.val; omega
  · show _ = Spec.deq (R8 := 256) (C := 6144) (C8 := 768) (G := 16) (R := 2048) rfl rfl rfl _ _ _ (((cfg1.win 3).blk t).view.emb (ix2 p q))
    refine congrArg _ ?_
    funext a; apply Fin.ext
    match a with
    | ⟨0, _⟩ => show win1_3.index t (0 : Fin 2) * 1024 + p.val = win1_3.index t (0 : Fin 2) * 1024 + 1 * p.val; omega
    | ⟨1, _⟩ => show win1_3.index t (1 : Fin 2) * 1024 + q.val = win1_3.index t (1 : Fin 2) * 1024 + 1 * q.val; omega

/-- An index of the array is in point t's block iff each coordinate is in the block's range on its axis. -/
theorem deqMemBlk1 (t : Fin cfg1.N) (i : S2048x6144.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v10).slice (win1_3.rect t)).set ↔ _
  rw [View.set_slice_whole, Rect.mem_set_unit]
  exact Iff.rfl

/-- The blocks tile the array: index (r, k) is in the block of the point whose block index is (r / 1024, k / 1024). -/
theorem deqCover1 (i : S2048x6144.Idx) :
    ∃ t : Fin cfg1.N, (cfg1.win 3).flush t = true ∧ i ∈ ((cfg1.win 3).blk t).view.set := by
  have hi0 : (i 0).val < 2048 := (i 0).isLt
  have hi1 : (i 1).val < 6144 := (i 1).isLt
  obtain ⟨t, ht⟩ := deqIdxOnto1 ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [deqMemBlk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

theorem deqArr1 (c : Dev nD) :
    (dat1 (F := Ideal) V c).arrAt 3 cfg1.N
      = Spec.deq (R8 := 256) (C := 6144) (C8 := 768) (G := 16) (R := 2048) rfl rfl rfl
          (V c (Pipeline.arrRef spec1 0)) (V c (Pipeline.arrRef spec1 1)) (V c (Pipeline.arrRef spec1 2)) :=
  (dat1 (F := Ideal) V c).arrAt_eq_of_cover 3 _ (fun t _ => deqFlushed1_eq V c t) deqCover1

end Cert.KernelIdeal.KV

end
-- ==== Proof.DeqArr2.lean ====
import proofs.«414438_j53953379173325_3_alg».proof.Proof.Gen.KernelIdeal.Frame
import proofs.«414438_j53953379173325_3_alg».proof.Proof.Spec
import proofs.«414438_j53953379173325_3_alg».proof.Proof.DeqBody
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps, decided over the grid: every input window moves with the output window, block by block, and the
    output's block indices stay in their ranges. -/
theorem deqIdxFacts2 : ∀ t : Fin cfg2.N,
    win2_0.index t (0 : Fin 2) = win2_3.index t (0 : Fin 2) ∧ win2_0.index t (1 : Fin 2) = win2_3.index t (1 : Fin 2)
    ∧ win2_1.index t (0 : Fin 2) = win2_3.index t (0 : Fin 2) ∧ win2_1.index t (1 : Fin 2) = win2_3.index t (1 : Fin 2)
    ∧ win2_2.index t (0 : Fin 2) = win2_3.index t (0 : Fin 2) ∧ win2_2.index t (1 : Fin 2) = win2_3.index t (1 : Fin 2)
    ∧ win2_3.index t (0 : Fin 2) ≤ 5 ∧ win2_3.index t (1 : Fin 2) ≤ 1 :=
  (by decide +kernel : ∀ t : Fin grid2.N, _)

/-- Every block of the output array is some grid point's. -/
theorem deqIdxOnto2 : ∀ (q0 : Fin 6) (q1 : Fin 2), ∃ t : Fin cfg2.N, win2_3.index t = ![q0.val, q1.val] :=
  (by decide +kernel : ∀ (q0 : Fin 6) (q1 : Fin 2), ∃ t : Fin grid2.N, win2_3.index t = ![q0.val, q1.val])

/-- One element of a dequantized block is the same element of the dequantized array: when the three input blocks are
    the arrays' blocks at block index (i0, i1), element (p, q) of the block's matrix is element
    (1024·i0 + p, 1024·i1 + q) of the array's. Row 1024·i0 + p has word row (1024·i0 + p) / 8 = 128·i0 + p / 8, field
    (1024·i0 + p) % 8 = p % 8 and group row (1024·i0 + p) / 128 = 8·i0 + p / 128; column 1024·i1 + q has zero-point
    word column (1024·i1 + q) / 8 = 128·i1 + q / 8 and field (1024·i1 + q) % 8 = q % 8. -/
theorem deq_block2 (A0 : IVec ⟨2, ![768, 2048]⟩ 32) (A1 : IVec ⟨2, ![48, 256]⟩ 32) (A2 : FVec Ideal ⟨2, ![48, 2048]⟩ .f32)
    (x0 : IVec ⟨2, ![128, 1024]⟩ 32) (x1 : IVec ⟨2, ![8, 128]⟩ 32) (x2 : FVec Ideal ⟨2, ![8, 1024]⟩ .f32)
    (i0 i1 : ℕ) (h0 : i0 ≤ 5) (h1 : i1 ≤ 1)
    (hx0 : ∀ (p : Fin 128) (q : Fin 1024), x0 (ix2 p q) = A0 (ix2 ⟨i0 * 128 + p.val, by omega⟩ ⟨i1 * 1024 + q.val, by omega⟩))
    (hx1 : ∀ (p : Fin 8) (q : Fin 128), x1 (ix2 p q) = A1 (ix2 ⟨i0 * 8 + p.val, by omega⟩ ⟨i1 * 128 + q.val, by omega⟩))
    (hx2 : ∀ (p : Fin 8) (q : Fin 1024), x2 (ix2 p q) = A2 (ix2 ⟨i0 * 8 + p.val, by omega⟩ ⟨i1 * 1024 + q.val, by omega⟩))
    (p : Fin 1024) (q : Fin 1024) :
    Spec.deq (R8 := 128) (C := 1024) (C8 := 128) (G := 8) (R := 1024) rfl rfl rfl x0 x1 x2 (ix2 p q)
      = Spec.deq (R8 := 768) (C := 2048) (C8 := 256) (G := 48) (R := 6144) rfl rfl rfl A0 A1 A2
          (ix2 ⟨i0 * 1024 + p.val, by omega⟩ ⟨i1 * 1024 + q.val, by omega⟩) := by
  rw [Spec.deq_apply, Spec.deq_apply, hx0, hx1, hx2]
  have e0 : (i0 * 1024 + p.val) / 8 = i0 * 128 + p.val / 8 := by omega
  have e1 : (i0 * 1024 + p.val) % 8 = p.val % 8 := by omega
  have e2 : (i0 * 1024 + p.val) / 128 = i0 * 8 + p.val / 128 := by omega
  have e3 : (i1 * 1024 + q.val) / 8 = i1 * 128 + q.val / 8 := by omega
  have e4 : (i1 * 1024 + q.val) % 8 = q.val % 8 := by omega
  simp only [e0, e1, e2, e3, e4]

/-- What grid point t writes back is block t of the dequantized array. -/
theorem deqFlushed2_eq (c : Dev nD) (t : Fin cfg2.N) :
    (dat2 (F := Ideal) V c).flushed 3 t = ((cfg2.win 3).blk t).view.read (Elt Ideal)
      (Spec.deq (R8 := 768) (C := 2048) (C8 := 256) (G := 48) (R := 6144) rfl rfl rfl
        (V c (Pipeline.arrRef spec2 0)) (V c (Pipeline.arrRef spec2 1)) (V c (Pipeline.arrRef spec2 2))) := by
  show (cfg2.win 3).cut (grid2.coords t) ((dat2 V c).after 3 t) = _
  rw [after2_3, out2_3_eq]
  obtain ⟨e0, e1, e2, e3, e4, e5, b0, b1⟩ := deqIdxFacts2 t
  funext j
  obtain ⟨p, q, rfl⟩ : ∃ (p : Fin 1024) (q : Fin 1024), j = ix2 p q := ⟨j 0, j 1, eq_ix2 j⟩
  refine (deq_block2 (V c (Pipeline.arrRef spec2 0)) (V c (Pipeline.arrRef spec2 1)) (V c (Pipeline.arrRef spec2 2))
    (iblk2 V c 0 t) (iblk2 V c 1 t) (iblk2 V c 2 t) (win2_3.index t (0 : Fin 2)) (win2_3.index t (1 : Fin 2)) b0 b1 ?_ ?_ ?_ p q).trans ?_
  · intro p q
    show V c (Pipeline.arrRef spec2 0) (((cfg2.win 0).blk t).view.emb (ix2 p q)) = _
    refine congrArg _ ?_
    funext a; apply Fin.ext
    match a with
    | ⟨0, _⟩ => show win2_0.index t (0 : Fin 2) * 128 + 1 * p.val = win2_3.index t (0 : Fin 2) * 128 + p.val; omega
    | ⟨1, _⟩ => show win2_0.index t (1 : Fin 2) * 1024 + 1 * q.val = win2_3.index t (1 : Fin 2) * 1024 + q.val; omega
  · intro p q
    show V c (Pipeline.arrRef spec2 1) (((cfg2.win 1).blk t).view.emb (ix2 p q)) = _
    refine congrArg _ ?_
    funext a; apply Fin.ext
    match a with
    | ⟨0, _⟩ => show win2_1.index t (0 : Fin 2) * 8 + 1 * p.val = win2_3.index t (0 : Fin 2) * 8 + p.val; omega
    | ⟨1, _⟩ => show win2_1.index t (1 : Fin 2) * 128 + 1 * q.val = win2_3.index t (1 : Fin 2) * 128 + q.val; omega
  · intro p q
    show V c (Pipeline.arrRef spec2 2) (((cfg2.win 2).blk t).view.emb (ix2 p q)) = _
    refine congrArg _ ?_
    funext a; apply Fin.ext
    match a with
    | ⟨0, _⟩ => show win2_2.index t (0 : Fin 2) * 8 + 1 * p.val = win2_3.index t (0 : Fin 2) * 8 + p.val; omega
    | ⟨1, _⟩ => show win2_2.index t (1 : Fin 2) * 1024 + 1 * q.val = win2_3.index t (1 : Fin 2) * 1024 + q.val; omega
  · show _ = Spec.deq (R8 := 768) (C := 2048) (C8 := 256) (G := 48) (R := 6144) rfl rfl rfl _ _ _ (((cfg2.win 3).blk t).view.emb (ix2 p q))
    refine congrArg _ ?_
    funext a; apply Fin.ext
    match a with
    | ⟨0, _⟩ => show win2_3.index t (0 : Fin 2) * 1024 + p.val = win2_3.index t (0 : Fin 2) * 1024 + 1 * p.val; omega
    | ⟨1, _⟩ => show win2_3.index t (1 : Fin 2) * 1024 + q.val = win2_3.index t (1 : Fin 2) * 1024 + 1 * q.val; omega

/-- An index of the array is in point t's block iff each coordinate is in the block's range on its axis. -/
theorem deqMemBlk2 (t : Fin cfg2.N) (i : S6144x2048.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v11).slice (win2_3.rect t)).set ↔ _
  rw [View.set_slice_whole, Rect.mem_set_unit]
  exact Iff.rfl

/-- The blocks tile the array: index (r, k) is in the block of the point whose block index is (r / 1024, k / 1024). -/
theorem deqCover2 (i : S6144x2048.Idx) :
    ∃ t : Fin cfg2.N, (cfg2.win 3).flush t = true ∧ i ∈ ((cfg2.win 3).blk t).view.set := by
  have hi0 : (i 0).val < 6144 := (i 0).isLt
  have hi1 : (i 1).val < 2048 := (i 1).isLt
  obtain ⟨t, ht⟩ := deqIdxOnto2 ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [deqMemBlk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

theorem deqArr2 (c : Dev nD) :
    (dat2 (F := Ideal) V c).arrAt 3 cfg2.N
      = Spec.deq (R8 := 768) (C := 2048) (C8 := 256) (G := 48) (R := 6144) rfl rfl rfl
          (V c (Pipeline.arrRef spec2 0)) (V c (Pipeline.arrRef spec2 1)) (V c (Pipeline.arrRef spec2 2)) :=
  (dat2 (F := Ideal) V c).arrAt_eq_of_cover 3 _ (fun t _ => deqFlushed2_eq V c t) deqCover2

end Cert.KernelIdeal.KV

end
-- ==== Proof.MoeBody.lean ====
/-
  The body of the fused gated-MLP step on one token block (1024 tokens) and one inner block (256 columns).

  The output block after the step is the block before it (zeros at the first inner step) plus the inner block's term:
  at (t, n) the sum over the 256 inner columns k of (g · logistic g) · u · wd(k, n), with g and u the sums over the 2048
  model columns r of x(t, r) · wg(r, k) and x(t, r) · wu(r, k). Each product into a zero accumulator is its sum of
  products; no law beyond re-indexing a sum by its one contracted coordinate is used.
-/
import proofs.«414438_j53953379173325_3_alg».proof.Proof.Gen.KernelIdeal.Frame
import proofs.«414438_j53953379173325_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## What each control case leaves in the output block, as one stored value

At the first inner step the body stores zeros, reads them back, and stores the accumulation over them; at a later step it
reads the running contents and stores the accumulation over those. Every load and store is of the whole block, so the
block's contents afterwards are the last stored value, over the blocks as loaded. -/

section Stored
variable {F : FTy → Type} [FloatOps F]

/-- First inner step: the block holds the accumulation over the zeros just stored. -/
theorem out3_A_4_stored (c : Dev nD) (i : grid3.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x2048 .bf16) (harg5 : arg5.IsWhole) (arg6 : Memref sig .tc .vmem S1024x2048 .f32) (harg6 : arg6.IsWhole) (hc0 : cond3_0 i)
    (x0 : Vec F S1024x2048 .bf16) (x1 : Vec F S2048x256 .bf16) (x2 : Vec F S2048x256 .bf16) (x3 : Vec F S256x2048 .bf16) :
    out3_A_4 (F := F) c i arg2 harg2 arg3 harg3 arg4 harg4 arg5 harg5 arg6 harg6 hc0 x0 x1 x2 x3 = k3_pay2 x0 x1 x2 (k3_pay1 (F := F)) x3 := by
  have hz : (![0, 0] : Fin 2 → Nat) = fun _ => 0 := by funext a; fin_cases a <;> rfl
  unfold out3_A_4
  rw [View.read_writes_eq_canon _ _ _ (cover3_A_4 c i arg2 harg2 arg3 harg3 arg4 harg4 arg5 harg5 arg6 harg6 hc0 x0 x1 x2 x3)]
  unfold kernelRun3_A
  dsimp only
  sl_unfold_words
  rw [View.canon_cons_unit_zero (S := S1024x2048) hz, View.readCov_unit_zero (S := S1024x2048) _ hz]
  simp only [View.readAt_eq_ld, harg2.read_unread, harg3.read_unread, harg4.read_unread, harg5.read_unread,
    View.ld_unit_zero (S := S1024x2048) hz, View.ld_unit_zero (S := S2048x256) hz, View.ld_unit_zero (S := S256x2048) hz]

/-- A later inner step: the block holds the accumulation over its running contents. -/
theorem out3_B_4_stored (c : Dev nD) (i : grid3.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x2048 .bf16) (harg5 : arg5.IsWhole) (arg6 : Memref sig .tc .vmem S1024x2048 .f32) (harg6 : arg6.IsWhole) (hc0 : ¬cond3_0 i)
    (x0 : Vec F S1024x2048 .bf16) (x1 : Vec F S2048x256 .bf16) (x2 : Vec F S2048x256 .bf16) (x3 : Vec F S256x2048 .bf16)
    (xo4 : Vec F S1024x2048 .f32) :
    out3_B_4 (F := F) c i arg2 harg2 arg3 harg3 arg4 harg4 arg5 harg5 arg6 harg6 hc0 x0 x1 x2 x3 xo4 = k3_pay2 x0 x1 x2 xo4 x3 := by
  have hz : (![0, 0] : Fin 2 → Nat) = fun _ => 0 := by funext a; fin_cases a <;> rfl
  unfold out3_B_4
  rw [View.read_writes_eq_canon _ _ _ (cover3_B_4 c i arg2 harg2 arg3 harg3 arg4 harg4 arg5 harg5 arg6 harg6 hc0 x0 x1 x2 x3 xo4)]
  unfold kernelRun3_B
  dsimp only
  sl_unfold_words
  rw [View.canon_unit_zero (S := S1024x2048) hz]
  simp only [View.readAt_eq_ld, harg2.read_unread, harg3.read_unread, harg4.read_unread, harg5.read_unread, harg6.read_unread,
    View.ld_unit_zero (S := S1024x2048) hz, View.ld_unit_zero (S := S2048x256) hz, View.ld_unit_zero (S := S256x2048) hz]

end Stored

/-! ## The stored value at an index

### The gate and up products: a 1024×2048 token block times a 2048×256 weight block

The operand indices of the product at output index (t, k) and contracted position r are (t, r) and (r, k), axis by axis. -/

theorem up_lhs0 (j : S1024x256.Idx) (k : dot_S1024x2048_S2048x256_S1024x256_1_0_0_1_n_n.contr.Idx) :
    (dot_S1024x2048_S2048x256_S1024x256_1_0_0_1_n_n.lhsIdx j k 0 : ℕ) = j 0 := by
  simp [DotDims.lhsIdx, dot_S1024x2048_S2048x256_S1024x256_1_0_0_1_n_n]; rfl
theorem up_lhs1 (j : S1024x256.Idx) (k : dot_S1024x2048_S2048x256_S1024x256_1_0_0_1_n_n.contr.Idx) :
    (dot_S1024x2048_S2048x256_S1024x256_1_0_0_1_n_n.lhsIdx j k 1 : ℕ) = k ⟨0, by decide⟩ := by
  simp [DotDims.lhsIdx, dot_S1024x2048_S2048x256_S1024x256_1_0_0_1_n_n]; rfl
theorem up_rhs0 (j : S1024x256.Idx) (k : dot_S1024x2048_S2048x256_S1024x256_1_0_0_1_n_n.contr.Idx) :
    (dot_S1024x2048_S2048x256_S1024x256_1_0_0_1_n_n.rhsIdx j k 0 : ℕ) = k ⟨0, by decide⟩ := by
  simp [DotDims.rhsIdx, dot_S1024x2048_S2048x256_S1024x256_1_0_0_1_n_n]; rfl
theorem up_rhs1 (j : S1024x256.Idx) (k : dot_S1024x2048_S2048x256_S1024x256_1_0_0_1_n_n.contr.Idx) :
    (dot_S1024x2048_S2048x256_S1024x256_1_0_0_1_n_n.rhsIdx j k 1 : ℕ) = j 1 := by
  simp [DotDims.rhsIdx, dot_S1024x2048_S2048x256_S1024x256_1_0_0_1_n_n]; rfl

/-- The product of a 1024×2048 block and a 2048×256 block into a zero accumulator, at (t, k): the sum over the 2048
    contracted positions of the entries' products. -/
theorem upProduct_apply (A : FVec Ideal S1024x2048 .bf16) (B : FVec Ideal S2048x256 .bf16) (t : Fin 1024) (k : Fin 256) :
    matmul dot_S1024x2048_S2048x256_S1024x256_1_0_0_1_n_n none A B (constant (F := Ideal) S1024x256 .f32 0x00000000#32) (ix2 t k)
      = ∑ r : Fin 2048, A (ix2 t r) * B (ix2 r k) := by
  refine (Ideal.matmul_constant_zero_apply dot_S1024x2048_S2048x256_S1024x256_1_0_0_1_n_n none A B (ix2 t k)).trans ?_
  rw [← Equiv.sum_comp (contrEquiv1 dot_S1024x2048_S2048x256_S1024x256_1_0_0_1_n_n 2048 rfl rfl).symm]
  refine Finset.sum_congr rfl fun r _ => ?_
  have hr := contrEquiv1_symm_val dot_S1024x2048_S2048x256_S1024x256_1_0_0_1_n_n 2048 rfl rfl r
  have hl : dot_S1024x2048_S2048x256_S1024x256_1_0_0_1_n_n.lhsIdx (ix2 t k)
      ((contrEquiv1 dot_S1024x2048_S2048x256_S1024x256_1_0_0_1_n_n 2048 rfl rfl).symm r) = ix2 t r := by
    funext ax; apply Fin.ext
    match ax with
    | ⟨0, _⟩ => exact up_lhs0 _ _
    | ⟨1, _⟩ => exact (up_lhs1 _ _).trans hr
  have hrr : dot_S1024x2048_S2048x256_S1024x256_1_0_0_1_n_n.rhsIdx (ix2 t k)
      ((contrEquiv1 dot_S1024x2048_S2048x256_S1024x256_1_0_0_1_n_n 2048 rfl rfl).symm r) = ix2 r k := by
    funext ax; apply Fin.ext
    match ax with
    | ⟨0, _⟩ => exact (up_rhs0 _ _).trans hr
    | ⟨1, _⟩ => exact up_rhs1 _ _
  rw [hl, hrr]

/-! ### The down product: the 1024×256 hidden block times a 256×2048 weight block

The operand indices at output index (t, n) and contracted position k are (t, k) and (k, n), axis by axis. -/

theorem down_lhs0 (j : S1024x2048.Idx) (k : dot_S1024x256_S256x2048_S1024x2048_1_0_0_1_n_n.contr.Idx) :
    (dot_S1024x256_S256x2048_S1024x2048_1_0_0_1_n_n.lhsIdx j k 0 : ℕ) = j 0 := by
  simp [DotDims.lhsIdx, dot_S1024x256_S256x2048_S1024x2048_1_0_0_1_n_n]; rfl
theorem down_lhs1 (j : S1024x2048.Idx) (k : dot_S1024x256_S256x2048_S1024x2048_1_0_0_1_n_n.contr.Idx) :
    (dot_S1024x256_S256x2048_S1024x2048_1_0_0_1_n_n.lhsIdx j k 1 : ℕ) = k ⟨0, by decide⟩ := by
  simp [DotDims.lhsIdx, dot_S1024x256_S256x2048_S1024x2048_1_0_0_1_n_n]; rfl
theorem down_rhs0 (j : S1024x2048.Idx) (k : dot_S1024x256_S256x2048_S1024x2048_1_0_0_1_n_n.contr.Idx) :
    (dot_S1024x256_S256x2048_S1024x2048_1_0_0_1_n_n.rhsIdx j k 0 : ℕ) = k ⟨0, by decide⟩ := by
  simp [DotDims.rhsIdx, dot_S1024x256_S256x2048_S1024x2048_1_0_0_1_n_n]; rfl
theorem down_rhs1 (j : S1024x2048.Idx) (k : dot_S1024x256_S256x2048_S1024x2048_1_0_0_1_n_n.contr.Idx) :
    (dot_S1024x256_S256x2048_S1024x2048_1_0_0_1_n_n.rhsIdx j k 1 : ℕ) = j 1 := by
  simp [DotDims.rhsIdx, dot_S1024x256_S256x2048_S1024x2048_1_0_0_1_n_n]; rfl

/-- The product of a 1024×256 block and a 256×2048 block into a zero accumulator, at (t, n): the sum over the 256
    contracted positions of the entries' products. -/
theorem downProduct_apply (A : FVec Ideal S1024x256 .bf16) (B : FVec Ideal S256x2048 .bf16) (t : Fin 1024) (n : Fin 2048) :
    matmul dot_S1024x256_S256x2048_S1024x2048_1_0_0_1_n_n none A B (constant (F := Ideal) S1024x2048 .f32 0x00000000#32) (ix2 t n)
      = ∑ k : Fin 256, A (ix2 t k) * B (ix2 k n) := by
  refine (Ideal.matmul_constant_zero_apply dot_S1024x256_S256x2048_S1024x2048_1_0_0_1_n_n none A B (ix2 t n)).trans ?_
  rw [← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have hl : dot_S1024x256_S256x2048_S1024x2048_1_0_0_1_n_n.lhsIdx (ix2 t n)
      ((contrEquiv1 dot_S1024x256_S256x2048_S1024x2048_1_0_0_1_n_n 256 rfl rfl).symm k) = ix2 t k := by
    funext ax; apply Fin.ext
    match ax with
    | ⟨0, _⟩ => exact down_lhs0 _ _
    | ⟨1, _⟩ => exact (down_lhs1 _ _).trans hk
  have hrr : dot_S1024x256_S256x2048_S1024x2048_1_0_0_1_n_n.rhsIdx (ix2 t n)
      ((contrEquiv1 dot_S1024x256_S256x2048_S1024x2048_1_0_0_1_n_n 256 rfl rfl).symm k) = ix2 k n := by
    funext ax; apply Fin.ext
    match ax with
    | ⟨0, _⟩ => exact (down_rhs0 _ _).trans hk
    | ⟨1, _⟩ => exact down_rhs1 _ _
  rw [hl, hrr]

/-! ### The accumulation

The stored value at (t, n) is the loaded output entry plus the sum over the 256 inner columns k of
(g · logistic g) · u times the down weight at (k, n), where g and u are the gate and up products at (t, k); changing the
float format of the hidden block does nothing on the extended reals, and a shape cast to the same shape is the identity. -/

theorem accumulate_apply (x0 : FVec Ideal S1024x2048 .bf16) (x1 x2 : FVec Ideal S2048x256 .bf16) (acc : FVec Ideal S1024x2048 .f32)
    (x3 : FVec Ideal S256x2048 .bf16) (t : Fin 1024) (n : Fin 2048) :
    k3_pay2 (F := Ideal) x0 x1 x2 acc x3 (ix2 t n) = acc (ix2 t n) + Spec.blockTerm x0 x1 x2 x3 (ix2 t n) := by
  unfold k3_pay2
  simp only [shapeCast_self]
  refine (addf_apply _ _ _).trans ?_
  refine congrArg (acc (ix2 t n) + ·) ?_
  refine (downProduct_apply _ _ t n).trans ?_
  rw [Spec.blockTerm_apply]
  refine Finset.sum_congr rfl fun k _ => ?_
  refine congrArg (· * x3 (ix2 k n)) ?_
  simp only [truncf_apply, mulf_apply, logistic, upProduct_apply, Ideal.logistic_def]
  rfl

/-- The zero splat stored at the first inner step reads 0 everywhere. -/
theorem zeros_apply (t : Fin 1024) (n : Fin 2048) : k3_pay1 (F := Ideal) (ix2 t n) = (0 : EReal) := by
  unfold k3_pay1
  show Ideal.ofBits .f32 0x00000000#32 = (0 : EReal)
  exact Ideal.ofBits_zero_f32

/-! ## The two control cases -/

theorem out3_A_4_eq (c : Dev nD) (i : grid3.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x2048 .bf16) (harg5 : arg5.IsWhole) (arg6 : Memref sig .tc .vmem S1024x2048 .f32) (harg6 : arg6.IsWhole) (hc0 : cond3_0 i)
    (x0 : Vec Ideal S1024x2048 .bf16) (x1 : Vec Ideal S2048x256 .bf16) (x2 : Vec Ideal S2048x256 .bf16) (x3 : Vec Ideal S256x2048 .bf16) :
    out3_A_4 (F := Ideal) c i arg2 harg2 arg3 harg3 arg4 harg4 arg5 harg5 arg6 harg6 hc0 x0 x1 x2 x3 = fun y => (0 : EReal) + Spec.blockTerm x0 x1 x2 x3 y := by
  rw [out3_A_4_stored (F := Ideal) c i arg2 harg2 arg3 harg3 arg4 harg4 arg5 harg5 arg6 harg6 hc0 x0 x1 x2 x3]
  funext y
  obtain ⟨t, n, rfl⟩ : ∃ (t : Fin 1024) (n : Fin 2048), y = ix2 t n := ⟨y 0, y 1, eq_ix2 y⟩
  refine (accumulate_apply x0 x1 x2 (k3_pay1 (F := Ideal)) x3 t n).trans ?_
  exact congrArg (· + Spec.blockTerm x0 x1 x2 x3 (ix2 t n)) (zeros_apply t n)

theorem out3_B_4_eq (c : Dev nD) (i : grid3.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x2048 .bf16) (harg5 : arg5.IsWhole) (arg6 : Memref sig .tc .vmem S1024x2048 .f32) (harg6 : arg6.IsWhole) (hc0 : ¬cond3_0 i)
    (x0 : Vec Ideal S1024x2048 .bf16) (x1 : Vec Ideal S2048x256 .bf16) (x2 : Vec Ideal S2048x256 .bf16) (x3 : Vec Ideal S256x2048 .bf16)
    (xo4 : Vec Ideal S1024x2048 .f32) :
    out3_B_4 (F := Ideal) c i arg2 harg2 arg3 harg3 arg4 harg4 arg5 harg5 arg6 harg6 hc0 x0 x1 x2 x3 xo4 = fun y => xo4 y + Spec.blockTerm x0 x1 x2 x3 y := by
  rw [out3_B_4_stored (F := Ideal) c i arg2 harg2 arg3 harg3 arg4 harg4 arg5 harg5 arg6 harg6 hc0 x0 x1 x2 x3 xo4]
  funext y
  obtain ⟨t, n, rfl⟩ : ∃ (t : Fin 1024) (n : Fin 2048), y = ix2 t n := ⟨y 0, y 1, eq_ix2 y⟩
  exact accumulate_apply x0 x1 x2 xo4 x3 t n

end Cert.KernelIdeal.KV

end
-- ==== Proof.MoeArr.lean ====
import proofs.«414438_j53953379173325_3_alg».proof.Proof.Gen.KernelIdeal.Frame
import proofs.«414438_j53953379173325_3_alg».proof.Proof.Spec
import proofs.«414438_j53953379173325_3_alg».proof.Proof.MoeBody
import Idealize.ShloMosaic.Lib.Pipeline.Value
import Mathlib.Algebra.BigOperators.Fin
import Mathlib.Algebra.BigOperators.Group.Finset.Basic

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace MoeArr

/-- A sum over `n` consecutive blocks of `B` is the sum over the first `B · n` naturals. -/
theorem sum_blocks_range {M : Type*} [AddCommMonoid M] (f : ℕ → M) (B : ℕ) :
    ∀ n : ℕ, ∑ s ∈ Finset.range n, ∑ k : Fin B, f (B * s + k.val) = ∑ m ∈ Finset.range (B * n), f m
  | 0 => by simp
  | n + 1 => by
    rw [Finset.sum_range_succ, sum_blocks_range f B n, Nat.mul_succ, Finset.sum_range_add,
      ← Finset.sum_range (fun k => f (B * n + k))]

/-- The 22 inner blocks of 256 columns are the 5632 inner columns. -/
theorem sum_blocks {M : Type*} [AddCommMonoid M] (f : ℕ → M) :
    ∑ s ∈ Finset.range 22, ∑ k : Fin 256, f (256 * s + k.val) = ∑ m : Fin 5632, f m.val := by
  rw [sum_blocks_range f 256 22, Finset.sum_range]

/-- The four input blocks at a point, at their literal types. -/
abbrev xblk (c : Dev nD) (t : Fin cfg3.N) : Vec Ideal S1024x2048 .bf16 := iblk3 (F := Ideal) V c 0 t
abbrev gblk (c : Dev nD) (t : Fin cfg3.N) : Vec Ideal S2048x256 .bf16 := iblk3 (F := Ideal) V c 1 t
abbrev ublk (c : Dev nD) (t : Fin cfg3.N) : Vec Ideal S2048x256 .bf16 := iblk3 (F := Ideal) V c 2 t
abbrev dblk (c : Dev nD) (t : Fin cfg3.N) : Vec Ideal S256x2048 .bf16 := iblk3 (F := Ideal) V c 3 t

/-- What point `n` adds to the running block of the result: the block term of its four input blocks. -/
def term (c : Dev nD) (n : ℕ) : S1024x2048.Idx → EReal := fun y =>
  if h : n < cfg3.N then Spec.blockTerm (xblk V c ⟨n, h⟩) (gblk V c ⟨n, h⟩) (ublk V c ⟨n, h⟩) (dblk V c ⟨n, h⟩) y else 0

theorem term_of_lt (c : Dev nD) (n : ℕ) (h : n < cfg3.N) (y : S1024x2048.Idx) :
    term V c n y = Spec.blockTerm (xblk V c ⟨n, h⟩) (gblk V c ⟨n, h⟩) (ublk V c ⟨n, h⟩) (dblk V c ⟨n, h⟩) y := by
  unfold term; rw [dif_pos h]

/-- The staging contents after a point depend on the point's number only. -/
theorem outsAt3_congr (c : Dev nD) {n n' : ℕ} (e : n = n') (h : n < cfg3.N) (h' : n' < cfg3.N) :
    outsAt3 (F := Ideal) V c n h = outsAt3 (F := Ideal) V c n' h' := by
  subst e; rfl

/-- The running block after point 22·q + j (j < 22) is the sum of the terms of the points 22·q … 22·q + j:
    the first point of a run resets to zero and adds its term, each later one adds its term to what was left. -/
theorem outsAt3_eq (c : Dev nD) (q : ℕ) : ∀ (j : ℕ) (_ : j < 22) (h : 22 * q + j < cfg3.N),
    outsAt3 (F := Ideal) V c (22 * q + j) h = fun y => ∑ s ∈ Finset.range (j + 1), term V c (22 * q + s) y
  | 0, _, h => by
    have h0 : (⟨22 * q + 0, h⟩ : Fin cfg3.N).val % 22 = 0 := by dsimp only; omega
    rw [outsAt3_A V c ⟨22 * q + 0, h⟩ h0, out3_A_4_eq]
    funext y
    rw [zero_add, Finset.sum_range_one, term_of_lt V c (22 * q + 0) h]
  | j + 1, hj, h => by
    have h0 : ¬(⟨22 * q + (j + 1), h⟩ : Fin cfg3.N).val % 22 = 0 := by dsimp only; omega
    rw [outsAt3_B V c ⟨22 * q + (j + 1), h⟩ h0, out3_B_4_eq]
    funext y
    rw [Finset.sum_range_succ _ (j + 1), term_of_lt V c (22 * q + (j + 1)) h,
      outsAt3_congr V c (show (⟨22 * q + (j + 1), h⟩ : Fin cfg3.N).val - 1 = 22 * q + j from by dsimp only; omega) _
        (Nat.lt_of_succ_lt h),
      outsAt3_eq c q j (Nat.lt_of_succ_lt hj) (Nat.lt_of_succ_lt h)]

/-- The four arrays the region reads, as it finds them, at their literal types. -/
abbrev xarr (c : Dev nD) : Vec Ideal S8192x2048 .bf16 := V c (Pipeline.arrRef spec3 0)
abbrev garr (c : Dev nD) : Vec Ideal S2048x6144 .bf16 := V c (Pipeline.arrRef spec3 1)
abbrev uarr (c : Dev nD) : Vec Ideal S2048x6144 .bf16 := V c (Pipeline.arrRef spec3 2)
abbrev darr (c : Dev nD) : Vec Ideal S6144x2048 .bf16 := V c (Pipeline.arrRef spec3 3)

/-- The gated MLP of those arrays: what the result array ends holding. -/
abbrev mlpArr (c : Dev nD) : Vec Ideal S8192x2048 .f32 :=
  Spec.mlp (I := 6144) (by decide) (xarr V c) (garr V c) (uarr V c) (darr V c)

/-- The printed index maps over the grid: point t = 22·i + j reads token block i of x, inner block j of the three
    weight matrices, and accumulates into token block i of the result. -/
theorem idx_facts3 : ∀ t : Fin cfg3.N,
    win3_0.index t (0 : Fin 2) = t.val / 22 ∧ win3_0.index t (1 : Fin 2) = 0
    ∧ win3_1.index t (0 : Fin 2) = 0 ∧ win3_1.index t (1 : Fin 2) = t.val % 22
    ∧ win3_2.index t (0 : Fin 2) = 0 ∧ win3_2.index t (1 : Fin 2) = t.val % 22
    ∧ win3_3.index t (0 : Fin 2) = t.val % 22 ∧ win3_3.index t (1 : Fin 2) = 0
    ∧ win3_4.index t (0 : Fin 2) = t.val / 22 ∧ win3_4.index t (1 : Fin 2) = 0 :=
  (by decide +kernel : ∀ t : Fin grid3.N, _)

/-- Token block t / 22 of x: row r of the block is row 1024·(t / 22) + r of the array. -/
theorem xblk_apply (c : Dev nD) (t : Fin cfg3.N) (r : Fin 1024) (k : Fin 2048) (R : Fin 8192)
    (hR : R.val = 1024 * (t.val / 22) + r.val) : xblk V c t (ix2 r k) = xarr V c (ix2 R k) := by
  obtain ⟨e0, e1, -⟩ := idx_facts3 t
  show V c (Pipeline.arrRef spec3 0) (((cfg3.win 0).blk t).view.emb (ix2 r k)) = V c (Pipeline.arrRef spec3 0) (ix2 R k)
  refine congrArg _ (funext fun a => Fin.ext ?_)
  match a with
  | ⟨0, _⟩ => show win3_0.index t (0 : Fin 2) * 1024 + 1 * r.val = R.val; omega
  | ⟨1, _⟩ => show win3_0.index t (1 : Fin 2) * 2048 + 1 * k.val = k.val; omega

/-- Inner block t % 22 of the gate matrix: column k of the block is column 256·(t % 22) + k of the array. -/
theorem gblk_apply (c : Dev nD) (t : Fin cfg3.N) (r : Fin 2048) (k : Fin 256) (K : Fin 6144)
    (hK : K.val = 256 * (t.val % 22) + k.val) : gblk V c t (ix2 r k) = garr V c (ix2 r K) := by
  obtain ⟨-, -, e0, e1, -⟩ := idx_facts3 t
  show V c (Pipeline.arrRef spec3 1) (((cfg3.win 1).blk t).view.emb (ix2 r k)) = V c (Pipeline.arrRef spec3 1) (ix2 r K)
  refine congrArg _ (funext fun a => Fin.ext ?_)
  match a with
  | ⟨0, _⟩ => show win3_1.index t (0 : Fin 2) * 2048 + 1 * r.val = r.val; omega
  | ⟨1, _⟩ => show win3_1.index t (1 : Fin 2) * 256 + 1 * k.val = K.val; omega

/-- Inner block t % 22 of the up matrix, likewise. -/
theorem ublk_apply (c : Dev nD) (t : Fin cfg3.N) (r : Fin 2048) (k : Fin 256) (K : Fin 6144)
    (hK : K.val = 256 * (t.val % 22) + k.val) : ublk V c t (ix2 r k) = uarr V c (ix2 r K) := by
  obtain ⟨-, -, -, -, e0, e1, -⟩ := idx_facts3 t
  show V c (Pipeline.arrRef spec3 2) (((cfg3.win 2).blk t).view.emb (ix2 r k)) = V c (Pipeline.arrRef spec3 2) (ix2 r K)
  refine congrArg _ (funext fun a => Fin.ext ?_)
  match a with
  | ⟨0, _⟩ => show win3_2.index t (0 : Fin 2) * 2048 + 1 * r.val = r.val; omega
  | ⟨1, _⟩ => show win3_2.index t (1 : Fin 2) * 256 + 1 * k.val = K.val; omega

/-- Inner block t % 22 of the down matrix: row k of the block is row 256·(t % 22) + k of the array. -/
theorem dblk_apply (c : Dev nD) (t : Fin cfg3.N) (k : Fin 256) (n : Fin 2048) (K : Fin 6144)
    (hK : K.val = 256 * (t.val % 22) + k.val) : dblk V c t (ix2 k n) = darr V c (ix2 K n) := by
  obtain ⟨-, -, -, -, -, -, e0, e1, -⟩ := idx_facts3 t
  show V c (Pipeline.arrRef spec3 3) (((cfg3.win 3).blk t).view.emb (ix2 k n)) = V c (Pipeline.arrRef spec3 3) (ix2 K n)
  refine congrArg _ (funext fun a => Fin.ext ?_)
  match a with
  | ⟨0, _⟩ => show win3_3.index t (0 : Fin 2) * 256 + 1 * k.val = K.val; omega
  | ⟨1, _⟩ => show win3_3.index t (1 : Fin 2) * 2048 + 1 * n.val = n.val; omega

/-- The hidden activation of the blocks at a point is the hidden activation of the arrays at the embedded token and
    inner column: both contract the same 2048 products. -/
theorem hidB_eq (c : Dev nD) (t : Fin cfg3.N) (r : Fin 1024) (k : Fin 256) (R : Fin 8192) (K : Fin 5632)
    (hR : R.val = 1024 * (t.val / 22) + r.val) (hK : K.val = 256 * (t.val % 22) + k.val) :
    Spec.hidB (xblk V c t) (gblk V c t) (ublk V c t) r k
      = Spec.hid (I := 6144) (by decide) (xarr V c) (garr V c) (uarr V c) R K := by
  have hg : (∑ r' : Fin 2048, xblk V c t (ix2 r r') * gblk V c t (ix2 r' k) : EReal)
      = ∑ r' : Fin 2048, xarr V c (ix2 R r') * garr V c (ix2 r' ⟨K.val, by omega⟩) :=
    Finset.sum_congr rfl fun r' _ => by
      rw [xblk_apply V c t r r' R hR, gblk_apply V c t r' k ⟨K.val, by omega⟩ hK]
  have hu : (∑ r' : Fin 2048, xblk V c t (ix2 r r') * ublk V c t (ix2 r' k) : EReal)
      = ∑ r' : Fin 2048, xarr V c (ix2 R r') * uarr V c (ix2 r' ⟨K.val, by omega⟩) :=
    Finset.sum_congr rfl fun r' _ => by
      rw [xblk_apply V c t r r' R hR, ublk_apply V c t r' k ⟨K.val, by omega⟩ hK]
  unfold Spec.hidB Spec.hid
  dsimp only
  rw [hg, hu]

/-- One inner column's contribution to the result at token R and column n; nothing past the 5632 columns. -/
def colTerm (c : Dev nD) (R : Fin 8192) (n : Fin 2048) (m : ℕ) : EReal :=
  if h : m < 5632 then
    Spec.hid (I := 6144) (by decide) (xarr V c) (garr V c) (uarr V c) R ⟨m, h⟩ * darr V c (ix2 ⟨m, by omega⟩ n)
  else 0

/-- The 22 block terms of a run of points, at an element, are the gated MLP at the embedded element: inner block s
    contributes the inner columns 256·s … 256·s + 255, and the 22 blocks are the 5632 columns. -/
theorem blockSum_eq (c : Dev nD) (q : ℕ) (hq : 22 * q + 21 < cfg3.N) (y : S1024x2048.Idx) (i : S8192x2048.Idx)
    (h0 : (i 0).val = 1024 * q + (y 0).val) (h1 : (i 1).val = (y 1).val) :
    ∑ s ∈ Finset.range 22, term V c (22 * q + s) y = mlpArr V c i := by
  obtain ⟨r, n, rfl⟩ : ∃ (r : Fin 1024) (n : Fin 2048), y = ix2 r n := ⟨y 0, y 1, eq_ix2 y⟩
  obtain ⟨R, n', rfl⟩ : ∃ (R : Fin 8192) (n' : Fin 2048), i = ix2 R n' := ⟨i 0, i 1, eq_ix2 i⟩
  have hn : n' = n := Fin.ext h1
  have hR : R.val = 1024 * q + r.val := h0
  have hN : cfg3.N = 176 := N_3
  rw [hn]
  have e : mlpArr V c (ix2 R n) = ∑ m : Fin 5632, colTerm V c R n m.val := by
    show Spec.mlp (I := 6144) _ (xarr V c) (garr V c) (uarr V c) (darr V c) (ix2 R n) = _
    rw [Spec.mlp_apply]
    exact Finset.sum_congr rfl fun m _ => by unfold colTerm; rw [dif_pos m.isLt]
  rw [e, ← sum_blocks]
  refine Finset.sum_congr rfl fun s hs => ?_
  have hs' : s < 22 := Finset.mem_range.mp hs
  have hlt : 22 * q + s < cfg3.N := by omega
  rw [term_of_lt V c (22 * q + s) hlt, Spec.blockTerm_apply]
  refine Finset.sum_congr rfl fun k _ => ?_
  have hk : 256 * s + k.val < 5632 := by omega
  unfold colTerm
  rw [dif_pos hk,
    hidB_eq V c ⟨22 * q + s, hlt⟩ r k R ⟨256 * s + k.val, hk⟩ (by dsimp only; omega) (by dsimp only; omega),
    dblk_apply V c ⟨22 * q + s, hlt⟩ k n ⟨256 * s + k.val, by omega⟩ (by dsimp only; omega)]

/-- What a point that writes the result's block back writes: the last point of a run of 22, whose running block is
    the sum of the run's 22 block terms, which is the block of the gated MLP of the arrays at token block t / 22. -/
theorem flushed3_eq (c : Dev nD) (t : Fin cfg3.N) (hf : (cfg3.win 4).flush t = true) :
    (dat3 (F := Ideal) V c).flushed 4 t = ((cfg3.win 4).blk t).view.read (Elt Ideal) (mlpArr V c) := by
  have h21 : t.val % 22 = 21 := (flush3_4 t).mp hf
  have hN : cfg3.N = 176 := N_3
  have ht : t.val < cfg3.N := t.isLt
  have hq : 22 * (t.val / 22) + 21 < cfg3.N := by omega
  obtain ⟨-, -, -, -, -, -, -, -, e0, e1⟩ := idx_facts3 t
  show (cfg3.win 4).cut (grid3.coords t) ((dat3 V c).after 4 t) = _
  rw [after3_4, outsAt3_congr V c (show t.val = 22 * (t.val / 22) + 21 by omega) t.isLt hq,
    outsAt3_eq V c (t.val / 22) 21 (by omega) hq]
  funext y
  refine blockSum_eq V c (t.val / 22) hq ((cfg3.win 4).xinj (grid3.coords t) y) (((cfg3.win 4).blk t).view.emb y) ?_ ?_
  · show win3_4.index t (0 : Fin 2) * 1024 + 1 * (y 0).val = 1024 * (t.val / 22) + (y 0).val
    omega
  · show win3_4.index t (1 : Fin 2) * 2048 + 1 * (y 1).val = (y 1).val
    omega

/-- An element of the result array is in point t's block iff each coordinate is in the block's range on its axis. -/
theorem mem_blk3 (t : Fin cfg3.N) (i : S8192x2048.Idx) :
    i ∈ ((cfg3.win 4).blk t).view.set ↔ ∀ a : Fin 2, win3_4.index t a * S1024x2048.size a ≤ (i a).val
      ∧ (i a).val < win3_4.index t a * S1024x2048.size a + S1024x2048.size a := by
  show i ∈ ((View.whole main_v13).slice (win3_4.rect t)).set ↔ _
  rw [View.set_slice_whole, Rect.mem_set_unit]
  exact Iff.rfl

/-- Row r of the result is written back by the last point of token block r / 1024's run. -/
theorem covered3 (i : S8192x2048.Idx) :
    ∃ t : Fin cfg3.N, (cfg3.win 4).flush t = true ∧ i ∈ ((cfg3.win 4).blk t).view.set := by
  have hi0 : (i 0).val < 8192 := idx2_lt0 i
  have hi1 : (i 1).val < 2048 := idx2_lt1 i
  have hN : cfg3.N = 176 := N_3
  obtain ⟨t, ht⟩ : ∃ t : Fin cfg3.N, t.val = 22 * ((i 0).val / 1024) + 21 := ⟨⟨_, by omega⟩, rfl⟩
  obtain ⟨-, -, -, -, -, -, -, -, e0, e1⟩ := idx_facts3 t
  refine ⟨t, (flush3_4 t).mpr (by omega), ?_⟩
  rw [mem_blk3]
  intro a
  match a with
  | ⟨0, _⟩ =>
    show win3_4.index t (0 : Fin 2) * 1024 ≤ (i 0).val ∧ (i 0).val < win3_4.index t (0 : Fin 2) * 1024 + 1024
    omega
  | ⟨1, _⟩ =>
    show win3_4.index t (1 : Fin 2) * 2048 ≤ (i 1).val ∧ (i 1).val < win3_4.index t (1 : Fin 2) * 2048 + 2048
    omega

end MoeArr

open MoeArr in
theorem moeArr (c : Dev nD) :
    (dat3 (F := Ideal) V c).arrAt 4 cfg3.N
      = Spec.mlp (I := 6144) (by decide) (V c (Pipeline.arrRef spec3 0)) (V c (Pipeline.arrRef spec3 1)) (V c (Pipeline.arrRef spec3 2))
          (V c (Pipeline.arrRef spec3 3)) := by
  exact (dat3 (F := Ideal) V c).arrAt_eq_of_cover 4 (mlpArr V c) (flushed3_eq V c) covered3

end Cert.KernelIdeal.KV

end
-- ==== Proof.KernelValue.lean ====
/-
  The idealized kernel program's result as one function of its argument arrays.

  The last region's output array is the gated MLP over the arrays it finds: the tokens (the argument cast to bf16, which
  is the identity on extended reals) and the three dequantized matrices the earlier regions wrote, each the
  dequantization of an argument padded with zeros. Padding adds inner columns (of the gate and up matrices) and inner
  rows (of the down matrix) beyond 5632; the MLP reads none of them, and on the rest a padded array is the argument.
-/
import proofs.«414438_j53953379173325_3_alg».proof.Proof.KernelRun
import proofs.«414438_j53953379173325_3_alg».proof.Proof.HostVals
import proofs.«414438_j53953379173325_3_alg».proof.Proof.DeqArr0
import proofs.«414438_j53953379173325_3_alg».proof.Proof.DeqArr1
import proofs.«414438_j53953379173325_3_alg».proof.Proof.DeqArr2
import proofs.«414438_j53953379173325_3_alg».proof.Proof.MoeArr

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The gate matrix dequantized from the padded arrays agrees with the one dequantized from the arguments on the real
    columns: word row r / 8, group r / 128 and word column k / 8 of a real column k are inside the arguments. -/
theorem wg_cols (c : Dev nD) (r : Fin 2048) (k : Fin 5632) :
    Spec.deq (R8 := 256) (C := 6144) (C8 := 768) (G := 16) (R := 2048) rfl rfl rfl
        (V18 m ρ c (Pipeline.arrRef spec0 0)) (V18 m ρ c (Pipeline.arrRef spec0 1)) (V18 m ρ c (Pipeline.arrRef spec0 2)) (ix2 r ⟨k.val, by omega⟩)
      = Spec.deq (R8 := 256) (C := 5632) (C8 := 704) (G := 16) (R := 2048) rfl rfl rfl
        (m ((c : Thread nD τ).loc main_arg1)) (m ((c : Thread nD τ).loc main_arg2)) (m ((c : Thread nD τ).loc main_arg3)) (ix2 r ⟨k.val, by omega⟩) := by
  rw [Spec.deq_apply, Spec.deq_apply]
  have h1 := V18_qw m ρ c ⟨r.val / 8, by omega⟩ k
  have h2 := V18_qz m ρ c ⟨r.val / 128, by omega⟩ ⟨k.val / 8, by omega⟩
  have h3 := V18_sc m ρ c ⟨r.val / 128, by omega⟩ k
  rw [h1, h2, h3]

/-- The same of the up matrix. -/
theorem wu_cols (c : Dev nD) (r : Fin 2048) (k : Fin 5632) :
    Spec.deq (R8 := 256) (C := 6144) (C8 := 768) (G := 16) (R := 2048) rfl rfl rfl
        (V19 m ρ c (Pipeline.arrRef spec1 0)) (V19 m ρ c (Pipeline.arrRef spec1 1)) (V19 m ρ c (Pipeline.arrRef spec1 2)) (ix2 r ⟨k.val, by omega⟩)
      = Spec.deq (R8 := 256) (C := 5632) (C8 := 704) (G := 16) (R := 2048) rfl rfl rfl
        (m ((c : Thread nD τ).loc main_arg4)) (m ((c : Thread nD τ).loc main_arg5)) (m ((c : Thread nD τ).loc main_arg6)) (ix2 r ⟨k.val, by omega⟩) := by
  rw [Spec.deq_apply, Spec.deq_apply]
  have h1 := V19_qw m ρ c ⟨r.val / 8, by omega⟩ k
  have h2 := V19_qz m ρ c ⟨r.val / 128, by omega⟩ ⟨k.val / 8, by omega⟩
  have h3 := V19_sc m ρ c ⟨r.val / 128, by omega⟩ k
  rw [h1, h2, h3]

/-- The down matrix is padded along its rows: on the real rows k < 5632 the word row k / 8 and the group k / 128 are
    inside the arguments. -/
theorem wd_rows (c : Dev nD) (k : Fin 5632) (n : Fin 2048) :
    Spec.deq (R8 := 768) (C := 2048) (C8 := 256) (G := 48) (R := 6144) rfl rfl rfl
        (V20 m ρ c (Pipeline.arrRef spec2 0)) (V20 m ρ c (Pipeline.arrRef spec2 1)) (V20 m ρ c (Pipeline.arrRef spec2 2)) (ix2 ⟨k.val, by omega⟩ n)
      = Spec.deq (R8 := 704) (C := 2048) (C8 := 256) (G := 44) (R := 5632) rfl rfl rfl
        (m ((c : Thread nD τ).loc main_arg7)) (m ((c : Thread nD τ).loc main_arg8)) (m ((c : Thread nD τ).loc main_arg9)) (ix2 ⟨k.val, by omega⟩ n) := by
  rw [Spec.deq_apply, Spec.deq_apply]
  have h1 := V20_qw m ρ c ⟨k.val / 8, by omega⟩ n
  have h2 := V20_qz m ρ c ⟨k.val / 128, by omega⟩ ⟨n.val / 8, by omega⟩
  have h3 := V20_sc m ρ c ⟨k.val / 128, by omega⟩ n
  rw [h1, h2, h3]

/-- The result buffer after the run is the specification's function of the argument arrays. -/
theorem kernel_value (c : Dev nD) :
    W23 m ρ c (Proc.devRef .tc main_v13)
      = Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  rw [W23_out, moeArr, V22_x, V22_wg, V22_wu, V22_wd, deqArr0, deqArr1, deqArr2]
  unfold Spec.out
  refine Spec.mlp_congr _ _ _ _ _ _ _ _ _ ?_ ?_ ?_
  · intro r k; exact wg_cols m ρ c r k
  · intro r k; exact wu_cols m ρ c r k
  · intro k n; exact wd_rows m ρ c k n

end Cert.KernelIdeal.KV

end
-- ==== Proof.RefTerms.lean ====
/-
  The reference program's pure terms, stage by stage: each definition is one mathematical object the program
  computes, written with the program's own operations in the program's own order, so that the program's run
  reads back to these by unfolding alone.

  A weight matrix is stored as four-bit fields of 32-bit words. A field is read by shifting the word right by
  0, 4, …, 28 and masking with 15; eight consecutive rows of the integer matrix share a word, eight consecutive
  columns of the zero points share a word, and every 128 rows share one row of zero points and of scales, found
  by a floor division of the row number by 128 (with the index wrap of a negative row number, never taken).
  One weight is (q − (z + 1)) as a signed integer, converted, times its scale. The tail is the gated product
  (silu (x·Wg) ⊙ (x·Wu))·Wd with silu g = g · (1 / (1 + exp (−g))).
-/
import proofs.«414438_j53953379173325_3_alg».proof.Proof.Gen.ReferenceIdeal

noncomputable section

namespace Cert.ReferenceIdeal.RV

open Cert.ReferenceIdeal Cert.ReferenceIdeal.Gen Idealize.ShloMosaic

variable {F : FTy → Type} [FloatOps F]

/-! ## Shared pieces -/

/-- The shift amounts 0, 4, …, 28: the numbers 0 … 7 times four. -/
def shiftTab : IVec S8 32 :=
  muli (iotaInDim S8 32 0) (broadcastInDim (s := S_) S8 ![] bcast_S_S8 (constantI S_ 32 4#32))

/-- Floor division of every entry of `x` by the scalar `d`: the quotient rounded toward zero, less one where
    the signs of `x` and `d` differ and the remainder is not zero. -/
def floorDiv (s : Shape) (hb : S_.BroadcastsInDim s (![] : Fin 0 → Fin s.rank)) (x : IVec s 32) (d : IVec S_ 32) :
    IVec s 32 :=
  select
    (andi (cmpi .ne (signi x) (broadcastInDim (s := S_) s ![] hb (signi d)))
      (cmpi .ne (Host.remsi x (broadcastInDim (s := S_) s ![] hb d))
        (broadcastInDim (s := S_) s ![] hb (constantI S_ 32 0#32))))
    (subi (Host.divsi x (broadcastInDim (s := S_) s ![] hb d))
      (broadcastInDim (s := S_) s ![] hb (constantI S_ 32 1#32)))
    (Host.divsi x (broadcastInDim (s := S_) s ![] hb d))

/-- An index vector with its negative entries moved up by `n` (the wrap of a negative index into a table of
    `n` rows). -/
def wrapIdx (s : Shape) (hb : S_.BroadcastsInDim s (![] : Fin 0 → Fin s.rank)) (n : BitVec 32) (g : IVec s 32) :
    IVec s 32 :=
  select (cmpi .slt g (broadcastInDim (s := S_) s ![] hb (constantI S_ 32 0#32)))
    (addi g (broadcastInDim (s := S_) s ![] hb (constantI S_ 32 n))) g

/-! ## The gate and up matrices: 2048 rows, 5632 columns -/

/-- The integer matrix: row r, column c is field r % 8 of word (r / 8, c). -/
def qA (qw : IVec S256x5632 32) : IVec S2048x5632 32 :=
  shapeCast S2048x5632
    (andi
      (Host.shrsi
        (broadcastInDim S256x8x5632 ![0, 1, 2] bcast_S256x1x5632_S256x8x5632_0_1_2
          (broadcastInDim S256x1x5632 ![0, 2] bcast_S256x5632_S256x1x5632_0_2 qw))
        (broadcastInDim S256x8x5632 ![0, 1, 2] bcast_S1x8x1_S256x8x5632_0_1_2
          (broadcastInDim S1x8x1 ![1] bcast_S8_S1x8x1_1 shiftTab)))
      (broadcastInDim (s := S_) S256x8x5632 ![] bcast_S_S256x8x5632 (constantI S_ 32 15#32)))
    shapeCasts_S256x8x5632_S2048x5632

/-- The zero points, one row per group of 128 rows: group g, column c is field c % 8 of word (g, c / 8). -/
def zA (qz : IVec S16x704 32) : IVec S16x5632 32 :=
  shapeCast S16x5632
    (andi
      (Host.shrsi
        (broadcastInDim S16x704x8 ![0, 1, 2] bcast_S16x704x1_S16x704x8_0_1_2
          (broadcastInDim S16x704x1 ![0, 1] bcast_S16x704_S16x704x1_0_1 qz))
        (broadcastInDim S16x704x8 ![0, 1, 2] bcast_S1x1x8_S16x704x8_0_1_2
          (broadcastInDim S1x1x8 ![2] bcast_S8_S1x1x8_2 shiftTab)))
      (broadcastInDim (s := S_) S16x704x8 ![] bcast_S_S16x704x8 (constantI S_ 32 15#32)))
    shapeCasts_S16x704x8_S16x5632

/-- The group of each row: the row number floor-divided by 128. -/
def fdivA : IVec S2048 32 :=
  floorDiv S2048 bcast_S_S2048 (iotaInDim S2048 32 0) (constantI S_ 32 128#32)

/-- The group of each row as a gather index: negative groups wrapped by 16, then one index per row. -/
def gidxA : IVec S2048x1 32 :=
  broadcastInDim S2048x1 ![0] bcast_S2048_S2048x1_0 (wrapIdx S2048 bcast_S_S2048 16#32 fdivA)

/-- Each row's zero points: row r of the result is row (group of r) of the zero-point table. -/
def zRowsA (qz : IVec S16x704 32) : IVec S2048x5632 32 :=
  Host.gather gather_S16x5632_S2048x1_S2048x5632_1_0_n_n_0_1_15632 (zA qz) gidxA

/-- Each row's scales: row r of the result is row (group of r) of the scale table. -/
def scRowsA (sc : FVec F S16x5632 .f32) : FVec F S2048x5632 .f32 :=
  Host.gather gather_S16x5632_S2048x1_S2048x5632_1_0_n_n_0_1_15632 sc gidxA

/-- The integer part of a weight: q − (z + 1), on 32-bit words. -/
def diffA (qw : IVec S256x5632 32) (qz : IVec S16x704 32) : IVec S2048x5632 32 :=
  subi (qA qw)
    (addi (zRowsA qz) (broadcastInDim (s := S_) S2048x5632 ![] bcast_S_S2048x5632 (constantI S_ 32 1#32)))

/-- The dequantized gate (or up) matrix: (q − (z + 1)) read as a signed integer, times the scale. -/
def refDeqA (qw : IVec S256x5632 32) (qz : IVec S16x704 32) (sc : FVec F S16x5632 .f32) : FVec F S2048x5632 .f32 :=
  mulf (sitofp .f32 (diffA qw qz)) (scRowsA sc)

/-! ## The down matrix: 5632 rows, 2048 columns -/

/-- The integer matrix: row r, column c is field r % 8 of word (r / 8, c). -/
def qB (qw : IVec S704x2048 32) : IVec S5632x2048 32 :=
  shapeCast S5632x2048
    (andi
      (Host.shrsi
        (broadcastInDim S704x8x2048 ![0, 1, 2] bcast_S704x1x2048_S704x8x2048_0_1_2
          (broadcastInDim S704x1x2048 ![0, 2] bcast_S704x2048_S704x1x2048_0_2 qw))
        (broadcastInDim S704x8x2048 ![0, 1, 2] bcast_S1x8x1_S704x8x2048_0_1_2
          (broadcastInDim S1x8x1 ![1] bcast_S8_S1x8x1_1 shiftTab)))
      (broadcastInDim (s := S_) S704x8x2048 ![] bcast_S_S704x8x2048 (constantI S_ 32 15#32)))
    shapeCasts_S704x8x2048_S5632x2048

/-- The zero points, one row per group of 128 rows: group g, column c is field c % 8 of word (g, c / 8). -/
def zB (qz : IVec S44x256 32) : IVec S44x2048 32 :=
  shapeCast S44x2048
    (andi
      (Host.shrsi
        (broadcastInDim S44x256x8 ![0, 1, 2] bcast_S44x256x1_S44x256x8_0_1_2
          (broadcastInDim S44x256x1 ![0, 1] bcast_S44x256_S44x256x1_0_1 qz))
        (broadcastInDim S44x256x8 ![0, 1, 2] bcast_S1x1x8_S44x256x8_0_1_2
          (broadcastInDim S1x1x8 ![2] bcast_S8_S1x1x8_2 shiftTab)))
      (broadcastInDim (s := S_) S44x256x8 ![] bcast_S_S44x256x8 (constantI S_ 32 15#32)))
    shapeCasts_S44x256x8_S44x2048

/-- The group of each row: the row number floor-divided by 128. -/
def fdivB : IVec S5632 32 :=
  floorDiv S5632 bcast_S_S5632 (iotaInDim S5632 32 0) (constantI S_ 32 128#32)

/-- The group of each row as a gather index: negative groups wrapped by 44, then one index per row. -/
def gidxB : IVec S5632x1 32 :=
  broadcastInDim S5632x1 ![0] bcast_S5632_S5632x1_0 (wrapIdx S5632 bcast_S_S5632 44#32 fdivB)

/-- Each row's zero points: row r of the result is row (group of r) of the zero-point table. -/
def zRowsB (qz : IVec S44x256 32) : IVec S5632x2048 32 :=
  Host.gather gather_S44x2048_S5632x1_S5632x2048_1_0_n_n_0_1_12048 (zB qz) gidxB

/-- Each row's scales: row r of the result is row (group of r) of the scale table. -/
def scRowsB (sc : FVec F S44x2048 .f32) : FVec F S5632x2048 .f32 :=
  Host.gather gather_S44x2048_S5632x1_S5632x2048_1_0_n_n_0_1_12048 sc gidxB

/-- The integer part of a weight: q − (z + 1), on 32-bit words. -/
def diffB (qw : IVec S704x2048 32) (qz : IVec S44x256 32) : IVec S5632x2048 32 :=
  subi (qB qw)
    (addi (zRowsB qz) (broadcastInDim (s := S_) S5632x2048 ![] bcast_S_S5632x2048 (constantI S_ 32 1#32)))

/-- The dequantized down matrix: (q − (z + 1)) read as a signed integer, times the scale. -/
def refDeqB (qw : IVec S704x2048 32) (qz : IVec S44x256 32) (sc : FVec F S44x2048 .f32) : FVec F S5632x2048 .f32 :=
  mulf (sitofp .f32 (diffB qw qz)) (scRowsB sc)

/-! ## The gated product -/

/-- The all-ones matrix of the hidden shape. -/
def onesH : FVec F S8192x5632 .f32 :=
  broadcastInDim (s := S_) S8192x5632 ![] bcast_S_S8192x5632 (constant (F := F) S_ .f32 0x3F800000#32)

/-- silu g = g · (1 / (1 + exp (−g))), entry by entry. -/
def silu (g : FVec F S8192x5632 .f32) : FVec F S8192x5632 .f32 :=
  mulf g (Host.divf onesH (addf onesH (Host.exp (Host.negf g))))

/-- x · W for a matrix W of 2048 rows and 5632 columns. -/
def projH (x : FVec F S8192x2048 .f32) (w : FVec F S2048x5632 .f32) : FVec F S8192x5632 .f32 :=
  Host.dotGeneral dot_S8192x2048_S2048x5632_S8192x5632_1_0_0_1_n_n none x w

/-- The hidden activation silu (x·Wg) ⊙ (x·Wu). -/
def hidden (x : FVec F S8192x2048 .f32) (wg wu : FVec F S2048x5632 .f32) : FVec F S8192x5632 .f32 :=
  mulf (silu (projH x wg)) (projH x wu)

/-- The result (silu (x·Wg) ⊙ (x·Wu)) · Wd. -/
def refTail (x : FVec F S8192x2048 .f32) (wg wu : FVec F S2048x5632 .f32) (wd : FVec F S5632x2048 .f32) :
    FVec F S8192x2048 .f32 :=
  Host.dotGeneral dot_S8192x5632_S5632x2048_S8192x2048_1_0_0_1_n_n none (hidden x wg wu) wd

end Cert.ReferenceIdeal.RV

end
-- ==== Proof.RefRun.lean ====
/-
  The reference program's run. The program is a straight line of tensor operations; its outlined functions (the
  floor division with its select, the silu) are read at their call sites, each value in the buffer the call
  names for it. The line is cut where a stage ends — the gate matrix, the up matrix, the down matrix, the gated
  product — and where one of the program's three parts ends; each stage's result is read back to its stage
  term by unfolding, every piece leaves the arguments and the earlier stages' results alone, and the machine's
  run of a straight line ends with every buffer at the line's fold over the launch contents.
-/
import proofs.«414438_j53953379173325_3_alg».proof.Proof.RefTerms
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem
  Idealize.ShloMosaic.StableHlo

variable {F : FTy → Type} [FloatOps F]

/-! ## The operations, piece by piece -/

/-- The gate matrix: the shift table, the unpacked fields, the row groups by floor division (the function's seventeen operations at its call), the two row gathers, the product. -/
abbrev opsG : List (HloOp τ sig (Elt F)) :=
  [ nullary main_v0 (iotaInDim S8 32 0),
    nullary main_c (constantI S_ 32 4#32),
    unary main_c main_v1 (broadcastInDim S8 ![] bcast_S_S8 : (⟨S_, .i32⟩ : BufTy).Contents (Elt F) → (⟨S8, .i32⟩ : BufTy).Contents (Elt F)),
    binary main_v0 main_v1 main_v2 (muli : (⟨S8, .i32⟩ : BufTy).Contents (Elt F) → (⟨S8, .i32⟩ : BufTy).Contents (Elt F) → (⟨S8, .i32⟩ : BufTy).Contents (Elt F)),
    unary main_arg1 main_v3 (broadcastInDim S256x1x5632 ![0, 2] bcast_S256x5632_S256x1x5632_0_2 : (⟨S256x5632, .i32⟩ : BufTy).Contents (Elt F) → (⟨S256x1x5632, .i32⟩ : BufTy).Contents (Elt F)),
    unary main_v2 main_v4 (broadcastInDim S1x8x1 ![1] bcast_S8_S1x8x1_1 : (⟨S8, .i32⟩ : BufTy).Contents (Elt F) → (⟨S1x8x1, .i32⟩ : BufTy).Contents (Elt F)),
    unary main_v3 main_v5 (broadcastInDim S256x8x5632 ![0, 1, 2] bcast_S256x1x5632_S256x8x5632_0_1_2 : (⟨S256x1x5632, .i32⟩ : BufTy).Contents (Elt F) → (⟨S256x8x5632, .i32⟩ : BufTy).Contents (Elt F)),
    unary main_v4 main_v6 (broadcastInDim S256x8x5632 ![0, 1, 2] bcast_S1x8x1_S256x8x5632_0_1_2 : (⟨S1x8x1, .i32⟩ : BufTy).Contents (Elt F) → (⟨S256x8x5632, .i32⟩ : BufTy).Contents (Elt F)),
    binary main_v5 main_v6 main_v7 (Host.shrsi : (⟨S256x8x5632, .i32⟩ : BufTy).Contents (Elt F) → (⟨S256x8x5632, .i32⟩ : BufTy).Contents (Elt F) → (⟨S256x8x5632, .i32⟩ : BufTy).Contents (Elt F)),
    nullary main_c_0 (constantI S_ 32 15#32),
    unary main_c_0 main_v8 (broadcastInDim S256x8x5632 ![] bcast_S_S256x8x5632 : (⟨S_, .i32⟩ : BufTy).Contents (Elt F) → (⟨S256x8x5632, .i32⟩ : BufTy).Contents (Elt F)),
    binary main_v7 main_v8 main_v9 (andi : (⟨S256x8x5632, .i32⟩ : BufTy).Contents (Elt F) → (⟨S256x8x5632, .i32⟩ : BufTy).Contents (Elt F) → (⟨S256x8x5632, .i32⟩ : BufTy).Contents (Elt F)),
    reshape main_v9 main_v10 rfl shapeCasts_S256x8x5632_S2048x5632,
    unary main_arg2 main_v11 (broadcastInDim S16x704x1 ![0, 1] bcast_S16x704_S16x704x1_0_1 : (⟨S16x704, .i32⟩ : BufTy).Contents (Elt F) → (⟨S16x704x1, .i32⟩ : BufTy).Contents (Elt F)),
    unary main_v2 main_v12 (broadcastInDim S1x1x8 ![2] bcast_S8_S1x1x8_2 : (⟨S8, .i32⟩ : BufTy).Contents (Elt F) → (⟨S1x1x8, .i32⟩ : BufTy).Contents (Elt F)),
    unary main_v11 main_v13 (broadcastInDim S16x704x8 ![0, 1, 2] bcast_S16x704x1_S16x704x8_0_1_2 : (⟨S16x704x1, .i32⟩ : BufTy).Contents (Elt F) → (⟨S16x704x8, .i32⟩ : BufTy).Contents (Elt F)),
    unary main_v12 main_v14 (broadcastInDim S16x704x8 ![0, 1, 2] bcast_S1x1x8_S16x704x8_0_1_2 : (⟨S1x1x8, .i32⟩ : BufTy).Contents (Elt F) → (⟨S16x704x8, .i32⟩ : BufTy).Contents (Elt F)),
    binary main_v13 main_v14 main_v15 (Host.shrsi : (⟨S16x704x8, .i32⟩ : BufTy).Contents (Elt F) → (⟨S16x704x8, .i32⟩ : BufTy).Contents (Elt F) → (⟨S16x704x8, .i32⟩ : BufTy).Contents (Elt F)),
    nullary main_c_1 (constantI S_ 32 15#32),
    unary main_c_1 main_v16 (broadcastInDim S16x704x8 ![] bcast_S_S16x704x8 : (⟨S_, .i32⟩ : BufTy).Contents (Elt F) → (⟨S16x704x8, .i32⟩ : BufTy).Contents (Elt F)),
    binary main_v15 main_v16 main_v17 (andi : (⟨S16x704x8, .i32⟩ : BufTy).Contents (Elt F) → (⟨S16x704x8, .i32⟩ : BufTy).Contents (Elt F) → (⟨S16x704x8, .i32⟩ : BufTy).Contents (Elt F)),
    reshape main_v17 main_v18 rfl shapeCasts_S16x704x8_S16x5632,
    nullary main_v19 (iotaInDim S2048 32 0),
    nullary main_c_2 (constantI S_ 32 128#32),
    TRef.unary (.of main_c_2 : TRef sig ⟨S_, .i32⟩) main_call0.v0 id,
    TRef.unary main_call0.v0 main_call0.v1 (broadcastInDim S2048 ![] bcast_S_S2048),
    TRef.binary (.of main_v19 : TRef sig ⟨S2048, .i32⟩) main_call0.v1 main_call0.v2 Host.divsi,
    TRef.unary (.of main_v19 : TRef sig ⟨S2048, .i32⟩) main_call0.v3 signi,
    TRef.unary main_call0.v0 main_call0.v4 signi,
    TRef.unary main_call0.v4 main_call0.v5 (broadcastInDim S2048 ![] bcast_S_S2048),
    TRef.binary main_call0.v3 main_call0.v5 main_call0.v6 (cmpi .ne),
    TRef.unary main_call0.v0 main_call0.v7 (broadcastInDim S2048 ![] bcast_S_S2048),
    TRef.binary (.of main_v19 : TRef sig ⟨S2048, .i32⟩) main_call0.v7 main_call0.v8 Host.remsi,
    TRef.nullary main_call0.c (constantI S_ 32 0#32),
    TRef.unary main_call0.c main_call0.v9 (broadcastInDim S2048 ![] bcast_S_S2048),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S2048 ![] bcast_S_S2048),
    TRef.binary main_call0.v2 main_call0.v12 main_call0.v13 subi,
    TRef.ternary main_call0.v11 main_call0.v13 main_call0.v2 main_call0.call0.v0 select,
    nullary main_c_3 (constantI S_ 32 0#32),
    unary main_c_3 main_v21 (broadcastInDim S2048 ![] bcast_S_S2048 : (⟨S_, .i32⟩ : BufTy).Contents (Elt F) → (⟨S2048, .i32⟩ : BufTy).Contents (Elt F)),
    binary main_v20 main_v21 main_v22 (cmpi .slt : (⟨S2048, .i32⟩ : BufTy).Contents (Elt F) → (⟨S2048, .i32⟩ : BufTy).Contents (Elt F) → (⟨S2048, .i1⟩ : BufTy).Contents (Elt F)),
    nullary main_c_4 (constantI S_ 32 16#32),
    unary main_c_4 main_v23 (broadcastInDim S2048 ![] bcast_S_S2048 : (⟨S_, .i32⟩ : BufTy).Contents (Elt F) → (⟨S2048, .i32⟩ : BufTy).Contents (Elt F)),
    binary main_v20 main_v23 main_v24 (addi : (⟨S2048, .i32⟩ : BufTy).Contents (Elt F) → (⟨S2048, .i32⟩ : BufTy).Contents (Elt F) → (⟨S2048, .i32⟩ : BufTy).Contents (Elt F)),
    ternary main_v22 main_v24 main_v20 main_v25 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v25 main_v26 (broadcastInDim S2048x1 ![0] bcast_S2048_S2048x1_0 : (⟨S2048, .i32⟩ : BufTy).Contents (Elt F) → (⟨S2048x1, .i32⟩ : BufTy).Contents (Elt F)),
    binary main_v18 main_v26 main_v27 ((fun x i => Host.gather gather_S16x5632_S2048x1_S2048x5632_1_0_n_n_0_1_15632 x i) : (⟨S16x5632, .i32⟩ : BufTy).Contents (Elt F) → (⟨S2048x1, .i32⟩ : BufTy).Contents (Elt F) → (⟨S2048x5632, .i32⟩ : BufTy).Contents (Elt F)),
    nullary main_c_5 (constantI S_ 32 1#32),
    unary main_c_5 main_v28 (broadcastInDim S2048x5632 ![] bcast_S_S2048x5632 : (⟨S_, .i32⟩ : BufTy).Contents (Elt F) → (⟨S2048x5632, .i32⟩ : BufTy).Contents (Elt F)),
    binary main_v27 main_v28 main_v29 (addi : (⟨S2048x5632, .i32⟩ : BufTy).Contents (Elt F) → (⟨S2048x5632, .i32⟩ : BufTy).Contents (Elt F) → (⟨S2048x5632, .i32⟩ : BufTy).Contents (Elt F)),
    binary main_v10 main_v29 main_v30 (subi : (⟨S2048x5632, .i32⟩ : BufTy).Contents (Elt F) → (⟨S2048x5632, .i32⟩ : BufTy).Contents (Elt F) → (⟨S2048x5632, .i32⟩ : BufTy).Contents (Elt F)),
    unary main_v30 main_v31 (sitofp .f32 : (⟨S2048x5632, .i32⟩ : BufTy).Contents (Elt F) → (⟨S2048x5632, .f32⟩ : BufTy).Contents (Elt F)),
    nullary main_c_6 (constantI S_ 32 0#32),
    unary main_c_6 main_v32 (broadcastInDim S2048 ![] bcast_S_S2048 : (⟨S_, .i32⟩ : BufTy).Contents (Elt F) → (⟨S2048, .i32⟩ : BufTy).Contents (Elt F)),
    binary main_v20 main_v32 main_v33 (cmpi .slt : (⟨S2048, .i32⟩ : BufTy).Contents (Elt F) → (⟨S2048, .i32⟩ : BufTy).Contents (Elt F) → (⟨S2048, .i1⟩ : BufTy).Contents (Elt F)),
    nullary main_c_7 (constantI S_ 32 16#32),
    unary main_c_7 main_v34 (broadcastInDim S2048 ![] bcast_S_S2048 : (⟨S_, .i32⟩ : BufTy).Contents (Elt F) → (⟨S2048, .i32⟩ : BufTy).Contents (Elt F)),
    binary main_v20 main_v34 main_v35 (addi : (⟨S2048, .i32⟩ : BufTy).Contents (Elt F) → (⟨S2048, .i32⟩ : BufTy).Contents (Elt F) → (⟨S2048, .i32⟩ : BufTy).Contents (Elt F)),
    ternary main_v33 main_v35 main_v20 main_v36 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v36 main_v37 (broadcastInDim S2048x1 ![0] bcast_S2048_S2048x1_0 : (⟨S2048, .i32⟩ : BufTy).Contents (Elt F) → (⟨S2048x1, .i32⟩ : BufTy).Contents (Elt F)),
    binary main_arg3 main_v37 main_v38 ((fun x i => Host.gather gather_S16x5632_S2048x1_S2048x5632_1_0_n_n_0_1_15632 x i) : (⟨S16x5632, .f32⟩ : BufTy).Contents (Elt F) → (⟨S2048x1, .i32⟩ : BufTy).Contents (Elt F) → (⟨S2048x5632, .f32⟩ : BufTy).Contents (Elt F)),
    binary main_v31 main_v38 main_v39 (mulf : (⟨S2048x5632, .f32⟩ : BufTy).Contents (Elt F) → (⟨S2048x5632, .f32⟩ : BufTy).Contents (Elt F) → (⟨S2048x5632, .f32⟩ : BufTy).Contents (Elt F)) ]

/-- The up matrix, first part: the shift table and the shifted words, up to the mask's broadcast. -/
abbrev opsU0 : List (HloOp τ sig (Elt F)) :=
  [ nullary main_v40 (iotaInDim S8 32 0),
    nullary main_c_8 (constantI S_ 32 4#32),
    unary main_c_8 main_v41 (broadcastInDim S8 ![] bcast_S_S8 : (⟨S_, .i32⟩ : BufTy).Contents (Elt F) → (⟨S8, .i32⟩ : BufTy).Contents (Elt F)),
    binary main_v40 main_v41 main_v42 (muli : (⟨S8, .i32⟩ : BufTy).Contents (Elt F) → (⟨S8, .i32⟩ : BufTy).Contents (Elt F) → (⟨S8, .i32⟩ : BufTy).Contents (Elt F)),
    unary main_arg4 main_v43 (broadcastInDim S256x1x5632 ![0, 2] bcast_S256x5632_S256x1x5632_0_2 : (⟨S256x5632, .i32⟩ : BufTy).Contents (Elt F) → (⟨S256x1x5632, .i32⟩ : BufTy).Contents (Elt F)),
    unary main_v42 main_v44 (broadcastInDim S1x8x1 ![1] bcast_S8_S1x8x1_1 : (⟨S8, .i32⟩ : BufTy).Contents (Elt F) → (⟨S1x8x1, .i32⟩ : BufTy).Contents (Elt F)),
    unary main_v43 main_v45 (broadcastInDim S256x8x5632 ![0, 1, 2] bcast_S256x1x5632_S256x8x5632_0_1_2 : (⟨S256x1x5632, .i32⟩ : BufTy).Contents (Elt F) → (⟨S256x8x5632, .i32⟩ : BufTy).Contents (Elt F)),
    unary main_v44 main_v46 (broadcastInDim S256x8x5632 ![0, 1, 2] bcast_S1x8x1_S256x8x5632_0_1_2 : (⟨S1x8x1, .i32⟩ : BufTy).Contents (Elt F) → (⟨S256x8x5632, .i32⟩ : BufTy).Contents (Elt F)),
    binary main_v45 main_v46 main_v47 (Host.shrsi : (⟨S256x8x5632, .i32⟩ : BufTy).Contents (Elt F) → (⟨S256x8x5632, .i32⟩ : BufTy).Contents (Elt F) → (⟨S256x8x5632, .i32⟩ : BufTy).Contents (Elt F)),
    nullary main_c_9 (constantI S_ 32 15#32),
    unary main_c_9 main_v48 (broadcastInDim S256x8x5632 ![] bcast_S_S256x8x5632 : (⟨S_, .i32⟩ : BufTy).Contents (Elt F) → (⟨S256x8x5632, .i32⟩ : BufTy).Contents (Elt F)) ]

/-- The up matrix, second part: the mask and reshape, the zero points, the row groups by floor division, the gathers, the product. -/
abbrev opsU1 : List (HloOp τ sig (Elt F)) :=
  [ binary main_v47 main_v48 main_v49 (andi : (⟨S256x8x5632, .i32⟩ : BufTy).Contents (Elt F) → (⟨S256x8x5632, .i32⟩ : BufTy).Contents (Elt F) → (⟨S256x8x5632, .i32⟩ : BufTy).Contents (Elt F)),
    reshape main_v49 main_v50 rfl shapeCasts_S256x8x5632_S2048x5632,
    unary main_arg5 main_v51 (broadcastInDim S16x704x1 ![0, 1] bcast_S16x704_S16x704x1_0_1 : (⟨S16x704, .i32⟩ : BufTy).Contents (Elt F) → (⟨S16x704x1, .i32⟩ : BufTy).Contents (Elt F)),
    unary main_v42 main_v52 (broadcastInDim S1x1x8 ![2] bcast_S8_S1x1x8_2 : (⟨S8, .i32⟩ : BufTy).Contents (Elt F) → (⟨S1x1x8, .i32⟩ : BufTy).Contents (Elt F)),
    unary main_v51 main_v53 (broadcastInDim S16x704x8 ![0, 1, 2] bcast_S16x704x1_S16x704x8_0_1_2 : (⟨S16x704x1, .i32⟩ : BufTy).Contents (Elt F) → (⟨S16x704x8, .i32⟩ : BufTy).Contents (Elt F)),
    unary main_v52 main_v54 (broadcastInDim S16x704x8 ![0, 1, 2] bcast_S1x1x8_S16x704x8_0_1_2 : (⟨S1x1x8, .i32⟩ : BufTy).Contents (Elt F) → (⟨S16x704x8, .i32⟩ : BufTy).Contents (Elt F)),
    binary main_v53 main_v54 main_v55 (Host.shrsi : (⟨S16x704x8, .i32⟩ : BufTy).Contents (Elt F) → (⟨S16x704x8, .i32⟩ : BufTy).Contents (Elt F) → (⟨S16x704x8, .i32⟩ : BufTy).Contents (Elt F)),
    nullary main_c_10 (constantI S_ 32 15#32),
    unary main_c_10 main_v56 (broadcastInDim S16x704x8 ![] bcast_S_S16x704x8 : (⟨S_, .i32⟩ : BufTy).Contents (Elt F) → (⟨S16x704x8, .i32⟩ : BufTy).Contents (Elt F)),
    binary main_v55 main_v56 main_v57 (andi : (⟨S16x704x8, .i32⟩ : BufTy).Contents (Elt F) → (⟨S16x704x8, .i32⟩ : BufTy).Contents (Elt F) → (⟨S16x704x8, .i32⟩ : BufTy).Contents (Elt F)),
    reshape main_v57 main_v58 rfl shapeCasts_S16x704x8_S16x5632,
    nullary main_v59 (iotaInDim S2048 32 0),
    nullary main_c_11 (constantI S_ 32 128#32),
    TRef.unary (.of main_c_11 : TRef sig ⟨S_, .i32⟩) main_call1.v0 id,
    TRef.unary main_call1.v0 main_call1.v1 (broadcastInDim S2048 ![] bcast_S_S2048),
    TRef.binary (.of main_v59 : TRef sig ⟨S2048, .i32⟩) main_call1.v1 main_call1.v2 Host.divsi,
    TRef.unary (.of main_v59 : TRef sig ⟨S2048, .i32⟩) main_call1.v3 signi,
    TRef.unary main_call1.v0 main_call1.v4 signi,
    TRef.unary main_call1.v4 main_call1.v5 (broadcastInDim S2048 ![] bcast_S_S2048),
    TRef.binary main_call1.v3 main_call1.v5 main_call1.v6 (cmpi .ne),
    TRef.unary main_call1.v0 main_call1.v7 (broadcastInDim S2048 ![] bcast_S_S2048),
    TRef.binary (.of main_v59 : TRef sig ⟨S2048, .i32⟩) main_call1.v7 main_call1.v8 Host.remsi,
    TRef.nullary main_call1.c (constantI S_ 32 0#32),
    TRef.unary main_call1.c main_call1.v9 (broadcastInDim S2048 ![] bcast_S_S2048),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S2048 ![] bcast_S_S2048),
    TRef.binary main_call1.v2 main_call1.v12 main_call1.v13 subi,
    TRef.ternary main_call1.v11 main_call1.v13 main_call1.v2 main_call1.call0.v0 select,
    nullary main_c_12 (constantI S_ 32 0#32),
    unary main_c_12 main_v61 (broadcastInDim S2048 ![] bcast_S_S2048 : (⟨S_, .i32⟩ : BufTy).Contents (Elt F) → (⟨S2048, .i32⟩ : BufTy).Contents (Elt F)),
    binary main_v60 main_v61 main_v62 (cmpi .slt : (⟨S2048, .i32⟩ : BufTy).Contents (Elt F) → (⟨S2048, .i32⟩ : BufTy).Contents (Elt F) → (⟨S2048, .i1⟩ : BufTy).Contents (Elt F)),
    nullary main_c_13 (constantI S_ 32 16#32),
    unary main_c_13 main_v63 (broadcastInDim S2048 ![] bcast_S_S2048 : (⟨S_, .i32⟩ : BufTy).Contents (Elt F) → (⟨S2048, .i32⟩ : BufTy).Contents (Elt F)),
    binary main_v60 main_v63 main_v64 (addi : (⟨S2048, .i32⟩ : BufTy).Contents (Elt F) → (⟨S2048, .i32⟩ : BufTy).Contents (Elt F) → (⟨S2048, .i32⟩ : BufTy).Contents (Elt F)),
    ternary main_v62 main_v64 main_v60 main_v65 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v65 main_v66 (broadcastInDim S2048x1 ![0] bcast_S2048_S2048x1_0 : (⟨S2048, .i32⟩ : BufTy).Contents (Elt F) → (⟨S2048x1, .i32⟩ : BufTy).Contents (Elt F)),
    binary main_v58 main_v66 main_v67 ((fun x i => Host.gather gather_S16x5632_S2048x1_S2048x5632_1_0_n_n_0_1_15632 x i) : (⟨S16x5632, .i32⟩ : BufTy).Contents (Elt F) → (⟨S2048x1, .i32⟩ : BufTy).Contents (Elt F) → (⟨S2048x5632, .i32⟩ : BufTy).Contents (Elt F)),
    nullary main_c_14 (constantI S_ 32 1#32),
    unary main_c_14 main_v68 (broadcastInDim S2048x5632 ![] bcast_S_S2048x5632 : (⟨S_, .i32⟩ : BufTy).Contents (Elt F) → (⟨S2048x5632, .i32⟩ : BufTy).Contents (Elt F)),
    binary main_v67 main_v68 main_v69 (addi : (⟨S2048x5632, .i32⟩ : BufTy).Contents (Elt F) → (⟨S2048x5632, .i32⟩ : BufTy).Contents (Elt F) → (⟨S2048x5632, .i32⟩ : BufTy).Contents (Elt F)),
    binary main_v50 main_v69 main_v70 (subi : (⟨S2048x5632, .i32⟩ : BufTy).Contents (Elt F) → (⟨S2048x5632, .i32⟩ : BufTy).Contents (Elt F) → (⟨S2048x5632, .i32⟩ : BufTy).Contents (Elt F)),
    unary main_v70 main_v71 (sitofp .f32 : (⟨S2048x5632, .i32⟩ : BufTy).Contents (Elt F) → (⟨S2048x5632, .f32⟩ : BufTy).Contents (Elt F)),
    nullary main_c_15 (constantI S_ 32 0#32),
    unary main_c_15 main_v72 (broadcastInDim S2048 ![] bcast_S_S2048 : (⟨S_, .i32⟩ : BufTy).Contents (Elt F) → (⟨S2048, .i32⟩ : BufTy).Contents (Elt F)),
    binary main_v60 main_v72 main_v73 (cmpi .slt : (⟨S2048, .i32⟩ : BufTy).Contents (Elt F) → (⟨S2048, .i32⟩ : BufTy).Contents (Elt F) → (⟨S2048, .i1⟩ : BufTy).Contents (Elt F)),
    nullary main_c_16 (constantI S_ 32 16#32),
    unary main_c_16 main_v74 (broadcastInDim S2048 ![] bcast_S_S2048 : (⟨S_, .i32⟩ : BufTy).Contents (Elt F) → (⟨S2048, .i32⟩ : BufTy).Contents (Elt F)),
    binary main_v60 main_v74 main_v75 (addi : (⟨S2048, .i32⟩ : BufTy).Contents (Elt F) → (⟨S2048, .i32⟩ : BufTy).Contents (Elt F) → (⟨S2048, .i32⟩ : BufTy).Contents (Elt F)),
    ternary main_v73 main_v75 main_v60 main_v76 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v76 main_v77 (broadcastInDim S2048x1 ![0] bcast_S2048_S2048x1_0 : (⟨S2048, .i32⟩ : BufTy).Contents (Elt F) → (⟨S2048x1, .i32⟩ : BufTy).Contents (Elt F)),
    binary main_arg6 main_v77 main_v78 ((fun x i => Host.gather gather_S16x5632_S2048x1_S2048x5632_1_0_n_n_0_1_15632 x i) : (⟨S16x5632, .f32⟩ : BufTy).Contents (Elt F) → (⟨S2048x1, .i32⟩ : BufTy).Contents (Elt F) → (⟨S2048x5632, .f32⟩ : BufTy).Contents (Elt F)),
    binary main_v71 main_v78 main_v79 (mulf : (⟨S2048x5632, .f32⟩ : BufTy).Contents (Elt F) → (⟨S2048x5632, .f32⟩ : BufTy).Contents (Elt F) → (⟨S2048x5632, .f32⟩ : BufTy).Contents (Elt F)) ]

/-- The down matrix, first part: the shift table, the unpacked integer matrix and zero points. -/
abbrev opsD0 : List (HloOp τ sig (Elt F)) :=
  [ nullary main_v80 (iotaInDim S8 32 0),
    nullary main_c_17 (constantI S_ 32 4#32),
    unary main_c_17 main_v81 (broadcastInDim S8 ![] bcast_S_S8 : (⟨S_, .i32⟩ : BufTy).Contents (Elt F) → (⟨S8, .i32⟩ : BufTy).Contents (Elt F)),
    binary main_v80 main_v81 main_v82 (muli : (⟨S8, .i32⟩ : BufTy).Contents (Elt F) → (⟨S8, .i32⟩ : BufTy).Contents (Elt F) → (⟨S8, .i32⟩ : BufTy).Contents (Elt F)),
    unary main_arg7 main_v83 (broadcastInDim S704x1x2048 ![0, 2] bcast_S704x2048_S704x1x2048_0_2 : (⟨S704x2048, .i32⟩ : BufTy).Contents (Elt F) → (⟨S704x1x2048, .i32⟩ : BufTy).Contents (Elt F)),
    unary main_v82 main_v84 (broadcastInDim S1x8x1 ![1] bcast_S8_S1x8x1_1 : (⟨S8, .i32⟩ : BufTy).Contents (Elt F) → (⟨S1x8x1, .i32⟩ : BufTy).Contents (Elt F)),
    unary main_v83 main_v85 (broadcastInDim S704x8x2048 ![0, 1, 2] bcast_S704x1x2048_S704x8x2048_0_1_2 : (⟨S704x1x2048, .i32⟩ : BufTy).Contents (Elt F) → (⟨S704x8x2048, .i32⟩ : BufTy).Contents (Elt F)),
    unary main_v84 main_v86 (broadcastInDim S704x8x2048 ![0, 1, 2] bcast_S1x8x1_S704x8x2048_0_1_2 : (⟨S1x8x1, .i32⟩ : BufTy).Contents (Elt F) → (⟨S704x8x2048, .i32⟩ : BufTy).Contents (Elt F)),
    binary main_v85 main_v86 main_v87 (Host.shrsi : (⟨S704x8x2048, .i32⟩ : BufTy).Contents (Elt F) → (⟨S704x8x2048, .i32⟩ : BufTy).Contents (Elt F) → (⟨S704x8x2048, .i32⟩ : BufTy).Contents (Elt F)),
    nullary main_c_18 (constantI S_ 32 15#32),
    unary main_c_18 main_v88 (broadcastInDim S704x8x2048 ![] bcast_S_S704x8x2048 : (⟨S_, .i32⟩ : BufTy).Contents (Elt F) → (⟨S704x8x2048, .i32⟩ : BufTy).Contents (Elt F)),
    binary main_v87 main_v88 main_v89 (andi : (⟨S704x8x2048, .i32⟩ : BufTy).Contents (Elt F) → (⟨S704x8x2048, .i32⟩ : BufTy).Contents (Elt F) → (⟨S704x8x2048, .i32⟩ : BufTy).Contents (Elt F)),
    reshape main_v89 main_v90 rfl shapeCasts_S704x8x2048_S5632x2048,
    unary main_arg8 main_v91 (broadcastInDim S44x256x1 ![0, 1] bcast_S44x256_S44x256x1_0_1 : (⟨S44x256, .i32⟩ : BufTy).Contents (Elt F) → (⟨S44x256x1, .i32⟩ : BufTy).Contents (Elt F)),
    unary main_v82 main_v92 (broadcastInDim S1x1x8 ![2] bcast_S8_S1x1x8_2 : (⟨S8, .i32⟩ : BufTy).Contents (Elt F) → (⟨S1x1x8, .i32⟩ : BufTy).Contents (Elt F)),
    unary main_v91 main_v93 (broadcastInDim S44x256x8 ![0, 1, 2] bcast_S44x256x1_S44x256x8_0_1_2 : (⟨S44x256x1, .i32⟩ : BufTy).Contents (Elt F) → (⟨S44x256x8, .i32⟩ : BufTy).Contents (Elt F)),
    unary main_v92 main_v94 (broadcastInDim S44x256x8 ![0, 1, 2] bcast_S1x1x8_S44x256x8_0_1_2 : (⟨S1x1x8, .i32⟩ : BufTy).Contents (Elt F) → (⟨S44x256x8, .i32⟩ : BufTy).Contents (Elt F)),
    binary main_v93 main_v94 main_v95 (Host.shrsi : (⟨S44x256x8, .i32⟩ : BufTy).Contents (Elt F) → (⟨S44x256x8, .i32⟩ : BufTy).Contents (Elt F) → (⟨S44x256x8, .i32⟩ : BufTy).Contents (Elt F)),
    nullary main_c_19 (constantI S_ 32 15#32),
    unary main_c_19 main_v96 (broadcastInDim S44x256x8 ![] bcast_S_S44x256x8 : (⟨S_, .i32⟩ : BufTy).Contents (Elt F) → (⟨S44x256x8, .i32⟩ : BufTy).Contents (Elt F)),
    binary main_v95 main_v96 main_v97 (andi : (⟨S44x256x8, .i32⟩ : BufTy).Contents (Elt F) → (⟨S44x256x8, .i32⟩ : BufTy).Contents (Elt F) → (⟨S44x256x8, .i32⟩ : BufTy).Contents (Elt F)),
    reshape main_v97 main_v98 rfl shapeCasts_S44x256x8_S44x2048 ]

/-- The down matrix, second part: the row groups by floor division, the gathers, the product. -/
abbrev opsD1 : List (HloOp τ sig (Elt F)) :=
  [ nullary main_v99 (iotaInDim S5632 32 0),
    nullary main_c_20 (constantI S_ 32 128#32),
    TRef.unary (.of main_c_20 : TRef sig ⟨S_, .i32⟩) main_call2.v0 id,
    TRef.unary main_call2.v0 main_call2.v1 (broadcastInDim S5632 ![] bcast_S_S5632),
    TRef.binary (.of main_v99 : TRef sig ⟨S5632, .i32⟩) main_call2.v1 main_call2.v2 Host.divsi,
    TRef.unary (.of main_v99 : TRef sig ⟨S5632, .i32⟩) main_call2.v3 signi,
    TRef.unary main_call2.v0 main_call2.v4 signi,
    TRef.unary main_call2.v4 main_call2.v5 (broadcastInDim S5632 ![] bcast_S_S5632),
    TRef.binary main_call2.v3 main_call2.v5 main_call2.v6 (cmpi .ne),
    TRef.unary main_call2.v0 main_call2.v7 (broadcastInDim S5632 ![] bcast_S_S5632),
    TRef.binary (.of main_v99 : TRef sig ⟨S5632, .i32⟩) main_call2.v7 main_call2.v8 Host.remsi,
    TRef.nullary main_call2.c (constantI S_ 32 0#32),
    TRef.unary main_call2.c main_call2.v9 (broadcastInDim S5632 ![] bcast_S_S5632),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S5632 ![] bcast_S_S5632),
    TRef.binary main_call2.v2 main_call2.v12 main_call2.v13 subi,
    TRef.ternary main_call2.v11 main_call2.v13 main_call2.v2 main_call2.call0.v0 select,
    nullary main_c_21 (constantI S_ 32 0#32),
    unary main_c_21 main_v101 (broadcastInDim S5632 ![] bcast_S_S5632 : (⟨S_, .i32⟩ : BufTy).Contents (Elt F) → (⟨S5632, .i32⟩ : BufTy).Contents (Elt F)),
    binary main_v100 main_v101 main_v102 (cmpi .slt : (⟨S5632, .i32⟩ : BufTy).Contents (Elt F) → (⟨S5632, .i32⟩ : BufTy).Contents (Elt F) → (⟨S5632, .i1⟩ : BufTy).Contents (Elt F)),
    nullary main_c_22 (constantI S_ 32 44#32),
    unary main_c_22 main_v103 (broadcastInDim S5632 ![] bcast_S_S5632 : (⟨S_, .i32⟩ : BufTy).Contents (Elt F) → (⟨S5632, .i32⟩ : BufTy).Contents (Elt F)),
    binary main_v100 main_v103 main_v104 (addi : (⟨S5632, .i32⟩ : BufTy).Contents (Elt F) → (⟨S5632, .i32⟩ : BufTy).Contents (Elt F) → (⟨S5632, .i32⟩ : BufTy).Contents (Elt F)),
    ternary main_v102 main_v104 main_v100 main_v105 (select : (⟨S5632, .i1⟩ : BufTy).Contents (Elt F) → (⟨S5632, .i32⟩ : BufTy).Contents (Elt F) → (⟨S5632, .i32⟩ : BufTy).Contents (Elt F) → (⟨S5632, .i32⟩ : BufTy).Contents (Elt F)),
    unary main_v105 main_v106 (broadcastInDim S5632x1 ![0] bcast_S5632_S5632x1_0 : (⟨S5632, .i32⟩ : BufTy).Contents (Elt F) → (⟨S5632x1, .i32⟩ : BufTy).Contents (Elt F)),
    binary main_v98 main_v106 main_v107 ((fun x i => Host.gather gather_S44x2048_S5632x1_S5632x2048_1_0_n_n_0_1_12048 x i) : (⟨S44x2048, .i32⟩ : BufTy).Contents (Elt F) → (⟨S5632x1, .i32⟩ : BufTy).Contents (Elt F) → (⟨S5632x2048, .i32⟩ : BufTy).Contents (Elt F)),
    nullary main_c_23 (constantI S_ 32 1#32),
    unary main_c_23 main_v108 (broadcastInDim S5632x2048 ![] bcast_S_S5632x2048 : (⟨S_, .i32⟩ : BufTy).Contents (Elt F) → (⟨S5632x2048, .i32⟩ : BufTy).Contents (Elt F)),
    binary main_v107 main_v108 main_v109 (addi : (⟨S5632x2048, .i32⟩ : BufTy).Contents (Elt F) → (⟨S5632x2048, .i32⟩ : BufTy).Contents (Elt F) → (⟨S5632x2048, .i32⟩ : BufTy).Contents (Elt F)),
    binary main_v90 main_v109 main_v110 (subi : (⟨S5632x2048, .i32⟩ : BufTy).Contents (Elt F) → (⟨S5632x2048, .i32⟩ : BufTy).Contents (Elt F) → (⟨S5632x2048, .i32⟩ : BufTy).Contents (Elt F)),
    unary main_v110 main_v111 (sitofp .f32 : (⟨S5632x2048, .i32⟩ : BufTy).Contents (Elt F) → (⟨S5632x2048, .f32⟩ : BufTy).Contents (Elt F)),
    nullary main_c_24 (constantI S_ 32 0#32),
    unary main_c_24 main_v112 (broadcastInDim S5632 ![] bcast_S_S5632 : (⟨S_, .i32⟩ : BufTy).Contents (Elt F) → (⟨S5632, .i32⟩ : BufTy).Contents (Elt F)),
    binary main_v100 main_v112 main_v113 (cmpi .slt : (⟨S5632, .i32⟩ : BufTy).Contents (Elt F) → (⟨S5632, .i32⟩ : BufTy).Contents (Elt F) → (⟨S5632, .i1⟩ : BufTy).Contents (Elt F)),
    nullary main_c_25 (constantI S_ 32 44#32),
    unary main_c_25 main_v114 (broadcastInDim S5632 ![] bcast_S_S5632 : (⟨S_, .i32⟩ : BufTy).Contents (Elt F) → (⟨S5632, .i32⟩ : BufTy).Contents (Elt F)),
    binary main_v100 main_v114 main_v115 (addi : (⟨S5632, .i32⟩ : BufTy).Contents (Elt F) → (⟨S5632, .i32⟩ : BufTy).Contents (Elt F) → (⟨S5632, .i32⟩ : BufTy).Contents (Elt F)),
    ternary main_v113 main_v115 main_v100 main_v116 (select : (⟨S5632, .i1⟩ : BufTy).Contents (Elt F) → (⟨S5632, .i32⟩ : BufTy).Contents (Elt F) → (⟨S5632, .i32⟩ : BufTy).Contents (Elt F) → (⟨S5632, .i32⟩ : BufTy).Contents (Elt F)),
    unary main_v116 main_v117 (broadcastInDim S5632x1 ![0] bcast_S5632_S5632x1_0 : (⟨S5632, .i32⟩ : BufTy).Contents (Elt F) → (⟨S5632x1, .i32⟩ : BufTy).Contents (Elt F)),
    binary main_arg9 main_v117 main_v118 ((fun x i => Host.gather gather_S44x2048_S5632x1_S5632x2048_1_0_n_n_0_1_12048 x i) : (⟨S44x2048, .f32⟩ : BufTy).Contents (Elt F) → (⟨S5632x1, .i32⟩ : BufTy).Contents (Elt F) → (⟨S5632x2048, .f32⟩ : BufTy).Contents (Elt F)),
    binary main_v111 main_v118 main_v119 (mulf : (⟨S5632x2048, .f32⟩ : BufTy).Contents (Elt F) → (⟨S5632x2048, .f32⟩ : BufTy).Contents (Elt F) → (⟨S5632x2048, .f32⟩ : BufTy).Contents (Elt F)) ]

/-- The gated product: x·Wg, its silu (the function's nine operations at its call), x·Wu, their product, times Wd. -/
abbrev opsT : List (HloOp τ sig (Elt F)) :=
  [ binary main_arg0 main_v39 main_v120 ((fun l r => Host.dotGeneral dot_S8192x2048_S2048x5632_S8192x5632_1_0_0_1_n_n none l r) : (⟨S8192x2048, .f32⟩ : BufTy).Contents (Elt F) → (⟨S2048x5632, .f32⟩ : BufTy).Contents (Elt F) → (⟨S8192x5632, .f32⟩ : BufTy).Contents (Elt F)),
    TRef.unary (.of main_v120 : TRef sig ⟨S8192x5632, .f32⟩) main_call3.v0 Host.negf,
    TRef.unary main_call3.v0 main_call3.v1 Host.exp,
    TRef.nullary main_call3.cst (constant S_ .f32 0x3F800000#32),
    TRef.unary main_call3.cst main_call3.v2 (broadcastInDim S8192x5632 ![] bcast_S_S8192x5632),
    TRef.binary main_call3.v2 main_call3.v1 main_call3.v3 addf,
    TRef.nullary main_call3.cst_0 (constant S_ .f32 0x3F800000#32),
    TRef.unary main_call3.cst_0 main_call3.v4 (broadcastInDim S8192x5632 ![] bcast_S_S8192x5632),
    TRef.binary main_call3.v4 main_call3.v3 main_call3.v5 Host.divf,
    TRef.binary (.of main_v120 : TRef sig ⟨S8192x5632, .f32⟩) main_call3.v5 main_call3.v6 mulf,
    binary main_arg0 main_v79 main_v122 ((fun l r => Host.dotGeneral dot_S8192x2048_S2048x5632_S8192x5632_1_0_0_1_n_n none l r) : (⟨S8192x2048, .f32⟩ : BufTy).Contents (Elt F) → (⟨S2048x5632, .f32⟩ : BufTy).Contents (Elt F) → (⟨S8192x5632, .f32⟩ : BufTy).Contents (Elt F)),
    binary main_v121 main_v122 main_v123 (mulf : (⟨S8192x5632, .f32⟩ : BufTy).Contents (Elt F) → (⟨S8192x5632, .f32⟩ : BufTy).Contents (Elt F) → (⟨S8192x5632, .f32⟩ : BufTy).Contents (Elt F)),
    binary main_v123 main_v119 main_v124 ((fun l r => Host.dotGeneral dot_S8192x5632_S5632x2048_S8192x2048_1_0_0_1_n_n none l r) : (⟨S8192x5632, .f32⟩ : BufTy).Contents (Elt F) → (⟨S5632x2048, .f32⟩ : BufTy).Contents (Elt F) → (⟨S8192x2048, .f32⟩ : BufTy).Contents (Elt F)) ]

/-! ## The program is that line -/

theorem part0_eq (c : Dev nD) : main_part0 (F := F) c = seq (opsG ++ opsU0) := rfl
theorem part1_eq (c : Dev nD) : main_part1 (F := F) c = seq (opsU1 ++ opsD0) := rfl
theorem part2_eq (c : Dev nD) : main_part2 (F := F) c = seq (opsD1 ++ opsT) := rfl

/-- The whole line: the three parts' pieces in order. -/
abbrev ops : List (HloOp τ sig (Elt F)) := (opsG ++ opsU0) ++ ((opsU1 ++ opsD0) ++ (opsD1 ++ opsT))

theorem main_eq (c : Dev nD) : main (F := F) c = seq ops := by
  show main (F := F) c = seq ((opsG ++ opsU0) ++ ((opsU1 ++ opsD0) ++ (opsD1 ++ opsT)))
  rw [seq_append (opsG ++ opsU0) _, seq_append (opsU1 ++ opsD0) (opsD1 ++ opsT), ← part0_eq c, ← part1_eq c, ← part2_eq c]
  rfl

/-! ## Every operation touches TensorCore buffers only -/

theorem opsG_sub : (opsG : List (HloOp τ sig (Elt F))).Forall fun op => op.bufs ⊆ tcRefs τ sig :=
  ⟨nullary_bufs_sub .., nullary_bufs_sub .., unary_bufs_sub .., binary_bufs_sub .., unary_bufs_sub ..,
    unary_bufs_sub .., unary_bufs_sub .., unary_bufs_sub .., binary_bufs_sub .., nullary_bufs_sub ..,
    unary_bufs_sub .., binary_bufs_sub .., reshape_bufs_sub .., unary_bufs_sub .., unary_bufs_sub ..,
    unary_bufs_sub .., unary_bufs_sub .., binary_bufs_sub .., nullary_bufs_sub .., unary_bufs_sub ..,
    binary_bufs_sub .., reshape_bufs_sub .., nullary_bufs_sub .., nullary_bufs_sub .., unary_bufs_sub ..,
    unary_bufs_sub .., binary_bufs_sub .., unary_bufs_sub .., unary_bufs_sub .., unary_bufs_sub ..,
    binary_bufs_sub .., unary_bufs_sub .., binary_bufs_sub .., nullary_bufs_sub .., unary_bufs_sub ..,
    binary_bufs_sub .., binary_bufs_sub .., nullary_bufs_sub .., unary_bufs_sub .., binary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..⟩

theorem opsU0_sub : (opsU0 : List (HloOp τ sig (Elt F))).Forall fun op => op.bufs ⊆ tcRefs τ sig :=
  ⟨nullary_bufs_sub .., nullary_bufs_sub .., unary_bufs_sub .., binary_bufs_sub .., unary_bufs_sub ..,
    unary_bufs_sub .., unary_bufs_sub .., unary_bufs_sub .., binary_bufs_sub .., nullary_bufs_sub ..,
    unary_bufs_sub ..⟩

theorem opsU1_sub : (opsU1 : List (HloOp τ sig (Elt F))).Forall fun op => op.bufs ⊆ tcRefs τ sig :=
  ⟨binary_bufs_sub .., reshape_bufs_sub .., unary_bufs_sub .., unary_bufs_sub .., unary_bufs_sub ..,
    unary_bufs_sub .., binary_bufs_sub .., nullary_bufs_sub .., unary_bufs_sub .., binary_bufs_sub ..,
    reshape_bufs_sub .., nullary_bufs_sub .., nullary_bufs_sub .., unary_bufs_sub .., unary_bufs_sub ..,
    binary_bufs_sub .., unary_bufs_sub .., unary_bufs_sub .., unary_bufs_sub .., binary_bufs_sub ..,
    unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., binary_bufs_sub .., unary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub ..⟩

theorem opsD0_sub : (opsD0 : List (HloOp τ sig (Elt F))).Forall fun op => op.bufs ⊆ tcRefs τ sig :=
  ⟨nullary_bufs_sub .., nullary_bufs_sub .., unary_bufs_sub .., binary_bufs_sub .., unary_bufs_sub ..,
    unary_bufs_sub .., unary_bufs_sub .., unary_bufs_sub .., binary_bufs_sub .., nullary_bufs_sub ..,
    unary_bufs_sub .., binary_bufs_sub .., reshape_bufs_sub .., unary_bufs_sub .., unary_bufs_sub ..,
    unary_bufs_sub .., unary_bufs_sub .., binary_bufs_sub .., nullary_bufs_sub .., unary_bufs_sub ..,
    binary_bufs_sub .., reshape_bufs_sub ..⟩

theorem opsD1_sub : (opsD1 : List (HloOp τ sig (Elt F))).Forall fun op => op.bufs ⊆ tcRefs τ sig :=
  ⟨nullary_bufs_sub .., nullary_bufs_sub .., unary_bufs_sub .., unary_bufs_sub .., binary_bufs_sub ..,
    unary_bufs_sub .., unary_bufs_sub .., unary_bufs_sub .., binary_bufs_sub .., unary_bufs_sub ..,
    binary_bufs_sub .., nullary_bufs_sub .., unary_bufs_sub .., binary_bufs_sub .., binary_bufs_sub ..,
    nullary_bufs_sub .., unary_bufs_sub .., binary_bufs_sub .., ternary_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    binary_bufs_sub .., binary_bufs_sub .., unary_bufs_sub .., nullary_bufs_sub .., unary_bufs_sub ..,
    binary_bufs_sub .., nullary_bufs_sub .., unary_bufs_sub .., binary_bufs_sub .., ternary_bufs_sub ..,
    unary_bufs_sub .., binary_bufs_sub .., binary_bufs_sub ..⟩

theorem opsT_sub : (opsT : List (HloOp τ sig (Elt F))).Forall fun op => op.bufs ⊆ tcRefs τ sig :=
  ⟨binary_bufs_sub .., unary_bufs_sub .., unary_bufs_sub .., nullary_bufs_sub .., unary_bufs_sub ..,
    binary_bufs_sub .., nullary_bufs_sub .., unary_bufs_sub .., binary_bufs_sub .., binary_bufs_sub ..,
    binary_bufs_sub .., binary_bufs_sub .., binary_bufs_sub ..⟩

/-- A property of every member of two lists holds of every member of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append opsG_sub opsU0_sub)
    (forall_append (forall_append opsU1_sub opsD0_sub) (forall_append opsD1_sub opsT_sub))

theorem scopedRefs_eq : (Finset.univ.filter fun b : Ref sig .tc => b.isScoped) = ∅ := by decide
theorem scopedSems_eq : (Finset.univ.filter fun sm : SemLoc sig => sm.isScoped .tc) = ∅ := by decide

/-! ## The line's fold, read back -/

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole line's fold, piece after piece. -/
theorem ops_after (V : Valuation τ sig (Elt F)) :
    after ops V = after opsT (after opsD1 (after opsD0 (after opsU1 (after opsU0 (after opsG V))))) := by
  show after ((opsG ++ opsU0) ++ ((opsU1 ++ opsD0) ++ (opsD1 ++ opsT))) V = _
  simp only [after_append]

/-! Each stage's result is the stage term of what the stage reads. -/

theorem deqG_eq (V : Valuation τ sig (Elt F)) :
    after opsG V (main_v39 : DevRef τ sig)
      = refDeqA (V (main_arg1 : DevRef τ sig)) (V (main_arg2 : DevRef τ sig)) (V (main_arg3 : DevRef τ sig)) := by
  after_results_simp
  rfl

theorem deqU_eq (W : Valuation τ sig (Elt F)) :
    after opsU1 (after opsU0 W) (main_v79 : DevRef τ sig)
      = refDeqA (W (main_arg4 : DevRef τ sig)) (W (main_arg5 : DevRef τ sig)) (W (main_arg6 : DevRef τ sig)) := by
  after_results_simp
  rfl

theorem deqD_eq (W : Valuation τ sig (Elt F)) :
    after opsD1 (after opsD0 W) (main_v119 : DevRef τ sig)
      = refDeqB (W (main_arg7 : DevRef τ sig)) (W (main_arg8 : DevRef τ sig)) (W (main_arg9 : DevRef τ sig)) := by
  after_results_simp
  rfl

theorem tail_eq (X : Valuation τ sig (Elt F)) :
    after opsT X (main_v124 : DevRef τ sig)
      = refTail (X (main_arg0 : DevRef τ sig)) (X (main_v39 : DevRef τ sig)) (X (main_v79 : DevRef τ sig)) (X (main_v119 : DevRef τ sig)) := by
  after_results_simp
  rfl

/-! A later stage leaves an earlier stage's result, and the arguments it has yet to read, alone. -/

theorem keepD_arg0 (V : Valuation τ sig (Elt F)) :
    after opsD1 (after opsD0 (after opsU1 (after opsU0 (after opsG V)))) (main_arg0 : DevRef τ sig) = V (main_arg0 : DevRef τ sig) := by
  after_results_simp

theorem keepD_v39 (W : Valuation τ sig (Elt F)) :
    after opsD1 (after opsD0 (after opsU1 (after opsU0 W))) (main_v39 : DevRef τ sig) = W (main_v39 : DevRef τ sig) := by
  after_results_simp

theorem keepD_v79 (W : Valuation τ sig (Elt F)) :
    after opsD1 (after opsD0 W) (main_v79 : DevRef τ sig) = W (main_v79 : DevRef τ sig) := by
  after_results_simp

theorem keepG_arg4 (V : Valuation τ sig (Elt F)) :
    after opsG V (main_arg4 : DevRef τ sig) = V (main_arg4 : DevRef τ sig) := by
  after_results_simp

theorem keepG_arg5 (V : Valuation τ sig (Elt F)) :
    after opsG V (main_arg5 : DevRef τ sig) = V (main_arg5 : DevRef τ sig) := by
  after_results_simp

theorem keepG_arg6 (V : Valuation τ sig (Elt F)) :
    after opsG V (main_arg6 : DevRef τ sig) = V (main_arg6 : DevRef τ sig) := by
  after_results_simp

theorem keepU_arg7 (V : Valuation τ sig (Elt F)) :
    after opsU1 (after opsU0 (after opsG V)) (main_arg7 : DevRef τ sig) = V (main_arg7 : DevRef τ sig) := by
  after_results_simp

theorem keepU_arg8 (V : Valuation τ sig (Elt F)) :
    after opsU1 (after opsU0 (after opsG V)) (main_arg8 : DevRef τ sig) = V (main_arg8 : DevRef τ sig) := by
  after_results_simp

theorem keepU_arg9 (V : Valuation τ sig (Elt F)) :
    after opsU1 (after opsU0 (after opsG V)) (main_arg9 : DevRef τ sig) = V (main_arg9 : DevRef τ sig) := by
  after_results_simp

/-- The result buffer after the whole line: the gated product over the three dequantized matrices, each stage
    the stage term of the arguments' contents. -/
theorem out_eq (V : Valuation τ sig (Elt F)) :
    after ops V (main_v124 : DevRef τ sig)
      = refTail (V (main_arg0 : DevRef τ sig))
          (refDeqA (V (main_arg1 : DevRef τ sig)) (V (main_arg2 : DevRef τ sig)) (V (main_arg3 : DevRef τ sig)))
          (refDeqA (V (main_arg4 : DevRef τ sig)) (V (main_arg5 : DevRef τ sig)) (V (main_arg6 : DevRef τ sig)))
          (refDeqB (V (main_arg7 : DevRef τ sig)) (V (main_arg8 : DevRef τ sig)) (V (main_arg9 : DevRef τ sig))) := by
  rw [ops_after, tail_eq, deqD_eq, keepD_v79, deqU_eq, keepD_v39, deqG_eq, keepD_arg0,
    keepG_arg4, keepG_arg5, keepG_arg6, keepU_arg7, keepU_arg8, keepU_arg9]

/-! No operation writes an argument. -/

theorem arg0_eq (V : Valuation τ sig (Elt F)) :
    after ops V (main_arg0 : DevRef τ sig) = V (main_arg0 : DevRef τ sig) := by
  show after ((opsG ++ opsU0) ++ ((opsU1 ++ opsD0) ++ (opsD1 ++ opsT))) V _ = _
  simp only [after_append]
  after_results_simp

theorem arg1_eq (V : Valuation τ sig (Elt F)) :
    after ops V (main_arg1 : DevRef τ sig) = V (main_arg1 : DevRef τ sig) := by
  show after ((opsG ++ opsU0) ++ ((opsU1 ++ opsD0) ++ (opsD1 ++ opsT))) V _ = _
  simp only [after_append]
  after_results_simp

theorem arg2_eq (V : Valuation τ sig (Elt F)) :
    after ops V (main_arg2 : DevRef τ sig) = V (main_arg2 : DevRef τ sig) := by
  show after ((opsG ++ opsU0) ++ ((opsU1 ++ opsD0) ++ (opsD1 ++ opsT))) V _ = _
  simp only [after_append]
  after_results_simp

theorem arg3_eq (V : Valuation τ sig (Elt F)) :
    after ops V (main_arg3 : DevRef τ sig) = V (main_arg3 : DevRef τ sig) := by
  show after ((opsG ++ opsU0) ++ ((opsU1 ++ opsD0) ++ (opsD1 ++ opsT))) V _ = _
  simp only [after_append]
  after_results_simp

theorem arg4_eq (V : Valuation τ sig (Elt F)) :
    after ops V (main_arg4 : DevRef τ sig) = V (main_arg4 : DevRef τ sig) := by
  show after ((opsG ++ opsU0) ++ ((opsU1 ++ opsD0) ++ (opsD1 ++ opsT))) V _ = _
  simp only [after_append]
  after_results_simp

theorem arg5_eq (V : Valuation τ sig (Elt F)) :
    after ops V (main_arg5 : DevRef τ sig) = V (main_arg5 : DevRef τ sig) := by
  show after ((opsG ++ opsU0) ++ ((opsU1 ++ opsD0) ++ (opsD1 ++ opsT))) V _ = _
  simp only [after_append]
  after_results_simp

theorem arg6_eq (V : Valuation τ sig (Elt F)) :
    after ops V (main_arg6 : DevRef τ sig) = V (main_arg6 : DevRef τ sig) := by
  show after ((opsG ++ opsU0) ++ ((opsU1 ++ opsD0) ++ (opsD1 ++ opsT))) V _ = _
  simp only [after_append]
  after_results_simp

theorem arg7_eq (V : Valuation τ sig (Elt F)) :
    after ops V (main_arg7 : DevRef τ sig) = V (main_arg7 : DevRef τ sig) := by
  show after ((opsG ++ opsU0) ++ ((opsU1 ++ opsD0) ++ (opsD1 ++ opsT))) V _ = _
  simp only [after_append]
  after_results_simp

theorem arg8_eq (V : Valuation τ sig (Elt F)) :
    after ops V (main_arg8 : DevRef τ sig) = V (main_arg8 : DevRef τ sig) := by
  show after ((opsG ++ opsU0) ++ ((opsU1 ++ opsD0) ++ (opsD1 ++ opsT))) V _ = _
  simp only [after_append]
  after_results_simp

theorem arg9_eq (V : Valuation τ sig (Elt F)) :
    after ops V (main_arg9 : DevRef τ sig) = V (main_arg9 : DevRef τ sig) := by
  show after ((opsG ++ opsU0) ++ ((opsU1 ++ opsD0) ++ (opsD1 ++ opsT))) V _ = _
  simp only [after_append]
  after_results_simp

/-! ## The run -/

/-- On every device, for any float values, from any memory with zero counters: every weakly fair execution of
    the program terminates with the result buffer at the gated product over the three dequantized matrices of
    the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124)
          = refTail (m ((c.tc : Thread nD τ).loc main_arg0))
              (refDeqA (m ((c.tc : Thread nD τ).loc main_arg1)) (m ((c.tc : Thread nD τ).loc main_arg2)) (m ((c.tc : Thread nD τ).loc main_arg3)))
              (refDeqA (m ((c.tc : Thread nD τ).loc main_arg4)) (m ((c.tc : Thread nD τ).loc main_arg5)) (m ((c.tc : Thread nD τ).loc main_arg6)))
              (refDeqB (m ((c.tc : Thread nD τ).loc main_arg7)) (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c main_v124).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RV

end
-- ==== Proof.RefDeqRead.lean ====
/-
  The reference program's dequantisation read at an index.

  The reference builds a weight matrix from packed words by whole-array operations: the words and a table of shift
  amounts 0, 4, …, 28 are broadcast to a rank-3 array, shifted, masked with 15 and reshaped, so that row r, column c
  of the integer matrix is field r % 8 of word (r / 8, c); the zero points likewise, field c % 8 of word (g, c / 8);
  each row's zero points and scales are gathered from row r / 128 of their tables, the group number computed as a
  floor division of the row number on 32-bit words. Read at one index every layout operation names the operand's
  index it reads, and the result is the specification's weight (q − (z + 1)) · scale.
-/
import proofs.«414438_j53953379173325_3_alg».proof.Proof.Gen.ReferenceIdeal
import proofs.«414438_j53953379173325_3_alg».proof.Proof.Spec
import proofs.«414438_j53953379173325_3_alg».proof.Proof.RefTerms
import Idealize.ShloMosaic.Lib.Pipeline.Value
import Idealize.ShloMosaic.Lib.ValueIdx
import Idealize.ShloMosaic.Lib.KernelVsHost

noncomputable section

namespace Cert.ReferenceIdeal.RV

open Cert.ReferenceIdeal Cert.ReferenceIdeal.Gen
open Idealize.ShloMosaic Idealize.ShloMosaic.ValueIdx

/-! ## The shift table: 4·s at position s -/

theorem shiftTable_apply (h : S_.BroadcastsInDim S8 (![] : Fin 0 → Fin S8.rank)) (s : Fin 8) :
    muli (iotaInDim S8 32 0) (broadcastInDim S8 ![] h (constantI S_ 32 4#32)) (ix1 s) = BitVec.ofNat 32 (4 * s.val) := by
  show IntOp.muli (BitVec.ofNat 32 s.val) 4#32 = BitVec.ofNat 32 (4 * s.val)
  unfold IntOp.muli
  revert s; decide

/-! ## broadcast_in_dim read at an index -/

section Bcast
variable {α : Type}

/-- [R, C] → [R, 1, C] on axes 0, 2. -/
theorem bcast_02_apply {R C : ℕ} (h : (⟨2, ![R, C]⟩ : Shape).BroadcastsInDim ⟨3, ![R, 1, C]⟩ ![0, 2])
    (x : (⟨2, ![R, C]⟩ : Shape).Idx → α) (r : Fin R) (u : Fin 1) (c : Fin C) :
    broadcastInDim ⟨3, ![R, 1, C]⟩ ![0, 2] h x (ix3 r u c) = x (ix2 r c) := by
  refine broadcastInDim_apply _ h x _ _ fun a => ?_
  have hr := r.isLt; have hc := c.isLt
  match a with
  | ⟨0, _⟩ => show r.val = if R = 1 then 0 else r.val; split <;> omega
  | ⟨1, _⟩ => show c.val = if C = 1 then 0 else c.val; split <;> omega

/-- [R, 1, C] → [R, 8, C]. -/
theorem bcast_mid8_apply {R C : ℕ} (h : (⟨3, ![R, 1, C]⟩ : Shape).BroadcastsInDim ⟨3, ![R, 8, C]⟩ ![0, 1, 2])
    (x : (⟨3, ![R, 1, C]⟩ : Shape).Idx → α) (r : Fin R) (s : Fin 8) (c : Fin C) :
    broadcastInDim ⟨3, ![R, 8, C]⟩ ![0, 1, 2] h x (ix3 r s c) = x (ix3 r 0 c) := by
  refine broadcastInDim_apply _ h x _ _ fun a => ?_
  have hr := r.isLt; have hc := c.isLt
  match a with
  | ⟨0, _⟩ => show r.val = if R = 1 then 0 else r.val; split <;> omega
  | ⟨1, _⟩ => rfl
  | ⟨2, _⟩ => show c.val = if C = 1 then 0 else c.val; split <;> omega

/-- [8] → [1, 8, 1] on axis 1. -/
theorem bcast_8mid_apply (h : (⟨1, ![8]⟩ : Shape).BroadcastsInDim ⟨3, ![1, 8, 1]⟩ ![1])
    (x : (⟨1, ![8]⟩ : Shape).Idx → α) (u : Fin 1) (s : Fin 8) (v : Fin 1) :
    broadcastInDim ⟨3, ![1, 8, 1]⟩ ![1] h x (ix3 u s v) = x (ix1 s) := by
  refine broadcastInDim_apply _ h x _ _ fun a => ?_
  match a with
  | ⟨0, _⟩ => rfl

/-- [1, 8, 1] → [R, 8, C]. -/
theorem bcast_181_apply {R C : ℕ} (h : (⟨3, ![1, 8, 1]⟩ : Shape).BroadcastsInDim ⟨3, ![R, 8, C]⟩ ![0, 1, 2])
    (x : (⟨3, ![1, 8, 1]⟩ : Shape).Idx → α) (r : Fin R) (s : Fin 8) (c : Fin C) :
    broadcastInDim ⟨3, ![R, 8, C]⟩ ![0, 1, 2] h x (ix3 r s c) = x (ix3 0 s 0) := by
  refine broadcastInDim_apply _ h x _ _ fun a => ?_
  match a with
  | ⟨0, _⟩ => rfl
  | ⟨1, _⟩ => rfl
  | ⟨2, _⟩ => rfl

/-- [G, K] → [G, K, 1] on axes 0, 1. -/
theorem bcast_01_apply {G K : ℕ} (h : (⟨2, ![G, K]⟩ : Shape).BroadcastsInDim ⟨3, ![G, K, 1]⟩ ![0, 1])
    (x : (⟨2, ![G, K]⟩ : Shape).Idx → α) (g : Fin G) (k : Fin K) (u : Fin 1) :
    broadcastInDim ⟨3, ![G, K, 1]⟩ ![0, 1] h x (ix3 g k u) = x (ix2 g k) := by
  refine broadcastInDim_apply _ h x _ _ fun a => ?_
  have hr := g.isLt; have hc := k.isLt
  match a with
  | ⟨0, _⟩ => show g.val = if G = 1 then 0 else g.val; split <;> omega
  | ⟨1, _⟩ => show k.val = if K = 1 then 0 else k.val; split <;> omega

/-- [G, K, 1] → [G, K, 8]. -/
theorem bcast_last8_apply {G K : ℕ} (h : (⟨3, ![G, K, 1]⟩ : Shape).BroadcastsInDim ⟨3, ![G, K, 8]⟩ ![0, 1, 2])
    (x : (⟨3, ![G, K, 1]⟩ : Shape).Idx → α) (g : Fin G) (k : Fin K) (s : Fin 8) :
    broadcastInDim ⟨3, ![G, K, 8]⟩ ![0, 1, 2] h x (ix3 g k s) = x (ix3 g k 0) := by
  refine broadcastInDim_apply _ h x _ _ fun a => ?_
  have hr := g.isLt; have hc := k.isLt
  match a with
  | ⟨0, _⟩ => show g.val = if G = 1 then 0 else g.val; split <;> omega
  | ⟨1, _⟩ => show k.val = if K = 1 then 0 else k.val; split <;> omega
  | ⟨2, _⟩ => rfl

/-- [8] → [1, 1, 8] on axis 2. -/
theorem bcast_8last_apply (h : (⟨1, ![8]⟩ : Shape).BroadcastsInDim ⟨3, ![1, 1, 8]⟩ ![2])
    (x : (⟨1, ![8]⟩ : Shape).Idx → α) (u v : Fin 1) (s : Fin 8) :
    broadcastInDim ⟨3, ![1, 1, 8]⟩ ![2] h x (ix3 u v s) = x (ix1 s) := by
  refine broadcastInDim_apply _ h x _ _ fun a => ?_
  match a with
  | ⟨0, _⟩ => rfl

/-- [1, 1, 8] → [G, K, 8]. -/
theorem bcast_118_apply {G K : ℕ} (h : (⟨3, ![1, 1, 8]⟩ : Shape).BroadcastsInDim ⟨3, ![G, K, 8]⟩ ![0, 1, 2])
    (x : (⟨3, ![1, 1, 8]⟩ : Shape).Idx → α) (g : Fin G) (k : Fin K) (s : Fin 8) :
    broadcastInDim ⟨3, ![G, K, 8]⟩ ![0, 1, 2] h x (ix3 g k s) = x (ix3 0 0 s) := by
  refine broadcastInDim_apply _ h x _ _ fun a => ?_
  match a with
  | ⟨0, _⟩ => rfl
  | ⟨1, _⟩ => rfl
  | ⟨2, _⟩ => rfl

/-- [N] → [N, 1] on axis 0. -/
theorem bcast_col_apply {N : ℕ} (h : (⟨1, ![N]⟩ : Shape).BroadcastsInDim ⟨2, ![N, 1]⟩ ![0])
    (x : (⟨1, ![N]⟩ : Shape).Idx → α) (r : Fin N) (u : Fin 1) :
    broadcastInDim ⟨2, ![N, 1]⟩ ![0] h x (ix2 r u) = x (ix1 r) := by
  refine broadcastInDim_apply _ h x _ _ fun a => ?_
  have hr := r.isLt
  match a with
  | ⟨0, _⟩ => show r.val = if N = 1 then 0 else r.val; split <;> omega

end Bcast

/-! ## The reshapes read at an index -/

section Reshape
variable {α : Type}

/-- [R8, 8, C] → [R, C] with R = 8·R8: row r is (r / 8, r % 8). -/
theorem reshape_rows_apply {R8 C R : ℕ} (hR : R = 8 * R8) (h : (⟨3, ![R8, 8, C]⟩ : Shape).ShapeCasts ⟨2, ![R, C]⟩)
    (x : (⟨3, ![R8, 8, C]⟩ : Shape).Idx → α) (r : Fin R) (c : Fin C) :
    shapeCast ⟨2, ![R, C]⟩ x h (ix2 r c)
      = x (ix3 ⟨r.val / 8, by have := r.isLt; omega⟩ ⟨r.val % 8, Nat.mod_lt _ (by decide)⟩ c) := by
  refine shapeCast_apply x h _ _ ?_
  rw [Shape.rowMajor_val_three, Shape.rowMajor_val_two]
  show (r.val / 8 * 8 + r.val % 8) * C + c.val = r.val * C + c.val
  rw [Nat.div_add_mod']

/-- [G, K, 8] → [G, C] with C = 8·K: column c is (c / 8, c % 8). -/
theorem reshape_cols_apply {G K C : ℕ} (hC : C = 8 * K) (h : (⟨3, ![G, K, 8]⟩ : Shape).ShapeCasts ⟨2, ![G, C]⟩)
    (x : (⟨3, ![G, K, 8]⟩ : Shape).Idx → α) (g : Fin G) (c : Fin C) :
    shapeCast ⟨2, ![G, C]⟩ x h (ix2 g c)
      = x (ix3 g ⟨c.val / 8, by have := c.isLt; omega⟩ ⟨c.val % 8, Nat.mod_lt _ (by decide)⟩) := by
  refine shapeCast_apply x h _ _ ?_
  rw [Shape.rowMajor_val_three, Shape.rowMajor_val_two]
  show (g.val * K + c.val / 8) * 8 + c.val % 8 = g.val * C + c.val
  subst hC
  have h8 := Nat.div_add_mod c.val 8
  have e : g.val * (8 * K) = g.val * K * 8 := by rw [Nat.mul_comm 8 K, Nat.mul_assoc]
  rw [e, Nat.add_mul]
  omega

end Reshape

/-! ## The host's arithmetic shift at a lane is the vector unit's -/

theorem hostShrsi_apply {s : Shape} (x y : IVec s 32) (i : s.Idx) : Host.shrsi x y i = IntOp.shrsi .vector (x i) (y i) :=
  shrsi_unit .host .vector (x i) (y i)

/-! ## The row gather read at an index -/

section Gather
variable {α : Type}

theorem fin2_one_ne_zero : (1 : Fin 2) ≠ 0 := by decide

/-- A rank-2 table gathered by rows: operand [G, C], start indices the [N, 1] column, result [N, C]. -/
abbrev rowDims (G C N : Nat) (wf : GatherDims.WF ⟨2, ![G, C]⟩ ⟨2, ![N, 1]⟩ ⟨2, ![N, C]⟩ [1] [0] [] [0] [] 1 ![1, C]) :
    GatherDims ⟨2, ![G, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- Result (r, c) reads row g of the table, g the start index of r when that is in range. -/
theorem gather_rows_apply {G C N w : Nat} (wf : GatherDims.WF ⟨2, ![G, C]⟩ ⟨2, ![N, 1]⟩ ⟨2, ![N, C]⟩ [1] [0] [] [0] [] 1 ![1, C])
    (x : (⟨2, ![G, C]⟩ : Shape).Idx → α) (idx : IVec ⟨2, ![N, 1]⟩ w) (r : Fin N) (c : Fin C) (g : Fin G)
    (hg : (idx (ix2 r 0)).toInt.toNat = g.val) :
    Host.gather (rowDims G C N wf) x idx (ix2 r c) = x (ix2 g c) := by
  unfold Host.gather
  congr 1
  funext a
  refine Fin.ext ?_
  match a with
  | ⟨0, _⟩ =>
    show (rowDims G C N wf).start (ix2 r c) idx 0 + (rowDims G C N wf).batchCoord (ix2 r c) 0
      + (rowDims G C N wf).offCoord (ix2 r c) 0 = g.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims G C N wf).startIndexMap from List.mem_singleton.mpr rfl)]
    have hsi : (rowDims G C N wf).siIdx (ix2 r c) ⟨List.idxOf (0 : Fin 2) (rowDims G C N wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi, hg]
    show min g.val (G - 1) = g.val
    have := g.isLt
    omega
  | ⟨1, _⟩ =>
    show (rowDims G C N wf).start (ix2 r c) idx 1 + (rowDims G C N wf).batchCoord (ix2 r c) 1
      + (rowDims G C N wf).offCoord (ix2 r c) 1 = c.val
    rw [GatherDims.batchCoord_eq_zero _ _ _ List.not_mem_nil]
    unfold GatherDims.start
    rw [dif_neg (show (1 : Fin 2) ∉ (rowDims G C N wf).startIndexMap from fun h => absurd (List.mem_singleton.mp h) fin2_one_ne_zero)]
    unfold GatherDims.offCoord
    rw [dif_pos (show (1 : Fin 2) ∈ (rowDims G C N wf).sKept from (GatherDims.mem_sKept _ _).mpr
      ⟨fun h => absurd (List.mem_singleton.mp h) fin2_one_ne_zero, List.not_mem_nil⟩)]
    show 0 + 0 + c.val = c.val
    omega

end Gather

/-! ## The group index: floor division of a position by 128, as 32-bit words -/

/-- The sign of a word: 0, −1 or 1. -/
def signW (x : BitVec 32) : BitVec 32 := if x = 0 then 0 else if x.msb then -1 else 1

/-- Floor division on words as the host program spells it: the quotient rounded toward zero, less one when the signs
    differ and the remainder is not zero. -/
def floorDivW (x y : BitVec 32) : BitVec 32 :=
  Scalar.select (IntOp.andi (IntOp.cmpi .ne (signW x) (signW y)) (IntOp.cmpi .ne (IntOp.remsi .host x y) 0#32))
    (IntOp.subi (IntOp.divsi .host x y) 1#32) (IntOp.divsi .host x y)

/-- A negative index counts from the end. -/
def wrapW (n g : BitVec 32) : BitVec 32 := Scalar.select (IntOp.cmpi .slt g 0#32) (IntOp.addi g n) g

theorem floorDivW_128 : ∀ r : Fin 5632, floorDivW (BitVec.ofNat 32 r.val) 128#32 = BitVec.ofNat 32 (r.val / 128) := by
  decide +kernel

theorem wrapW_small (n : BitVec 32) : ∀ g : Fin 44, wrapW n (BitVec.ofNat 32 g.val) = BitVec.ofNat 32 g.val := by
  intro g
  have h : IntOp.cmpi .slt (BitVec.ofNat 32 g.val) 0#32 = 0#1 := by revert g; decide +kernel
  unfold wrapW
  rw [h]
  rfl

theorem toInt_small : ∀ g : Fin 44, (BitVec.ofNat 32 g.val).toInt.toNat = g.val := by decide +kernel

/-! ## The stages read at an index -/

theorem shiftTab_apply (s : Fin 8) : shiftTab (ix1 s) = BitVec.ofNat 32 (4 * s.val) :=
  shiftTable_apply bcast_S_S8 s

/-- The integer matrix: the words broadcast along a new middle axis of 8, shifted by the table laid along that axis,
    masked, and reshaped to 8·R8 rows. -/
theorem fields_rows_apply {R8 C R : ℕ} (hR : R = 8 * R8)
    (h1 : (⟨2, ![R8, C]⟩ : Shape).BroadcastsInDim ⟨3, ![R8, 1, C]⟩ ![0, 2])
    (h2 : (⟨3, ![R8, 1, C]⟩ : Shape).BroadcastsInDim ⟨3, ![R8, 8, C]⟩ ![0, 1, 2])
    (h3 : (⟨1, ![8]⟩ : Shape).BroadcastsInDim ⟨3, ![1, 8, 1]⟩ ![1])
    (h4 : (⟨3, ![1, 8, 1]⟩ : Shape).BroadcastsInDim ⟨3, ![R8, 8, C]⟩ ![0, 1, 2])
    (h5 : S_.BroadcastsInDim ⟨3, ![R8, 8, C]⟩ (![] : Fin 0 → Fin 3))
    (h6 : (⟨3, ![R8, 8, C]⟩ : Shape).ShapeCasts ⟨2, ![R, C]⟩)
    (tab : IVec ⟨1, ![8]⟩ 32) (htab : ∀ s : Fin 8, tab (ix1 s) = BitVec.ofNat 32 (4 * s.val))
    (qw : IVec ⟨2, ![R8, C]⟩ 32) (r : Fin R) (c : Fin C) :
    shapeCast ⟨2, ![R, C]⟩
        (andi
          (Host.shrsi (broadcastInDim ⟨3, ![R8, 8, C]⟩ ![0, 1, 2] h2 (broadcastInDim ⟨3, ![R8, 1, C]⟩ ![0, 2] h1 qw))
            (broadcastInDim ⟨3, ![R8, 8, C]⟩ ![0, 1, 2] h4 (broadcastInDim ⟨3, ![1, 8, 1]⟩ ![1] h3 tab)))
          (broadcastInDim ⟨3, ![R8, 8, C]⟩ ![] h5 (constantI S_ 32 15#32)))
        h6 (ix2 r c)
      = Spec.nib (qw (ix2 ⟨r.val / 8, by have := r.isLt; omega⟩ c)) (r.val % 8) := by
  rw [reshape_rows_apply hR]
  show IntOp.andi (Host.shrsi _ _ _) 15#32 = _
  rw [hostShrsi_apply, bcast_mid8_apply, bcast_02_apply, bcast_181_apply, bcast_8mid_apply, htab]
  rfl

/-- The zero-point table: the words broadcast along a new last axis of 8, shifted by the table laid along that axis,
    masked, and reshaped to 8·K columns. -/
theorem fields_cols_apply {G K C : ℕ} (hC : C = 8 * K)
    (h1 : (⟨2, ![G, K]⟩ : Shape).BroadcastsInDim ⟨3, ![G, K, 1]⟩ ![0, 1])
    (h2 : (⟨3, ![G, K, 1]⟩ : Shape).BroadcastsInDim ⟨3, ![G, K, 8]⟩ ![0, 1, 2])
    (h3 : (⟨1, ![8]⟩ : Shape).BroadcastsInDim ⟨3, ![1, 1, 8]⟩ ![2])
    (h4 : (⟨3, ![1, 1, 8]⟩ : Shape).BroadcastsInDim ⟨3, ![G, K, 8]⟩ ![0, 1, 2])
    (h5 : S_.BroadcastsInDim ⟨3, ![G, K, 8]⟩ (![] : Fin 0 → Fin 3))
    (h6 : (⟨3, ![G, K, 8]⟩ : Shape).ShapeCasts ⟨2, ![G, C]⟩)
    (tab : IVec ⟨1, ![8]⟩ 32) (htab : ∀ s : Fin 8, tab (ix1 s) = BitVec.ofNat 32 (4 * s.val))
    (qz : IVec ⟨2, ![G, K]⟩ 32) (g : Fin G) (c : Fin C) :
    shapeCast ⟨2, ![G, C]⟩
        (andi
          (Host.shrsi (broadcastInDim ⟨3, ![G, K, 8]⟩ ![0, 1, 2] h2 (broadcastInDim ⟨3, ![G, K, 1]⟩ ![0, 1] h1 qz))
            (broadcastInDim ⟨3, ![G, K, 8]⟩ ![0, 1, 2] h4 (broadcastInDim ⟨3, ![1, 1, 8]⟩ ![2] h3 tab)))
          (broadcastInDim ⟨3, ![G, K, 8]⟩ ![] h5 (constantI S_ 32 15#32)))
        h6 (ix2 g c)
      = Spec.nib (qz (ix2 g ⟨c.val / 8, by have := c.isLt; omega⟩)) (c.val % 8) := by
  rw [reshape_cols_apply hC]
  show IntOp.andi (Host.shrsi _ _ _) 15#32 = _
  rw [hostShrsi_apply, bcast_last8_apply, bcast_01_apply, bcast_118_apply, bcast_8last_apply, htab]
  rfl

/-- The gather index of row r: the group r / 128, as a word. -/
theorem groupIdx_apply {N : ℕ} (hN : N ≤ 5632) (n : BitVec 32)
    (hb : S_.BroadcastsInDim ⟨1, ![N]⟩ (![] : Fin 0 → Fin 1))
    (hc : (⟨1, ![N]⟩ : Shape).BroadcastsInDim ⟨2, ![N, 1]⟩ ![0]) (r : Fin N) (u : Fin 1) :
    broadcastInDim ⟨2, ![N, 1]⟩ ![0] hc
        (wrapIdx ⟨1, ![N]⟩ hb n (floorDiv ⟨1, ![N]⟩ hb (iotaInDim ⟨1, ![N]⟩ 32 0) (constantI S_ 32 128#32))) (ix2 r u)
      = BitVec.ofNat 32 (r.val / 128) := by
  rw [bcast_col_apply]
  show wrapW n (floorDivW (BitVec.ofNat 32 r.val) 128#32) = _
  have hr := r.isLt
  rw [floorDivW_128 ⟨r.val, by omega⟩]
  exact wrapW_small n ⟨r.val / 128, by omega⟩

/-! ## The dequantized matrices -/

theorem refDeqA_apply (qw : IVec S256x5632 32) (qz : IVec S16x704 32) (sc : FVec Ideal S16x5632 .f32)
    (r : Fin 2048) (c : Fin 5632) :
    refDeqA (F := Ideal) qw qz sc (ix2 r c)
      = Spec.deq (R8 := 256) (C := 5632) (C8 := 704) (G := 16) (R := 2048) rfl rfl rfl qw qz sc (ix2 r c) := by
  have hr := r.isLt
  have hq : qA qw (ix2 r c) = Spec.nib (qw (ix2 ⟨r.val / 8, by omega⟩ c)) (r.val % 8) :=
    fields_rows_apply (R8 := 256) (C := 5632) (R := 2048) rfl bcast_S256x5632_S256x1x5632_0_2
      bcast_S256x1x5632_S256x8x5632_0_1_2 bcast_S8_S1x8x1_1 bcast_S1x8x1_S256x8x5632_0_1_2 bcast_S_S256x8x5632
      shapeCasts_S256x8x5632_S2048x5632 shiftTab shiftTab_apply qw r c
  have hz : ∀ g : Fin 16, zA qz (ix2 g c) = Spec.nib (qz (ix2 g ⟨c.val / 8, by have := c.isLt; omega⟩)) (c.val % 8) :=
    fun g => fields_cols_apply (G := 16) (K := 704) (C := 5632) rfl bcast_S16x704_S16x704x1_0_1
      bcast_S16x704x1_S16x704x8_0_1_2 bcast_S8_S1x1x8_2 bcast_S1x1x8_S16x704x8_0_1_2 bcast_S_S16x704x8
      shapeCasts_S16x704x8_S16x5632 shiftTab shiftTab_apply qz g c
  have hi : gidxA (ix2 r 0) = BitVec.ofNat 32 (r.val / 128) :=
    groupIdx_apply (N := 2048) (by decide) 16#32 bcast_S_S2048 bcast_S2048_S2048x1_0 r 0
  have hg : (gidxA (ix2 r 0)).toInt.toNat = (⟨r.val / 128, by omega⟩ : Fin 16).val := by
    rw [hi]; exact toInt_small ⟨r.val / 128, by omega⟩
  have hzr : zRowsA qz (ix2 r c) = zA qz (ix2 ⟨r.val / 128, by omega⟩ c) :=
    gather_rows_apply (G := 16) (C := 5632) (N := 2048) gather_S16x5632_S2048x1_S2048x5632_1_0_n_n_0_1_15632_wf
      (zA qz) gidxA r c ⟨r.val / 128, by omega⟩ hg
  have hsr : scRowsA (F := Ideal) sc (ix2 r c) = sc (ix2 ⟨r.val / 128, by omega⟩ c) :=
    gather_rows_apply (G := 16) (C := 5632) (N := 2048) gather_S16x5632_S2048x1_S2048x5632_1_0_n_n_0_1_15632_wf
      sc gidxA r c ⟨r.val / 128, by omega⟩ hg
  rw [Spec.deq_apply]
  unfold refDeqA
  rw [mulf_apply, sitofp_apply]
  unfold diffA
  show (FloatOps.sitofp (F := Ideal) .f32 (IntOp.subi (qA qw (ix2 r c)) (IntOp.addi (zRowsA qz (ix2 r c)) 1#32)) : EReal)
      * scRowsA (F := Ideal) sc (ix2 r c) = _
  rw [hq, hzr, hz, hsr]
  rfl

theorem refDeqA_eq (qw : IVec S256x5632 32) (qz : IVec S16x704 32) (sc : FVec Ideal S16x5632 .f32) :
    refDeqA (F := Ideal) qw qz sc
      = Spec.deq (R8 := 256) (C := 5632) (C8 := 704) (G := 16) (R := 2048) rfl rfl rfl qw qz sc := by
  funext i
  rw [eq_ix2 i]
  exact refDeqA_apply qw qz sc (i 0) (i 1)

theorem refDeqB_apply (qw : IVec S704x2048 32) (qz : IVec S44x256 32) (sc : FVec Ideal S44x2048 .f32)
    (r : Fin 5632) (c : Fin 2048) :
    refDeqB (F := Ideal) qw qz sc (ix2 r c)
      = Spec.deq (R8 := 704) (C := 2048) (C8 := 256) (G := 44) (R := 5632) rfl rfl rfl qw qz sc (ix2 r c) := by
  have hr := r.isLt
  have hq : qB qw (ix2 r c) = Spec.nib (qw (ix2 ⟨r.val / 8, by omega⟩ c)) (r.val % 8) :=
    fields_rows_apply (R8 := 704) (C := 2048) (R := 5632) rfl bcast_S704x2048_S704x1x2048_0_2
      bcast_S704x1x2048_S704x8x2048_0_1_2 bcast_S8_S1x8x1_1 bcast_S1x8x1_S704x8x2048_0_1_2 bcast_S_S704x8x2048
      shapeCasts_S704x8x2048_S5632x2048 shiftTab shiftTab_apply qw r c
  have hz : ∀ g : Fin 44, zB qz (ix2 g c) = Spec.nib (qz (ix2 g ⟨c.val / 8, by have := c.isLt; omega⟩)) (c.val % 8) :=
    fun g => fields_cols_apply (G := 44) (K := 256) (C := 2048) rfl bcast_S44x256_S44x256x1_0_1
      bcast_S44x256x1_S44x256x8_0_1_2 bcast_S8_S1x1x8_2 bcast_S1x1x8_S44x256x8_0_1_2 bcast_S_S44x256x8
      shapeCasts_S44x256x8_S44x2048 shiftTab shiftTab_apply qz g c
  have hi : gidxB (ix2 r 0) = BitVec.ofNat 32 (r.val / 128) :=
    groupIdx_apply (N := 5632) (by decide) 44#32 bcast_S_S5632 bcast_S5632_S5632x1_0 r 0
  have hg : (gidxB (ix2 r 0)).toInt.toNat = (⟨r.val / 128, by omega⟩ : Fin 44).val := by
    rw [hi]; exact toInt_small ⟨r.val / 128, by omega⟩
  have hzr : zRowsB qz (ix2 r c) = zB qz (ix2 ⟨r.val / 128, by omega⟩ c) :=
    gather_rows_apply (G := 44) (C := 2048) (N := 5632) gather_S44x2048_S5632x1_S5632x2048_1_0_n_n_0_1_12048_wf
      (zB qz) gidxB r c ⟨r.val / 128, by omega⟩ hg
  have hsr : scRowsB (F := Ideal) sc (ix2 r c) = sc (ix2 ⟨r.val / 128, by omega⟩ c) :=
    gather_rows_apply (G := 44) (C := 2048) (N := 5632) gather_S44x2048_S5632x1_S5632x2048_1_0_n_n_0_1_12048_wf
      sc gidxB r c ⟨r.val / 128, by omega⟩ hg
  rw [Spec.deq_apply]
  unfold refDeqB
  rw [mulf_apply, sitofp_apply]
  unfold diffB
  show (FloatOps.sitofp (F := Ideal) .f32 (IntOp.subi (qB qw (ix2 r c)) (IntOp.addi (zRowsB qz (ix2 r c)) 1#32)) : EReal)
      * scRowsB (F := Ideal) sc (ix2 r c) = _
  rw [hq, hzr, hz, hsr]
  rfl

theorem refDeqB_eq (qw : IVec S704x2048 32) (qz : IVec S44x256 32) (sc : FVec Ideal S44x2048 .f32) :
    refDeqB (F := Ideal) qw qz sc
      = Spec.deq (R8 := 704) (C := 2048) (C8 := 256) (G := 44) (R := 5632) rfl rfl rfl qw qz sc := by
  funext i
  rw [eq_ix2 i]
  exact refDeqB_apply qw qz sc (i 0) (i 1)

end Cert.ReferenceIdeal.RV

end
-- ==== Proof.RefTailRead.lean ====
/-
  The reference's tail read at an index: the gated product (silu (x·Wg) ⊙ (x·Wu))·Wd, as the reference spells it
  with its own operations, is the gated MLP of the specification. Each of the three matrix products is, at an
  index, the sum over the contracted coordinate of the products of the entries; silu as spelled, g · (1 / (1 + e^(−g))),
  is g times the logistic of g, because the word 0x3F800000 is the number one and the quotient 1 / (1 + e^(−g)) is the
  logistic by definition. Both sides are then the same sums of the same products, (g · logistic g) · u.
-/
import proofs.«414438_j53953379173325_3_alg».proof.Proof.Gen.ReferenceIdeal
import proofs.«414438_j53953379173325_3_alg».proof.Proof.Spec
import proofs.«414438_j53953379173325_3_alg».proof.Proof.RefTerms
import Idealize.ShloMosaic.Lib.StackMember
import Idealize.ShloMosaic.Lib.ValueIdx
import Idealize.ShloMosaic.PureOps.Ideal.Laws

noncomputable section

namespace Cert.ReferenceIdeal.RV

open Cert.ReferenceIdeal
open Idealize.ShloMosaic Idealize.ShloMosaic.ValueIdx

/-- The f32 word 0x3F800000 is the number one. -/
private theorem ofBits_one_f32 : Ideal.ofBits .f32 0x3F800000#32 = 1 := by
  simp [Ideal.ofBits, Ideal.ieee, -EReal.coe_mul]; norm_num

/-- The gate and up products' dimension numbers are those of the plain product of an 8192×2048 by a 2048×5632 matrix:
    contract the left operand's columns with the right operand's rows. -/
private theorem dotUp_eq_plain : dot_S8192x2048_S2048x5632_S8192x5632_1_0_0_1_n_n = DotDims.plain 8192 2048 5632 := rfl

/-- The down product's dimension numbers are those of the plain product of an 8192×5632 by a 5632×2048 matrix. -/
private theorem dotDown_eq_plain : dot_S8192x5632_S5632x2048_S8192x2048_1_0_0_1_n_n = DotDims.plain 8192 5632 2048 := rfl

/-- x · W at (t, k): the sum over the 2048 input features of x (t, r) · W (r, k). -/
theorem projH_apply (x : FVec Ideal S8192x2048 .f32) (w : FVec Ideal S2048x5632 .f32) (t : Fin 8192) (k : Fin 5632) :
    projH (F := Ideal) x w (ix2 t k) = ∑ r : Fin 2048, x (ix2 t r) * w (ix2 r k) := by
  unfold projH
  rw [dotUp_eq_plain]
  exact StackMember.dotGeneral_plain_apply none x w t k

/-- silu as the reference spells it, g · (1 / (1 + e^(−g))), at an index: g times the logistic of g. -/
theorem silu_apply (g : FVec Ideal S8192x5632 .f32) (i : S8192x5632.Idx) :
    silu (F := Ideal) g i = g i * Ideal.logistic (g i) := by
  show g i * Ideal.div (Ideal.ofBits .f32 0x3F800000#32) (Ideal.ofBits .f32 0x3F800000#32 + Ideal.exp (- g i)) = _
  rw [ofBits_one_f32]
  rfl

/-- The hidden activation at (t, k): with g and u the gate and up sums, (g · logistic g) · u. -/
theorem hidden_apply (x : FVec Ideal S8192x2048 .f32) (wg wu : FVec Ideal S2048x5632 .f32) (t : Fin 8192) (k : Fin 5632) :
    hidden (F := Ideal) x wg wu (ix2 t k) = Spec.hid (I := 5632) (le_refl 5632) x wg wu t k := by
  unfold hidden
  rw [mulf_apply, silu_apply, projH_apply, projH_apply]
  rfl

/-- The reference's tail is the gated MLP of the specification, index by index: the down product at (t, n) is the sum
    over the 5632 inner columns of the hidden activation times the down matrix's entry. -/
theorem refTail_eq (x : FVec Ideal S8192x2048 .f32) (wg wu : FVec Ideal S2048x5632 .f32) (wd : FVec Ideal S5632x2048 .f32) :
    refTail (F := Ideal) x wg wu wd = Spec.mlp (I := 5632) (le_refl 5632) x wg wu wd := by
  funext j
  obtain ⟨t, n, rfl⟩ : ∃ (t : Fin 8192) (n : Fin 2048), j = ix2 t n := ⟨j 0, j 1, eq_ix2 j⟩
  rw [Spec.mlp_apply]
  unfold refTail
  rw [dotDown_eq_plain]
  refine (StackMember.dotGeneral_plain_apply none (hidden (F := Ideal) x wg wu) wd t n).trans ?_
  refine Finset.sum_congr rfl fun k _ => ?_
  rw [hidden_apply]

end Cert.ReferenceIdeal.RV

end
-- ==== Proof.lean ====
/-
  The certificate: a GPTQ int4 gated MLP in four kernel regions equals its jnp reference over the extended reals.

  Both programs dequantize three weight matrices — a weight is (q − (z + 1)) · scale, q and z four-bit fields of packed
  32-bit words — and compute (silu (x·Wg) ⊙ (x·Wu))·Wd. The kernel program pads the inner width 5632 to 6144 with zeros,
  dequantizes block by block, and accumulates the last product over 22 inner blocks of 256; the reference gathers each
  row's group and takes three whole matrix products. At the ideal values a change of float format is the identity,
  a sum taken block by block is the sum (addition of extended reals is associative and commutative), the padded
  columns and rows are never read, and the logistic function is 1 / (1 + exp (−g)) in both spellings: so both results
  are one function of the arguments (Proof/Spec.lean). No step needs the inputs to be finite.
-/
import proofs.«414438_j53953379173325_3_alg».proof.Defs
import proofs.«414438_j53953379173325_3_alg».proof.Proof.Gen.Kernel
import proofs.«414438_j53953379173325_3_alg».proof.Proof.Gen.Kernel.Frame
import proofs.«414438_j53953379173325_3_alg».proof.Proof.Gen.KernelIdeal
import proofs.«414438_j53953379173325_3_alg».proof.Proof.Gen.KernelIdeal.Frame
import proofs.«414438_j53953379173325_3_alg».proof.Proof.Gen.ReferenceIdeal
import proofs.«414438_j53953379173325_3_alg».proof.Proof.Gen.Pre_finite_inputs
import proofs.«414438_j53953379173325_3_alg».proof.Proof.KernelValue
import proofs.«414438_j53953379173325_3_alg».proof.Proof.RefRun
import proofs.«414438_j53953379173325_3_alg».proof.Proof.RefDeqRead
import proofs.«414438_j53953379173325_3_alg».proof.Proof.RefTailRead
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.RV.run (F := Ideal) m ρ)

/-- The ideal pass rewrote nothing. -/
theorem preserves : Cert.preserves_Kernel_KernelIdeal := trivial

/-- Both programs end with the specification's function of the argument arrays in their result buffers: the kernel
    program by its regions' values, the reference by reading its host operations index by index; the memories agree
    on the arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KV.kernel_value m ρ c), (h c).2⟩)
      (Cert.KernelIdeal.GenP.run_value (F := Ideal) m ρ)
  · refine (θ_run Cert.ReferenceIdeal.defs _ _).mono (fun _ h c => ⟨(h c).1.trans ?_, (h c).2⟩)
      (Cert.ReferenceIdeal.RV.run (F := Ideal) m' ρ')
    obtain ⟨e0, e1, e2, e3, e4, e5, e6, e7, e8, e9⟩ := hagree c
    rw [Cert.ReferenceIdeal.RV.refTail_eq, Cert.ReferenceIdeal.RV.refDeqA_eq, Cert.ReferenceIdeal.RV.refDeqA_eq,
      Cert.ReferenceIdeal.RV.refDeqB_eq, e0, e1, e2, e3, e4, e5, e6, e7, e8, e9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
